-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x8x8x8x4096 : Shape := ⟨6, ![1, 16, 8, 8, 8, 4096]⟩
abbrev S_ : Shape := ⟨0, ![]⟩

class Facts : Prop where
  bcast_S_S1x16x8x8x8x4096 : S_.BroadcastsInDim S1x16x8x8x8x4096 (![] : Fin 0 → Fin S1x16x8x8x8x4096.rank)
  reducesTo_S1x16x8x8x8x4096_S_d0_1_2_3_4_5 : S1x16x8x8x8x4096.ReducesTo [0, 1, 2, 3, 4, 5] S_
  h_S_ : 0 < S_.numel

variable [Facts]

def fn {F : FTy → Type} [FloatOps F] (main_arg0 : FVec F S1x16x8x8x8x4096 .f32) : IVec S_ 1 :=
  let main_v0 : FVec F S1x16x8x8x8x4096 .f32 := Host.absf main_arg0
  let main_cst : FVec F S_ .f32 := constant S_ .f32 0x7F800000#32
  let main_v1 : FVec F S1x16x8x8x8x4096 .f32 := broadcastInDim S1x16x8x8x8x4096 ![] bcast_S_S1x16x8x8x8x4096 main_cst
  let main_v2 : IVec S1x16x8x8x8x4096 1 := cmpf .olt main_v0 main_v1
  let main_c : IVec S_ 1 := constantI S_ 1 1#1
  let main_v3 : IVec S_ 1 := (fun x v => Host.reduce IntOp.andi x v reducesTo_S1x16x8x8x8x4096_S_d0_1_2_3_4_5 h_S_) main_v2 main_c
  main_v3
-- ==== Kernel.lean ====
abbrev S1x16x8x8x8x4096 : Shape := ⟨6, ![1, 16, 8, 8, 8, 4096]⟩
abbrev S1x16x8x8x8x16x16x16 : Shape := ⟨8, ![1, 16, 8, 8, 8, 16, 16, 16]⟩
abbrev S1x16x16x8x16x8x16x8 : Shape := ⟨8, ![1, 16, 16, 8, 16, 8, 16, 8]⟩
abbrev S1x16x128x128x128 : Shape := ⟨5, ![1, 16, 128, 128, 128]⟩
abbrev S16x128x128x128 : Shape := ⟨4, ![16, 128, 128, 128]⟩
abbrev S16x68x128x128 : Shape := ⟨4, ![16, 68, 128, 128]⟩
abbrev S2x8x128x128 : Shape := ⟨4, ![2, 8, 128, 128]⟩
abbrev S2x68x128x128 : Shape := ⟨4, ![2, 68, 128, 128]⟩
abbrev S16x128x68x128 : Shape := ⟨4, ![16, 128, 68, 128]⟩
abbrev S16x68x68x128 : Shape := ⟨4, ![16, 68, 68, 128]⟩
abbrev S4x8x68x128 : Shape := ⟨4, ![4, 8, 68, 128]⟩
abbrev S4x68x68x128 : Shape := ⟨4, ![4, 68, 68, 128]⟩
abbrev S16x128x68x68 : Shape := ⟨4, ![16, 128, 68, 68]⟩
abbrev S16x68x68x68 : Shape := ⟨4, ![16, 68, 68, 68]⟩
abbrev S8x8x68x68 : Shape := ⟨4, ![8, 8, 68, 68]⟩
abbrev S8x68x68x68 : Shape := ⟨4, ![8, 68, 68, 68]⟩
abbrev S1x16x68x68x68 : Shape := ⟨5, ![1, 16, 68, 68, 68]⟩

abbrev nBuf : Space → Nat
  | .hbm => 12
  | .vmem => 15
  | .smem => 0
  | _ => 0

abbrev bufTy : (tb : Table) → Fin (tcTables nBuf tb) → BufTy
  | .hbm, ⟨0, _⟩ => ⟨S1x16x8x8x8x4096, .f32⟩
  | .hbm, ⟨1, _⟩ => ⟨S1x16x8x8x8x16x16x16, .f32⟩
  | .hbm, ⟨2, _⟩ => ⟨S1x16x16x8x16x8x16x8, .f32⟩
  | .hbm, ⟨3, _⟩ => ⟨S1x16x128x128x128, .f32⟩
  | .hbm, ⟨4, _⟩ => ⟨S16x128x128x128, .f32⟩
  | .hbm, ⟨5, _⟩ => ⟨S16x68x128x128, .f32⟩
  | .hbm, ⟨6, _⟩ => ⟨S16x128x68x128, .f32⟩
  | .hbm, ⟨7, _⟩ => ⟨S16x68x68x128, .f32⟩
  | .hbm, ⟨8, _⟩ => ⟨S16x128x68x68, .f32⟩
  | .hbm, ⟨9, _⟩ => ⟨S16x68x68x68, .f32⟩
  | .hbm, ⟨10, _⟩ => ⟨S16x68x68x68, .f32⟩
  | .hbm, ⟨11, _⟩ => ⟨S1x16x68x68x68, .f32⟩
  | .local _ .vmem, ⟨0, _⟩ => ⟨S2x8x128x128, .f32⟩
  | .local _ .vmem, ⟨1, _⟩ => ⟨S2x8x128x128, .f32⟩
  | .local _ .vmem, ⟨2, _⟩ => ⟨S2x68x128x128, .f32⟩
  | .local _ .vmem, ⟨3, _⟩ => ⟨S2x68x128x128, .f32⟩
  | .local _ .vmem, ⟨4, _⟩ => ⟨S2x68x128x128, .f32⟩
  | .local _ .vmem, ⟨5, _⟩ => ⟨S4x8x68x128, .f32⟩
  | .local _ .vmem, ⟨6, _⟩ => ⟨S4x8x68x128, .f32⟩
  | .local _ .vmem, ⟨7, _⟩ => ⟨S4x68x68x128, .f32⟩
  | .local _ .vmem, ⟨8, _⟩ => ⟨S4x68x68x128, .f32⟩
  | .local _ .vmem, ⟨9, _⟩ => ⟨S4x68x68x128, .f32⟩
  | .local _ .vmem, ⟨10, _⟩ => ⟨S8x8x68x68, .f32⟩
  | .local _ .vmem, ⟨11, _⟩ => ⟨S8x8x68x68, .f32⟩
  | .local _ .vmem, ⟨12, _⟩ => ⟨S8x68x68x68, .f32⟩
  | .local _ .vmem, ⟨13, _⟩ => ⟨S8x68x68x68, .f32⟩
  | .local _ .vmem, ⟨14, _⟩ => ⟨S8x68x68x68, .f32⟩
  | _, _ => ⟨S1x16x8x8x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c4_i32 : BitVec 32 := 4#32
  let v3 : BitVec 32 := Scalar.muli arg1 c4_i32
  v3
def k0_off1 (i : grid0.Coords) : Fin 4 → Nat :=
  let c0 : Index := 0#32
  let arg1 : BitVec 32 := BitVec.ofNat 32 (i 1).val
  let c4_i32 : BitVec 32 := 4#32
  let v3 : BitVec 32 := Scalar.muli arg1 c4_i32
  let v4 : BitVec 32 := v3
  let v5 : Index := Scalar.indexCast v4
  let c0_1 : Index := 0#32
  let c0_2 : Index := 0#32
  ![0, v5.toNat, 0, 0]
def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x68x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 16], ![false, false]⟩

def k1_mult1 (i : grid1.Coords) : BitVec 32 :=
  let arg1 : BitVec 32 := BitVec.ofNat 32 (i 1).val
  let c4_i32 : BitVec 32 := 4#32
  let v3 : BitVec 32 := Scalar.muli arg1 c4_i32
  v3
def k1_off1 (i : grid1.Coords) : Fin 4 → Nat :=
  let c0 : Index := 0#32
  let arg1 : BitVec 32 := BitVec.ofNat 32 (i 1).val
  let c4_i32 : BitVec 32 := 4#32
  let v3 : BitVec 32 := Scalar.muli arg1 c4_i32
  let v4 : BitVec 32 := v3
  let v5 : Index := Scalar.indexCast v4
  let c0_1 : Index := 0#32
  let c0_2 : Index := 0#32
  ![0, v5.toNat, 0, 0]
def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x8x68x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x68x68x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![2, 16], ![false, false]⟩

def k2_mult1 (i : grid2.Coords) : BitVec 32 :=
  let arg1 : BitVec 32 := BitVec.ofNat 32 (i 1).val
  let c4_i32 : BitVec 32 := 4#32
  let v3 : BitVec 32 := Scalar.muli arg1 c4_i32
  v3
def k2_off1 (i : grid2.Coords) : Fin 4 → Nat :=
  let c0 : Index := 0#32
  let arg1 : BitVec 32 := BitVec.ofNat 32 (i 1).val
  let c4_i32 : BitVec 32 := 4#32
  let v3 : BitVec 32 := Scalar.muli arg1 c4_i32
  let v4 : BitVec 32 := v3
  let v5 : Index := Scalar.indexCast v4
  let c0_1 : Index := 0#32
  let c0_2 : Index := 0#32
  ![0, v5.toNat, 0, 0]
def k2_cond2 (i : grid2.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S8x8x68x68 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x68x68x68 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

class Facts₀ : Prop where
  shapeCasts_S1x16x8x8x8x4096_S1x16x8x8x8x16x16x16 : S1x16x8x8x8x4096.ShapeCasts S1x16x8x8x8x16x16x16
  transposes_S1x16x8x8x8x16x16x16_S1x16x16x8x16x8x16x8_0_1_5_2_6_3_7_4 : S1x16x8x8x8x16x16x16.Transposes [0, 1, 5, 2, 6, 3, 7, 4] S1x16x16x8x16x8x16x8
  shapeCasts_S1x16x16x8x16x8x16x8_S1x16x128x128x128 : S1x16x16x8x16x8x16x8.ShapeCasts S1x16x128x128x128
  shapeCasts_S1x16x128x128x128_S16x128x128x128 : S1x16x128x128x128.ShapeCasts S16x128x128x128
  inb_S2x68x128x128_S2x68x128x128_0_0_0_0 : ∀ a, (![0, 0, 0, 0] : Fin 4 → Nat) a + S2x68x128x128.size a ≤ S2x68x128x128.size a
  h_S2x68x128x128 : 0 < S2x68x128x128.numel
  shapeCasts_S2x68x128x128_S2x68x128x128 : S2x68x128x128.ShapeCasts S2x68x128x128
  h_S2x8x128x128 : 0 < S2x8x128x128.numel
  inb_S2x8x128x128_S2x8x128x128_0_0_0_0 : ∀ a, (![0, 0, 0, 0] : Fin 4 → Nat) a + S2x8x128x128.size a ≤ S2x8x128x128.size a
  shapeCasts_S2x8x128x128_S2x8x128x128 : S2x8x128x128.ShapeCasts S2x8x128x128
  transposes_S16x68x128x128_S16x128x68x128_0_2_1_3 : S16x68x128x128.Transposes [0, 2, 1, 3] S16x128x68x128
  inb_S4x68x68x128_S4x68x68x128_0_0_0_0 : ∀ a, (![0, 0, 0, 0] : Fin 4 → Nat) a + S4x68x68x128.size a ≤ S4x68x68x128.size a
  h_S4x68x68x128 : 0 < S4x68x68x128.numel
  shapeCasts_S4x68x68x128_S4x68x68x128 : S4x68x68x128.ShapeCasts S4x68x68x128
  h_S4x8x68x128 : 0 < S4x8x68x128.numel
  inb_S4x8x68x128_S4x8x68x128_0_0_0_0 : ∀ a, (![0, 0, 0, 0] : Fin 4 → Nat) a + S4x8x68x128.size a ≤ S4x8x68x128.size a
  shapeCasts_S4x8x68x128_S4x8x68x128 : S4x8x68x128.ShapeCasts S4x8x68x128
  transposes_S16x68x68x128_S16x128x68x68_0_3_2_1 : S16x68x68x128.Transposes [0, 3, 2, 1] S16x128x68x68
  inb_S8x68x68x68_S8x68x68x68_0_0_0_0 : ∀ a, (![0, 0, 0, 0] : Fin 4 → Nat) a + S8x68x68x68.size a ≤ S8x68x68x68.size a
  h_S8x68x68x68 : 0 < S8x68x68x68.numel
  shapeCasts_S8x68x68x68_S8x68x68x68 : S8x68x68x68.ShapeCasts S8x68x68x68
  h_S8x8x68x68 : 0 < S8x8x68x68.numel
  inb_S8x8x68x68_S8x8x68x68_0_0_0_0 : ∀ a, (![0, 0, 0, 0] : Fin 4 → Nat) a + S8x8x68x68.size a ≤ S8x8x68x68.size a
  shapeCasts_S8x8x68x68_S8x8x68x68 : S8x8x68x68.ShapeCasts S8x8x68x68
  transposes_S16x68x68x68_S16x68x68x68_0_2_3_1 : S16x68x68x68.Transposes [0, 2, 3, 1] S16x68x68x68
  shapeCasts_S16x68x68x68_S1x16x68x68x68 : S16x68x68x68.ShapeCasts S1x16x68x68x68
  hrank0 : 0 < grid0.rank
  k0_mult1_dvd : ∀ i : grid0.Coords, 4 ∣ (k0_mult1 i).toNat
  k0_off1_inb : ∀ i : grid0.Coords, ∀ a, (k0_off1 i) a + S2x8x128x128.size a ≤ S2x68x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8x128x128.size a ≤ S16x128x128x128.size a
  hwx0_0 : ∀ i : grid0.Coords, EltTy.bits .f32 = 32 ∨ (Rect.block (s := S16x128x128x128) S2x8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x68x128x128.size a ≤ S16x68x128x128.size a
  hwx0_1 : ∀ i : grid0.Coords, EltTy.bits .f32 = 32 ∨ (Rect.block (s := S16x68x128x128) S2x68x128x128.size (cc0_transform_1 i) (hinb0_1 i)).WholeWords (EltTy.packing .f32)
  hrank1 : 0 < grid1.rank
  k1_mult1_dvd : ∀ i : grid1.Coords, 4 ∣ (k1_mult1 i).toNat
  k1_off1_inb : ∀ i : grid1.Coords, ∀ a, (k1_off1 i) a + S4x8x68x128.size a ≤ S4x68x68x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x8x68x128.size a ≤ S16x128x68x128.size a
  hwx1_0 : ∀ i : grid1.Coords, EltTy.bits .f32 = 32 ∨ (Rect.block (s := S16x128x68x128) S4x8x68x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x68x68x128.size a ≤ S16x68x68x128.size a
  hwx1_1 : ∀ i : grid1.Coords, EltTy.bits .f32 = 32 ∨ (Rect.block (s := S16x68x68x128) S4x68x68x128.size (cc1_transform_1 i) (hinb1_1 i)).WholeWords (EltTy.packing .f32)
  hrank2 : 0 < grid2.rank
  k2_mult1_dvd : ∀ i : grid2.Coords, 4 ∣ (k2_mult1 i).toNat
  k2_off1_inb : ∀ i : grid2.Coords, ∀ a, (k2_off1 i) a + S8x8x68x68.size a ≤ S8x68x68x68.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x8x68x68.size a ≤ S16x128x68x68.size a
  hwx2_0 : ∀ i : grid2.Coords, EltTy.bits .f32 = 32 ∨ (Rect.block (s := S16x128x68x68) S8x8x68x68.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x68x68x68.size a ≤ S16x68x68x68.size a
  hwx2_1 : ∀ i : grid2.Coords, EltTy.bits .f32 = 32 ∨ (Rect.block (s := S16x68x68x68) S8x68x68x68.size (cc2_transform_1 i) (hinb2_1 i)).WholeWords (EltTy.packing .f32)

variable [Facts₀]

abbrev win0_0 : Pipeline.Window sig grid0 :=
  Pipeline.Window.ofSpec (Memref.whole main_v3) S2x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2x68x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v5) S4x8x68x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4x68x68x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v7) S8x8x68x68.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S8x68x68x68.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond2 i == 1#1) | ⟨_ + 2, h⟩ => absurd h (Nat.not_lt.2 (Nat.le_add_left _ _))

class Facts : Prop extends Facts₀ where

variable [Facts]
-- ==== ReferenceIdeal.lean ====
abbrev S1x16x8x8x8x4096 : Shape := ⟨6, ![1, 16, 8, 8, 8, 4096]⟩
abbrev S1x16x8x8x8x16x16x16 : Shape := ⟨8, ![1, 16, 8, 8, 8, 16, 16, 16]⟩
abbrev S1x16x16x8x16x8x16x8 : Shape := ⟨8, ![1, 16, 16, 8, 16, 8, 16, 8]⟩
abbrev S1x16x128x128x128 : Shape := ⟨5, ![1, 16, 128, 128, 128]⟩
abbrev S16 : Shape := ⟨1, ![16]⟩
abbrev S16x1 : Shape := ⟨2, ![16, 1]⟩
abbrev S_ : Shape := ⟨0, ![]⟩
abbrev S8 : Shape := ⟨1, ![8]⟩
abbrev S1x8 : Shape := ⟨2, ![1, 8]⟩
abbrev S16x8 : Shape := ⟨2, ![16, 8]⟩
abbrev S128 : Shape := ⟨1, ![128]⟩
abbrev S1x16x68x68x68 : Shape := ⟨5, ![1, 16, 68, 68, 68]⟩
abbrev S128x1x1 : Shape := ⟨3, ![128, 1, 1]⟩
abbrev S1x128x1 : Shape := ⟨3, ![1, 128, 1]⟩
abbrev S1x1x128 : Shape := ⟨3, ![1, 1, 128]⟩
abbrev S128x128x128 : Shape := ⟨3, ![128, 128, 128]⟩
abbrev S128x128x128x1 : Shape := ⟨4, ![128, 128, 128, 1]⟩
abbrev S128x128x128x3 : Shape := ⟨4, ![128, 128, 128, 3]⟩

abbrev nBuf : Space → Nat
  | .hbm => 71
  | .vmem => 0
  | .smem => 0
  | _ => 0

abbrev bufTy : (tb : Table) → Fin (tcTables nBuf tb) → BufTy
  | .hbm, ⟨0, _⟩ => ⟨S1x16x8x8x8x4096, .f32⟩
  | .hbm, ⟨1, _⟩ => ⟨S1x16x8x8x8x16x16x16, .f32⟩
  | .hbm, ⟨2, _⟩ => ⟨S1x16x16x8x16x8x16x8, .f32⟩
  | .hbm, ⟨3, _⟩ => ⟨S1x16x128x128x128, .f32⟩
  | .hbm, ⟨4, _⟩ => ⟨S16, .i32⟩
  | .hbm, ⟨5, _⟩ => ⟨S16x1, .i32⟩
  | .hbm, ⟨6, _⟩ => ⟨S_, .i32⟩
  | .hbm, ⟨7, _⟩ => ⟨S16x1, .i32⟩
  | .hbm, ⟨8, _⟩ => ⟨S16x1, .i32⟩
  | .hbm, ⟨9, _⟩ => ⟨S8, .i32⟩
  | .hbm, ⟨10, _⟩ => ⟨S1x8, .i32⟩
  | .hbm, ⟨11, _⟩ => ⟨S16x8, .i32⟩
  | .hbm, ⟨12, _⟩ => ⟨S16x8, .i32⟩
  | .hbm, ⟨13, _⟩ => ⟨S16x8, .i32⟩
  | .hbm, ⟨14, _⟩ => ⟨S128, .i32⟩
  | .hbm, ⟨15, _⟩ => ⟨S16, .i32⟩
  | .hbm, ⟨16, _⟩ => ⟨S16x1, .i32⟩
  | .hbm, ⟨17, _⟩ => ⟨S_, .i32⟩
  | .hbm, ⟨18, _⟩ => ⟨S16x1, .i32⟩
  | .hbm, ⟨19, _⟩ => ⟨S16x1, .i32⟩
  | .hbm, ⟨20, _⟩ => ⟨S8, .i32⟩
  | .hbm, ⟨21, _⟩ => ⟨S1x8, .i32⟩
  | .hbm, ⟨22, _⟩ => ⟨S16x8, .i32⟩
  | .hbm, ⟨23, _⟩ => ⟨S16x8, .i32⟩
  | .hbm, ⟨24, _⟩ => ⟨S16x8, .i32⟩
  | .hbm, ⟨25, _⟩ => ⟨S128, .i32⟩
  | .hbm, ⟨26, _⟩ => ⟨S16, .i32⟩
  | .hbm, ⟨27, _⟩ => ⟨S16x1, .i32⟩
  | .hbm, ⟨28, _⟩ => ⟨S_, .i32⟩
  | .hbm, ⟨29, _⟩ => ⟨S16x1, .i32⟩
  | .hbm, ⟨30, _⟩ => ⟨S16x1, .i32⟩
  | .hbm, ⟨31, _⟩ => ⟨S8, .i32⟩
  | .hbm, ⟨32, _⟩ => ⟨S1x8, .i32⟩
  | .hbm, ⟨33, _⟩ => ⟨S16x8, .i32⟩
  | .hbm, ⟨34, _⟩ => ⟨S16x8, .i32⟩
  | .hbm, ⟨35, _⟩ => ⟨S16x8, .i32⟩
  | .hbm, ⟨36, _⟩ => ⟨S128, .i32⟩
  | .hbm, ⟨37, _⟩ => ⟨S_, .f32⟩
  | .hbm, ⟨38, _⟩ => ⟨S1x16x68x68x68, .f32⟩
  | .hbm, ⟨39, _⟩ => ⟨S128x1x1, .i32⟩
  | .hbm, ⟨40, _⟩ => ⟨S1x128x1, .i32⟩
  | .hbm, ⟨41, _⟩ => ⟨S1x1x128, .i32⟩
  | .hbm, ⟨42, _⟩ => ⟨S_, .i32⟩
  | .hbm, ⟨43, _⟩ => ⟨S128x1x1, .i32⟩
  | .hbm, ⟨44, _⟩ => ⟨S128x1x1, .i1⟩
  | .hbm, ⟨45, _⟩ => ⟨S_, .i32⟩
  | .hbm, ⟨46, _⟩ => ⟨S128x1x1, .i32⟩
  | .hbm, ⟨47, _⟩ => ⟨S128x1x1, .i32⟩
  | .hbm, ⟨48, _⟩ => ⟨S128x1x1, .i32⟩
  | .hbm, ⟨49, _⟩ => ⟨S_, .i32⟩
  | .hbm, ⟨50, _⟩ => ⟨S1x128x1, .i32⟩
  | .hbm, ⟨51, _⟩ => ⟨S1x128x1, .i1⟩
  | .hbm, ⟨52, _⟩ => ⟨S_, .i32⟩
  | .hbm, ⟨53, _⟩ => ⟨S1x128x1, .i32⟩
  | .hbm, ⟨54, _⟩ => ⟨S1x128x1, .i32⟩
  | .hbm, ⟨55, _⟩ => ⟨S1x128x1, .i32⟩
  | .hbm, ⟨56, _⟩ => ⟨S_, .i32⟩
  | .hbm, ⟨57, _⟩ => ⟨S1x1x128, .i32⟩
  | .hbm, ⟨58, _⟩ => ⟨S1x1x128, .i1⟩
  | .hbm, ⟨59, _⟩ => ⟨S_, .i32⟩
  | .hbm, ⟨60, _⟩ => ⟨S1x1x128, .i32⟩
  | .hbm, ⟨61, _⟩ => ⟨S1x1x128, .i32⟩
  | .hbm, ⟨62, _⟩ => ⟨S1x1x128, .i32⟩
  | .hbm, ⟨63, _⟩ => ⟨S128x128x128, .i32⟩
  | .hbm, ⟨64, _⟩ => ⟨S128x128x128, .i32⟩
  | .hbm, ⟨65, _⟩ => ⟨S128x128x128, .i32⟩
  | .hbm, ⟨66, _⟩ => ⟨S128x128x128x1, .i32⟩
  | .hbm, ⟨67, _⟩ => ⟨S128x128x128x1, .i32⟩
  | .hbm, ⟨68, _⟩ => ⟨S128x128x128x1, .i32⟩
  | .hbm, ⟨69, _⟩ => ⟨S128x128x128x3, .i32⟩
  | .hbm, ⟨70, _⟩ => ⟨S1x16x68x68x68, .f32⟩
  | _, _ => ⟨S1x16x8x8x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c_1 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_c_2 : Ref sig .tc := ⟨.hbm, 42, rfl⟩
abbrev main_v37 : Ref sig .tc := ⟨.hbm, 43, rfl⟩
abbrev main_v38 : Ref sig .tc := ⟨.hbm, 44, rfl⟩
abbrev main_c_3 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_4 : Ref sig .tc := ⟨.hbm, 49, rfl⟩
abbrev main_v42 : Ref sig .tc := ⟨.hbm, 50, rfl⟩
abbrev main_v43 : Ref sig .tc := ⟨.hbm, 51, rfl⟩
abbrev main_c_5 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_6 : Ref sig .tc := ⟨.hbm, 56, rfl⟩
abbrev main_v47 : Ref sig .tc := ⟨.hbm, 57, rfl⟩
abbrev main_v48 : Ref sig .tc := ⟨.hbm, 58, rfl⟩
abbrev main_c_7 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]

class Facts₀ : Prop where
  shapeCasts_S1x16x8x8x8x4096_S1x16x8x8x8x16x16x16 : S1x16x8x8x8x4096.ShapeCasts S1x16x8x8x8x16x16x16
  transposes_S1x16x8x8x8x16x16x16_S1x16x16x8x16x8x16x8_0_1_5_2_6_3_7_4 : S1x16x8x8x8x16x16x16.Transposes [0, 1, 5, 2, 6, 3, 7, 4] S1x16x16x8x16x8x16x8
  shapeCasts_S1x16x16x8x16x8x16x8_S1x16x128x128x128 : S1x16x16x8x16x8x16x8.ShapeCasts S1x16x128x128x128
  bcast_S16_S16x1_0 : S16.BroadcastsInDim S16x1 (![0] : Fin 1 → Fin S16x1.rank)
  bcast_S_S16x1 : S_.BroadcastsInDim S16x1 (![] : Fin 0 → Fin S16x1.rank)
  bcast_S8_S1x8_1 : S8.BroadcastsInDim S1x8 (![1] : Fin 1 → Fin S1x8.rank)
  bcast_S16x1_S16x8_0_1 : S16x1.BroadcastsInDim S16x8 (![0, 1] : Fin 2 → Fin S16x8.rank)
  bcast_S1x8_S16x8_0_1 : S1x8.BroadcastsInDim S16x8 (![0, 1] : Fin 2 → Fin S16x8.rank)
  shapeCasts_S16x8_S128 : S16x8.ShapeCasts S128
  bcast_S_S1x16x68x68x68 : S_.BroadcastsInDim S1x16x68x68x68 (![] : Fin 0 → Fin S1x16x68x68x68.rank)
  bcast_S128_S128x1x1_0 : S128.BroadcastsInDim S128x1x1 (![0] : Fin 1 → Fin S128x1x1.rank)
  bcast_S128_S1x128x1_1 : S128.BroadcastsInDim S1x128x1 (![1] : Fin 1 → Fin S1x128x1.rank)
  bcast_S128_S1x1x128_2 : S128.BroadcastsInDim S1x1x128 (![2] : Fin 1 → Fin S1x1x128.rank)
  bcast_S_S128x1x1 : S_.BroadcastsInDim S128x1x1 (![] : Fin 0 → Fin S128x1x1.rank)
  bcast_S_S1x128x1 : S_.BroadcastsInDim S1x128x1 (![] : Fin 0 → Fin S1x128x1.rank)
  bcast_S_S1x1x128 : S_.BroadcastsInDim S1x1x128 (![] : Fin 0 → Fin S1x1x128.rank)
  bcast_S128x1x1_S128x128x128_0_1_2 : S128x1x1.BroadcastsInDim S128x128x128 (![0, 1, 2] : Fin 3 → Fin S128x128x128.rank)
  bcast_S1x128x1_S128x128x128_0_1_2 : S1x128x1.BroadcastsInDim S128x128x128 (![0, 1, 2] : Fin 3 → Fin S128x128x128.rank)
  bcast_S1x1x128_S128x128x128_0_1_2 : S1x1x128.BroadcastsInDim S128x128x128 (![0, 1, 2] : Fin 3 → Fin S128x128x128.rank)
  bcast_S128x128x128_S128x128x128x1_0_1_2 : S128x128x128.BroadcastsInDim S128x128x128x1 (![0, 1, 2] : Fin 3 → Fin S128x128x128x1.rank)
  concatenates_S128x128x128x1_S128x128x128x1_S128x128x128x1_S128x128x128x3_d3 : Shape.Concatenates [S128x128x128x1, S128x128x128x1, S128x128x128x1] S128x128x128x3 3
  scatter_S1x16x68x68x68_S128x128x128x3_S1x16x128x128x128_01_234_234_3_wf : ScatterDims.WF S1x16x68x68x68 S128x128x128x3 S1x16x128x128x128 [0, 1] [2, 3, 4] [2, 3, 4] 3

variable [Facts₀]

def scatter_S1x16x68x68x68_S128x128x128x3_S1x16x128x128x128_01_234_234_3 : ScatterDims S1x16x68x68x68 S128x128x128x3 S1x16x128x128x128 where
  updateWindowDims := [0, 1]
  insertedWindowDims := [2, 3, 4]
  scatterDimsToOperandDims := [2, 3, 4]
  indexVectorDim := 3
  wf := scatter_S1x16x68x68x68_S128x128x128x3_S1x16x128x128x128_01_234_234_3_wf

class Facts : Prop extends Facts₀ where

variable [Facts]
-- ==== Proof.K.R0Shared.lean ====
/-
  Overlap-add along axis 1, one pallas_call (sixteen windows of width 8 at stride 4 into a length-68 accumulator,
  one channel block at a time): what the three control cases of the body share. The body's two branch conditions depend on
  the window number w = t mod 16 only: "w = 0" (the accumulator is zeroed first) and "w = 15" (the accumulator is
  copied to the output block at the end). Between them the body adds the 8-wide input window into the accumulator's
  slab [4w, 4w + 8) on axis 1 and leaves the rest of the accumulator as it found it.
-/
import proofs.«112882_j45174466019398_1_alg».proof.Proof.Gen.Kernel.Launch
import proofs.«112882_j45174466019398_1_alg».proof.Proof.Gen.Kernel.Skeleton
import proofs.«112882_j45174466019398_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fold

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "This is the first window of its channel block": the accumulator is zeroed before the add. -/
abbrev condZ0 (i : grid0.Coords) : Prop := (Scalar.cmpi .ne (Scalar.extui (Scalar.cmpi .eq (BitVec.ofNat 32 (i 1).val) 0#32)) 0#32) = 1#1
theorem hcondZ0 : ∀ t : Fin cfg0.N, condZ0 (grid0.coords t) ↔ t.val % 16 = 0 :=
  (by decide +kernel : ∀ t : Fin grid0.N, condZ0 (grid0.coords t) ↔ t.val % 16 = 0)

/-- "This is the last window of its channel block": the accumulator is copied out after the add. -/
abbrev condL0 (i : grid0.Coords) : Prop := k0_cond2 i = 1#1
theorem hcondL0 : ∀ t : Fin cfg0.N, condL0 (grid0.coords t) ↔ t.val % 16 = 15 :=
  (by decide +kernel : ∀ t : Fin grid0.N, condL0 (grid0.coords t) ↔ t.val % 16 = 15)

/-! ## Where the output window is idle -/

theorem liveIn0 : ∀ t : Fin cfg0.N, cfg0.idle 0 (grid0.coords t) = false := by decide +kernel
theorem idleOut0 : ∀ t : Fin cfg0.N, ¬condL0 (grid0.coords t) → cfg0.idle 1 (grid0.coords t) = true := by decide +kernel
theorem noFlushOut0 : ∀ t : Fin cfg0.N, ¬condL0 (grid0.coords t) → (cfg0.win 1).flush t = false := by decide +kernel
theorem liveOut0 : ∀ t : Fin cfg0.N, condL0 (grid0.coords t) → cfg0.idle 1 (grid0.coords t) = false := by decide +kernel

/-! ## The memrefs the body is called with -/

abbrev msI0 (t : Fin cfg0.N) : Memref sig .tc .vmem S2x8x128x128 .f32 := win0_0.stage (cfg0.slots t 0)
abbrev hsI0 (t : Fin cfg0.N) : (msI0 t).IsWhole := hstage0_0 ((cfg0.slots t 0).cast nbuf0_0)
abbrev msO0 (t : Fin cfg0.N) : Memref sig .tc .vmem S2x68x128x128 .f32 := win0_1.stage (cfg0.slots t 1)
abbrev hsO0 (t : Fin cfg0.N) : (msO0 t).IsWhole := hstage0_1 ((cfg0.slots t 1).cast nbuf0_1)
/-- The accumulator: a whole scoped buffer of the kernel's own. -/
abbrev accM0 : Memref sig .tc .vmem S2x68x128x128 .f32 := Memref.whole cc0_scratch0
theorem haccM0 : (accM0).IsWhole := Memref.isWhole_whole _

/-- The core's other scoped buffers (the other calls' staging buffers and accumulators), each at some contents: they
    ride beside the accumulator untouched. -/
def restS0 (c : Dev nD) : sProp 𝕄 :=
  Pipeline.scopedRestBut (Ix := Unit) (Name := ℕ) (U := UR sig nD τ) (Lvl := ℕ) (Val := Elt F) spec0 c [cc0_scratch0]

/-- The class invariant with the accumulator spelt as a memref owned at some contents. -/
theorem PhiAeq0 (c : Dev nD) :
    (Pipeline.ΦA spec0 c : sProp 𝕄)
      = iprop(iprop((∃ d, owns (c : Thread nD τ) accM0 fullShare d) ∗ restS0 (F := F) c) ∗ (∃ r, prngReg c r)) := by
  unfold Pipeline.ΦA restS0
  rw [Pipeline.scopedRest_split_of_list spec0 c [cc0_scratch0] (by decide) (by decide)]
  simp only [bigSepL_singleton, accM0, owns_whole]; try rfl

end Cert.Kernel.Fold

end
-- ==== Proof.K.R0RunA.lean ====
/-
  The body at a channel block's FIRST window (w = 0): the accumulator, whatever it held, is stored whole with zeros, then
  its slab [0, 8) on axis 1 is read back, the input window added, and the sum stored into that slab; the output block is
  not touched. The stores the run leaves in the accumulator (last first) are its witness.
-/
import proofs.«112882_j45174466019398_1_alg».proof.Proof.K.R0Shared

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : condZ0 i) (hc1 : ¬condL0 i)
    (x0 : Vec F S2x8x128x128 .f32) :
    { LS0 : List (View.Piece (Elt F) S2x68x128x128 .f32) //
      ∀ (xi1 : Vec F S2x68x128x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__fold_kernel i arg2 harg2 arg3 harg3 arg4 harg4) K } := by
  refine ⟨?_, fun xi1 E K => ?run⟩
  case run =>
    simp only [cc0__fold_kernel_eq_skeleton]; unfold cc0__fold_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fold

end
-- ==== Proof.K.R0RunB.lean ====
/-
  The body at a MIDDLE window (0 < w < 15): the accumulator's slab [4w, 4w + 8) on axis 1 is read, the input window
  added, and the sum stored back into that slab; everything else in the accumulator stays as the window before left it,
  and the output block is not touched. The one slab store is the run's witness, over the accumulator's prior contents.
-/
import proofs.«112882_j45174466019398_1_alg».proof.Proof.K.R0RunA

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : ¬condZ0 i) (hc1 : ¬condL0 i)
    (x0 : Vec F S2x8x128x128 .f32) (xs0 : Vec F S2x68x128x128 .f32) :
    { LS0 : List (View.Piece (Elt F) S2x68x128x128 .f32) //
      ∀ (xi1 : Vec F S2x68x128x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (arg4.view.loc (c : Thread nD τ) ↦[arg4.view.set]{fullShare} arg4.view.writes (Elt F) (harg4.unread xs0) LS0)) -∗ K ⟨⟩))
          ⊢ wp frame (wpE (defs₀ (F := F)) Variants.none c none) E (cc0__fold_kernel i arg2 harg2 arg3 harg3 arg4 harg4) K } := by
  refine ⟨?_, fun xi1 E K => ?run⟩
  case run =>
    simp only [cc0__fold_kernel_eq_skeleton]; unfold cc0__fold_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexact HS0

end Cert.Kernel.Fold

end
-- ==== Proof.K.R0RunC.lean ====
/-
  The body at a channel block's LAST window (w = 15): as at a middle window the slab [60, 68) of the accumulator takes
  the input window added to what it held; then the whole accumulator is read and stored whole into the output block.
  The slab store (over the accumulator's prior contents) and the output's one covering store are the run's witnesses.
-/
import proofs.«112882_j45174466019398_1_alg».proof.Proof.K.R0RunB

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : ¬condZ0 i) (hc1 : condL0 i)
    (x0 : Vec F S2x8x128x128 .f32) (xs0 : Vec F S2x68x128x128 .f32) :
    Σ' (L1 : List (View.Piece (Elt F) S2x68x128x128 .f32)), { LS0 : List (View.Piece (Elt F) S2x68x128x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (arg4.view.loc (c : Thread nD τ) ↦[arg4.view.set]{fullShare} arg4.view.writes (Elt F) (harg4.unread xs0) LS0)) -∗ K ⟨⟩))
          ⊢ wp frame (wpE (defs₀ (F := F)) Variants.none c none) E (cc0__fold_kernel i arg2 harg2 arg3 harg3 arg4 harg4) K } := by
  refine ⟨?_, ?_, fun E K => ?run⟩
  case run =>
    simp only [cc0__fold_kernel_eq_skeleton]; unfold cc0__fold_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexact HS0

end Cert.Kernel.Fold

end
-- ==== Proof.K.R0Body.lean ====
/-
  Overlap-add along axis 1, one pallas_call: what the accumulator holds after each grid point, and the body obligation.
  A grid point is (channel block, window w), visited in row-major order, so t mod 16 = w. After point t the accumulator
  holds: at w = 0 the zero fill with the window added into slab [0, 8); at 0 < w what point t - 1 left with the window
  added into slab [4w, 4w + 8). At w = 15 the output block takes the accumulator whole; at the other points the output
  window is idle (its buffer is handed back untouched and not written back), so what is recorded for it there is only a
  placeholder. Everything is stated at the region-entry contents V, a parameter.
-/
import proofs.«112882_j45174466019398_1_alg».proof.Proof.K.R0RunC

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is V's and
    whose body leaves the block in place. -/
theorem beforeIn0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

abbrev VA0 : View sig .tc .vmem S2x68x128x128 .f32 := (accM0).view
abbrev VO0 : View sig .tc .vmem S2x68x128x128 .f32 := (Memref.whole cc0_stg1_0 : Memref sig .tc .vmem S2x68x128x128 .f32).view

section Cases
variable (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole)

/-- At a first window the zero fill covers the accumulator, so what it held before does not matter. -/
theorem coverA0 (hc0 : condZ0 i) (hc1 : ¬condL0 i) (x0 : Vec F S2x8x128x128 .f32) (y : S2x68x128x128.Idx) :
    ∃ pc ∈ (runA0 c i arg2 harg2 arg3 harg3 arg4 harg4 hc0 hc1 x0).1, y ∈ pc.1.set := by
  unfold runA0
  refine ⟨_, List.mem_cons_of_mem _ (List.mem_cons_self), ?_⟩
  rw [Rect.mem_set_unit]
  intro a
  have hy := (y a).isLt
  fin_cases a <;> exact ⟨Nat.zero_le _, by simpa using hy⟩

/-- The accumulator after a first window. -/
def soutA0 (hc0 : condZ0 i) (hc1 : ¬condL0 i) (x0 : Vec F S2x8x128x128 .f32) : Vec F S2x68x128x128 .f32 :=
  VA0.read (Elt F) (VA0.writes (Elt F) VA0.junk (runA0 c i arg2 harg2 arg3 harg3 arg4 harg4 hc0 hc1 x0).1)

/-- The accumulator after a middle window, over what the window before left. -/
def soutB0 (hc0 : ¬condZ0 i) (hc1 : ¬condL0 i) (x0 : Vec F S2x8x128x128 .f32) (xs0 : Vec F S2x68x128x128 .f32) : Vec F S2x68x128x128 .f32 :=
  arg4.view.read (Elt F) (arg4.view.writes (Elt F) (harg4.unread xs0) (runB0 c i arg2 harg2 arg3 harg3 arg4 harg4 hc0 hc1 x0 xs0).1)

/-- The accumulator after a last window, over what the window before left. -/
def soutC0 (hc0 : ¬condZ0 i) (hc1 : condL0 i) (x0 : Vec F S2x8x128x128 .f32) (xs0 : Vec F S2x68x128x128 .f32) : Vec F S2x68x128x128 .f32 :=
  arg4.view.read (Elt F) (arg4.view.writes (Elt F) (harg4.unread xs0) (runC0 c i arg2 harg2 arg3 harg3 arg4 harg4 hc0 hc1 x0 xs0).2.1)

/-- At a last window the output block is stored whole. -/
theorem coverC0 (hc0 : ¬condZ0 i) (hc1 : condL0 i) (x0 : Vec F S2x8x128x128 .f32) (xs0 : Vec F S2x68x128x128 .f32) (y : S2x68x128x128.Idx) :
    ∃ pc ∈ (runC0 c i arg2 harg2 arg3 harg3 arg4 harg4 hc0 hc1 x0 xs0).1, y ∈ pc.1.set :=
  View.cover_of_tiledL (runC0 c i arg2 harg2 arg3 harg3 arg4 harg4 hc0 hc1 x0 xs0).1 S2x68x128x128.size (by sl_kernel_rfl) y

/-- The output block after a last window. -/
def outC0 (hc0 : ¬condZ0 i) (hc1 : condL0 i) (x0 : Vec F S2x8x128x128 .f32) (xs0 : Vec F S2x68x128x128 .f32) : Vec F S2x68x128x128 .f32 :=
  VO0.read (Elt F) (VO0.writes (Elt F) VO0.junk (runC0 c i arg2 harg2 arg3 harg3 arg4 harg4 hc0 hc1 x0 xs0).1)

end Cases

/-! ## Point by point -/

/-- Where the output window is idle the accumulator's contents stand in for the output's as a placeholder. -/
abbrev both0 {α : Type} (a : α) : α × α := (a, a)

/-- What the output block's staging buffer (a placeholder where the window is idle) and the accumulator hold after the
    body at position n. -/
def outsAt0 (c : Dev nD) : (n : ℕ) → n < cfg0.N → Vec F S2x68x128x128 .f32 × Vec F S2x68x128x128 .f32
  | 0, hn =>
    both0 (soutA0 c (grid0.coords ⟨0, hn⟩) (msI0 ⟨0, hn⟩) (hsI0 ⟨0, hn⟩) (msO0 ⟨0, hn⟩) (hsO0 ⟨0, hn⟩) accM0 haccM0 ((hcondZ0 ⟨0, hn⟩).mpr (Nat.zero_mod _)) (fun h => absurd ((Nat.zero_mod 16).symm.trans ((hcondL0 ⟨0, hn⟩).mp h)) (by decide)) (iblk0 V c 0 ⟨0, hn⟩))
  | n + 1, hn =>
    if h0 : (n + 1) % 16 = 0 then
      both0 (soutA0 c (grid0.coords ⟨n + 1, hn⟩) (msI0 ⟨n + 1, hn⟩) (hsI0 ⟨n + 1, hn⟩) (msO0 ⟨n + 1, hn⟩) (hsO0 ⟨n + 1, hn⟩) accM0 haccM0 ((hcondZ0 ⟨n + 1, hn⟩).mpr h0) (fun h => absurd (h0.symm.trans ((hcondL0 ⟨n + 1, hn⟩).mp h)) (by decide)) (iblk0 V c 0 ⟨n + 1, hn⟩))
    else
      if h1 : (n + 1) % 16 = 15 then
        (outC0 c (grid0.coords ⟨n + 1, hn⟩) (msI0 ⟨n + 1, hn⟩) (hsI0 ⟨n + 1, hn⟩) (msO0 ⟨n + 1, hn⟩) (hsO0 ⟨n + 1, hn⟩) accM0 haccM0 (fun h => h0 ((hcondZ0 ⟨n + 1, hn⟩).mp h)) ((hcondL0 ⟨n + 1, hn⟩).mpr h1) (iblk0 V c 0 ⟨n + 1, hn⟩) (outsAt0 c n (Nat.lt_of_succ_lt hn)).2,
         soutC0 c (grid0.coords ⟨n + 1, hn⟩) (msI0 ⟨n + 1, hn⟩) (hsI0 ⟨n + 1, hn⟩) (msO0 ⟨n + 1, hn⟩) (hsO0 ⟨n + 1, hn⟩) accM0 haccM0 (fun h => h0 ((hcondZ0 ⟨n + 1, hn⟩).mp h)) ((hcondL0 ⟨n + 1, hn⟩).mpr h1) (iblk0 V c 0 ⟨n + 1, hn⟩) (outsAt0 c n (Nat.lt_of_succ_lt hn)).2)
      else
        both0 (soutB0 c (grid0.coords ⟨n + 1, hn⟩) (msI0 ⟨n + 1, hn⟩) (hsI0 ⟨n + 1, hn⟩) (msO0 ⟨n + 1, hn⟩) (hsO0 ⟨n + 1, hn⟩) accM0 haccM0 (fun h => h0 ((hcondZ0 ⟨n + 1, hn⟩).mp h)) (fun h => h1 ((hcondL0 ⟨n + 1, hn⟩).mp h)) (iblk0 V c 0 ⟨n + 1, hn⟩) (outsAt0 c n (Nat.lt_of_succ_lt hn)).2)

theorem outsAt0_A (c : Dev nD) (t : Fin cfg0.N) (h0 : t.val % 16 = 0) (h1 : ¬t.val % 16 = 15) :
    (outsAt0 V c t.val t.isLt).2 = soutA0 c (grid0.coords t) (msI0 t) (hsI0 t) (msO0 t) (hsO0 t) accM0 haccM0 ((hcondZ0 t).mpr h0) (fun h => h1 ((hcondL0 t).mp h)) (iblk0 V c 0 t) := by
  obtain ⟨n, hn⟩ := t
  cases n with
  | zero => rw [outsAt0]
  | succ n => rw [outsAt0, dif_pos h0]

theorem outsAt0_B (c : Dev nD) (t : Fin cfg0.N) (h0 : ¬t.val % 16 = 0) (h1 : ¬t.val % 16 = 15) (k : ℕ) (hk : k + 1 = t.val) :
    (outsAt0 V c t.val t.isLt).2 = soutB0 c (grid0.coords t) (msI0 t) (hsI0 t) (msO0 t) (hsO0 t) accM0 haccM0 (fun h => h0 ((hcondZ0 t).mp h)) (fun h => h1 ((hcondL0 t).mp h)) (iblk0 V c 0 t) (outsAt0 V c k (by omega)).2 := by
  obtain ⟨n, hn⟩ := t
  dsimp only at hk
  subst hk
  rw [outsAt0, dif_neg h0, dif_neg h1]

theorem outsAt0_C (c : Dev nD) (t : Fin cfg0.N) (h0 : ¬t.val % 16 = 0) (h1 : t.val % 16 = 15) (k : ℕ) (hk : k + 1 = t.val) :
    outsAt0 V c t.val t.isLt = (outC0 c (grid0.coords t) (msI0 t) (hsI0 t) (msO0 t) (hsO0 t) accM0 haccM0 (fun h => h0 ((hcondZ0 t).mp h)) ((hcondL0 t).mpr h1) (iblk0 V c 0 t) (outsAt0 V c k (by omega)).2,
      soutC0 c (grid0.coords t) (msI0 t) (hsI0 t) (msO0 t) (hsO0 t) accM0 haccM0 (fun h => h0 ((hcondZ0 t).mp h)) ((hcondL0 t).mpr h1) (iblk0 V c 0 t) (outsAt0 V c k (by omega)).2) := by
  obtain ⟨n, hn⟩ := t
  dsimp only at hk
  subst hk
  rw [outsAt0, dif_neg h0, dif_pos h1]

/-! ## The region invariant: the accumulator carried between points -/

def PhiS0 (c : Dev nD) : (n : ℕ) → n ≤ cfg0.N → sProp 𝕄
  | 0, _ => Pipeline.ΦA spec0 c
  | n + 1, hn => iprop(iprop(owns (c : Thread nD τ) accM0 fullShare ((outsAt0 V c n hn).2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM0 fullShare ((outsAt0 V c n hn).2) ∗ restS0 (F := F) c) ∗ (∃ r, prngReg c r)) := rfl

theorem PhiS0_pos (c : Dev nD) (n : ℕ) (h : n ≤ cfg0.N) (k : ℕ) (hk : k + 1 = n) :
    PhiS0 V c n h = iprop(iprop(owns (c : Thread nD τ) accM0 fullShare ((outsAt0 V c k (by omega)).2) ∗ restS0 (F := F) c) ∗ (∃ r, prngReg c r)) := by
  subst hk
  rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem afterIn0 (c : Dev nD) (t : Fin cfg0.N) : (dat0 V c).after 0 t = iblk0 V c 0 t := by dsimp only [dat0]
theorem afterOut0 (c : Dev nD) (t : Fin cfg0.N) : (dat0 V c).after 1 t = (outsAt0 V c t.val t.isLt).1 := by dsimp only [dat0]

theorem beforeIn0 (c : Dev nD) (t : Fin cfg0.N) (d) : (dat0 V c).before 0 t d = iblk0 V c 0 t :=
  beforeIn0_of V (dat0 V c) (A_eq0 V c 0) (afterIn0 V c) t d

end Cert.Kernel.Fold

end
-- ==== Proof.K.R0Oblig.lean ====
/-
  Overlap-add along axis 1, one pallas_call: the body obligation. At a generic point the input's staging buffer holds
  its block; the invariant hands the body the accumulator (at what the point before left, or at anything before the first
  point) beside the scoped buffers of the later calls and the generator register, and takes the accumulator back at this
  point's contents. Which of the three runs applies is decided by t mod 16.
-/
import proofs.«112882_j45174466019398_1_alg».proof.Proof.K.R0Body

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The number of grid points, and its predecessor. -/
local notation "NP0" => (128 : ℕ)
local notation "NQ0" => (127 : ℕ)

def bodyPre0 (c : Dev nD) (t : Fin cfg0.N) : sProp 𝕄 :=
  iprop((dat0 V c).Φ t.castSucc ∗ (dat0 V c).owesAt () t.castSucc
    ∗ (∃ d, owns (c : Thread nD τ) (msI0 t) fullShare ((dat0 V c).before 0 t d))
    ∗ (∃ d, owns (c : Thread nD τ) (msO0 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

/-- Before any point the invariant holds the accumulator at SOME contents. -/
theorem PhiAny0 (c : Dev nD) (t : Fin cfg0.N) :
    (dat0 V c).Φ t.castSucc ⊢ iprop(iprop((∃ d, owns (c : Thread nD τ) accM0 fullShare d) ∗ restS0 (F := F) c) ∗ (∃ r, prngReg c r)) := by
  rw [PhiS0_castSucc V c t]
  by_cases hz : t.val = 0
  · rw [PhiS0_zero V c _ _ hz, PhiAeq0]
  · obtain ⟨k, hk⟩ : ∃ k, k + 1 = t.val := ⟨t.val - 1, by omega⟩
    rw [PhiS0_pos V c _ _ k hk]
    iintro ⟨⟨HS0, Hrest⟩, Hg⟩
    isplitl [HS0 Hrest]
    · isplitl [HS0]; · iexists _; iexact HS0
      iexact Hrest
    iexact Hg

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [beforeIn0]
  rw [show (dat0 V c).owesAt () t.succ = (dat0 V c).owesAt () t.castSucc from rfl]
  rw [show (dat0 V c).Φ t.succ = PhiS0 V c (t.val + 1) t.isLt from rfl, PhiS0_succ]
  have hN : t.val < NP0 := lt_of_lt_of_eq t.isLt (show cfg0.N = NP0 from N_0)
  rw [show (dat0 V c).leavesExact 0 t = owns (c : Thread nD τ) (msI0 t) fullShare ((dat0 V c).after 0 t) from by
    unfold Dat.leavesExact; rw [liveIn0 t], afterIn0]
  by_cases h1 : t.val % 16 = 15
  · have h0 : ¬t.val % 16 = 0 := by omega
    obtain ⟨k, hk⟩ : ∃ k, k + 1 = t.val := ⟨t.val - 1, by omega⟩
    rw [show (dat0 V c).leavesExact 1 t = owns (c : Thread nD τ) (msO0 t) fullShare ((dat0 V c).after 1 t) from by
      unfold Dat.leavesExact; rw [liveOut0 t ((hcondL0 t).mpr h1)], afterOut0]
    rw [outsAt0_C V c t h0 h1 k hk]
    unfold outC0 soutC0; (try dsimp only)
    rw [PhiS0_castSucc V c t, PhiS0_pos V c _ _ k hk]
    iintro ⟨⟨⟨HS0, Hrest⟩, Hg⟩, Ho, ⟨%d0, H0⟩, ⟨%d1, H1⟩⟩
    iapply ((runC0 c (grid0.coords t) _ _ _ _ _ _ (fun h => h0 ((hcondZ0 t).mp h)) ((hcondL0 t).mpr h1) (iblk0 V c 0 t) _).2.2 Set.univ _)
    isplitl [H0]; · iexact H0
    isplitl [H1]; · iexists _; iexact H1
    isplitl [HS0]; · iexact HS0
    iintro ⟨H0, ⟨%e1, H1⟩, HS0⟩
    isplitl [HS0 Hg Hrest]
    · isplitl [HS0 Hrest]
      · isplitl [HS0]
        · unfold owns; iexists _; isplitr
          swap; · iexact HS0
          ipureintro; rfl
        iexact Hrest
      iexact Hg
    isplitl [Ho]; · iexact Ho
    isplitl [H0]; · iexact H0
    unfold owns; iexists _; isplitr
    swap; · iexact H1
    ipureintro; exact View.read_writes_of_cover _ _ _ _ _ (coverC0 c _ _ _ _ _ _ _ _ _ _ _)
  · rw [Dat.leavesExact_idle (dat0 V c) 1 t (idleOut0 t (fun h => h1 ((hcondL0 t).mp h))) (noFlushOut0 t (fun h => h1 ((hcondL0 t).mp h)))]
    by_cases h0 : t.val % 16 = 0
    · rw [outsAt0_A V c t h0 h1]
      unfold soutA0; (try dsimp only)
      iintro ⟨HΦ, Ho, ⟨%d0, H0⟩, ⟨%d1, H1⟩⟩
      ihave HΦ' := (PhiAny0 V c t) $$ HΦ
      icases HΦ' with ⟨⟨HS0, Hrest⟩, Hg⟩
      iapply ((runA0 c (grid0.coords t) _ _ _ _ _ _ ((hcondZ0 t).mpr h0) (fun h => h1 ((hcondL0 t).mp h)) (iblk0 V c 0 t)).2 _ Set.univ _)
      isplitl [H0]; · iexact H0
      isplitl [H1]; · iexact H1
      isplitl [HS0]; · iexact HS0
      iintro ⟨H0, H1, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (coverA0 c _ _ _ _ _ _ _ _ _ _)
          iexact Hrest
        iexact Hg
      isplitl [Ho]; · iexact Ho
      isplitl [H0]; · iexact H0
      iexists _; iexact H1
    · obtain ⟨k, hk⟩ : ∃ k, k + 1 = t.val := ⟨t.val - 1, by omega⟩
      rw [outsAt0_B V c t h0 h1 k hk]
      unfold soutB0; (try dsimp only)
      rw [PhiS0_castSucc V c t, PhiS0_pos V c _ _ k hk]
      iintro ⟨⟨⟨HS0, Hrest⟩, Hg⟩, Ho, ⟨%d0, H0⟩, ⟨%d1, H1⟩⟩
      iapply ((runB0 c (grid0.coords t) _ _ _ _ _ _ (fun h => h0 ((hcondZ0 t).mp h)) (fun h => h1 ((hcondL0 t).mp h)) (iblk0 V c 0 t) _).2 _ Set.univ _)
      isplitl [H0]; · iexact H0
      isplitl [H1]; · iexact H1
      isplitl [HS0]; · iexact HS0
      iintro ⟨H0, H1, HS0⟩
      isplitl [HS0 Hg Hrest]
      · isplitl [HS0 Hrest]
        · isplitl [HS0]
          · unfold owns; iexists _; isplitr
            swap; · iexact HS0
            ipureintro; rfl
          iexact Hrest
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the region's entry hands the kernel (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : NQ0 + 1 = (Fin.last cfg0.N).val := by rw [Fin.val_last]; exact (show cfg0.N = NP0 from N_0).symm
  rw [show (dat0 V c).Φ (Fin.last cfg0.N) = PhiS0 V c (Fin.last cfg0.N).val (Nat.le_of_lt_succ (Fin.last cfg0.N).isLt) from rfl, PhiS0_pos V c _ _ NQ0 ht, PhiAeq0]
  iintro ⟨⟨HS0, Hrest⟩, Hg⟩
  isplitl [HS0 Hrest]
  · isplitl [HS0]; · iexists _; iexact HS0
    iexact Hrest
  iexact Hg

end Cert.Kernel.Fold

end
-- ==== Proof.K.R1Shared.lean ====
/-
  Overlap-add along axis 1, one pallas_call (sixteen windows of width 8 at stride 4 into a length-68 accumulator,
  one channel block at a time): what the three control cases of the body share. The body's two branch conditions depend on
  the window number w = t mod 16 only: "w = 0" (the accumulator is zeroed first) and "w = 15" (the accumulator is
  copied to the output block at the end). Between them the body adds the 8-wide input window into the accumulator's
  slab [4w, 4w + 8) on axis 1 and leaves the rest of the accumulator as it found it.
-/
import proofs.«112882_j45174466019398_1_alg».proof.Proof.Gen.Kernel.Launch
import proofs.«112882_j45174466019398_1_alg».proof.Proof.Gen.Kernel.Skeleton
import proofs.«112882_j45174466019398_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fold

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "This is the first window of its channel block": the accumulator is zeroed before the add. -/
abbrev condZ1 (i : grid1.Coords) : Prop := (Scalar.cmpi .ne (Scalar.extui (Scalar.cmpi .eq (BitVec.ofNat 32 (i 1).val) 0#32)) 0#32) = 1#1
theorem hcondZ1 : ∀ t : Fin cfg1.N, condZ1 (grid1.coords t) ↔ t.val % 16 = 0 :=
  (by decide +kernel : ∀ t : Fin grid1.N, condZ1 (grid1.coords t) ↔ t.val % 16 = 0)

/-- "This is the last window of its channel block": the accumulator is copied out after the add. -/
abbrev condL1 (i : grid1.Coords) : Prop := k1_cond2 i = 1#1
theorem hcondL1 : ∀ t : Fin cfg1.N, condL1 (grid1.coords t) ↔ t.val % 16 = 15 :=
  (by decide +kernel : ∀ t : Fin grid1.N, condL1 (grid1.coords t) ↔ t.val % 16 = 15)

/-! ## Where the output window is idle -/

theorem liveIn1 : ∀ t : Fin cfg1.N, cfg1.idle 0 (grid1.coords t) = false := by decide +kernel
theorem idleOut1 : ∀ t : Fin cfg1.N, ¬condL1 (grid1.coords t) → cfg1.idle 1 (grid1.coords t) = true := by decide +kernel
theorem noFlushOut1 : ∀ t : Fin cfg1.N, ¬condL1 (grid1.coords t) → (cfg1.win 1).flush t = false := by decide +kernel
theorem liveOut1 : ∀ t : Fin cfg1.N, condL1 (grid1.coords t) → cfg1.idle 1 (grid1.coords t) = false := by decide +kernel

/-! ## The memrefs the body is called with -/

abbrev msI1 (t : Fin cfg1.N) : Memref sig .tc .vmem S4x8x68x128 .f32 := win1_0.stage (cfg1.slots t 0)
abbrev hsI1 (t : Fin cfg1.N) : (msI1 t).IsWhole := hstage1_0 ((cfg1.slots t 0).cast nbuf1_0)
abbrev msO1 (t : Fin cfg1.N) : Memref sig .tc .vmem S4x68x68x128 .f32 := win1_1.stage (cfg1.slots t 1)
abbrev hsO1 (t : Fin cfg1.N) : (msO1 t).IsWhole := hstage1_1 ((cfg1.slots t 1).cast nbuf1_1)
/-- The accumulator: a whole scoped buffer of the kernel's own. -/
abbrev accM1 : Memref sig .tc .vmem S4x68x68x128 .f32 := Memref.whole cc1_scratch0
theorem haccM1 : (accM1).IsWhole := Memref.isWhole_whole _

/-- The core's other scoped buffers (the other calls' staging buffers and accumulators), each at some contents: they
    ride beside the accumulator untouched. -/
def restS1 (c : Dev nD) : sProp 𝕄 :=
  Pipeline.scopedRestBut (Ix := Unit) (Name := ℕ) (U := UR sig nD τ) (Lvl := ℕ) (Val := Elt F) spec1 c [cc1_scratch0]

/-- The class invariant with the accumulator spelt as a memref owned at some contents. -/
theorem PhiAeq1 (c : Dev nD) :
    (Pipeline.ΦA spec1 c : sProp 𝕄)
      = iprop(iprop((∃ d, owns (c : Thread nD τ) accM1 fullShare d) ∗ restS1 (F := F) c) ∗ (∃ r, prngReg c r)) := by
  unfold Pipeline.ΦA restS1
  rw [Pipeline.scopedRest_split_of_list spec1 c [cc1_scratch0] (by decide) (by decide)]
  simp only [bigSepL_singleton, accM1, owns_whole]; try rfl

end Cert.Kernel.Fold

end
-- ==== Proof.K.R1RunA.lean ====
/-
  The body at a channel block's FIRST window (w = 0): the accumulator, whatever it held, is stored whole with zeros, then
  its slab [0, 8) on axis 1 is read back, the input window added, and the sum stored into that slab; the output block is
  not touched. The stores the run leaves in the accumulator (last first) are its witness.
-/
import proofs.«112882_j45174466019398_1_alg».proof.Proof.K.R1Shared

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : condZ1 i) (hc1 : ¬condL1 i)
    (x0 : Vec F S4x8x68x128 .f32) :
    { LS0 : List (View.Piece (Elt F) S4x68x68x128 .f32) //
      ∀ (xi1 : Vec F S4x68x68x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__fold_kernel i arg2 harg2 arg3 harg3 arg4 harg4) K } := by
  refine ⟨?_, fun xi1 E K => ?run⟩
  case run =>
    simp only [cc1__fold_kernel_eq_skeleton]; unfold cc1__fold_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fold

end
-- ==== Proof.K.R1RunB.lean ====
/-
  The body at a MIDDLE window (0 < w < 15): the accumulator's slab [4w, 4w + 8) on axis 1 is read, the input window
  added, and the sum stored back into that slab; everything else in the accumulator stays as the window before left it,
  and the output block is not touched. The one slab store is the run's witness, over the accumulator's prior contents.
-/
import proofs.«112882_j45174466019398_1_alg».proof.Proof.K.R1RunA

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : ¬condZ1 i) (hc1 : ¬condL1 i)
    (x0 : Vec F S4x8x68x128 .f32) (xs0 : Vec F S4x68x68x128 .f32) :
    { LS0 : List (View.Piece (Elt F) S4x68x68x128 .f32) //
      ∀ (xi1 : Vec F S4x68x68x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (arg4.view.loc (c : Thread nD τ) ↦[arg4.view.set]{fullShare} arg4.view.writes (Elt F) (harg4.unread xs0) LS0)) -∗ K ⟨⟩))
          ⊢ wp frame (wpE (defs₀ (F := F)) Variants.none c none) E (cc1__fold_kernel i arg2 harg2 arg3 harg3 arg4 harg4) K } := by
  refine ⟨?_, fun xi1 E K => ?run⟩
  case run =>
    simp only [cc1__fold_kernel_eq_skeleton]; unfold cc1__fold_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexact HS0

end Cert.Kernel.Fold

end
-- ==== Proof.K.R1RunC.lean ====
/-
  The body at a channel block's LAST window (w = 15): as at a middle window the slab [60, 68) of the accumulator takes
  the input window added to what it held; then the whole accumulator is read and stored whole into the output block.
  The slab store (over the accumulator's prior contents) and the output's one covering store are the run's witnesses.
-/
import proofs.«112882_j45174466019398_1_alg».proof.Proof.K.R1RunB

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : ¬condZ1 i) (hc1 : condL1 i)
    (x0 : Vec F S4x8x68x128 .f32) (xs0 : Vec F S4x68x68x128 .f32) :
    Σ' (L1 : List (View.Piece (Elt F) S4x68x68x128 .f32)), { LS0 : List (View.Piece (Elt F) S4x68x68x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (arg4.view.loc (c : Thread nD τ) ↦[arg4.view.set]{fullShare} arg4.view.writes (Elt F) (harg4.unread xs0) LS0)) -∗ K ⟨⟩))
          ⊢ wp frame (wpE (defs₀ (F := F)) Variants.none c none) E (cc1__fold_kernel i arg2 harg2 arg3 harg3 arg4 harg4) K } := by
  refine ⟨?_, ?_, fun E K => ?run⟩
  case run =>
    simp only [cc1__fold_kernel_eq_skeleton]; unfold cc1__fold_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexact HS0

end Cert.Kernel.Fold

end
-- ==== Proof.K.R1Body.lean ====
/-
  Overlap-add along axis 1, one pallas_call: what the accumulator holds after each grid point, and the body obligation.
  A grid point is (channel block, window w), visited in row-major order, so t mod 16 = w. After point t the accumulator
  holds: at w = 0 the zero fill with the window added into slab [0, 8); at 0 < w what point t - 1 left with the window
  added into slab [4w, 4w + 8). At w = 15 the output block takes the accumulator whole; at the other points the output
  window is idle (its buffer is handed back untouched and not written back), so what is recorded for it there is only a
  placeholder. Everything is stated at the region-entry contents V, a parameter.
-/
import proofs.«112882_j45174466019398_1_alg».proof.Proof.K.R1RunC

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is V's and
    whose body leaves the block in place. -/
theorem beforeIn1_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

abbrev VA1 : View sig .tc .vmem S4x68x68x128 .f32 := (accM1).view
abbrev VO1 : View sig .tc .vmem S4x68x68x128 .f32 := (Memref.whole cc1_stg1_0 : Memref sig .tc .vmem S4x68x68x128 .f32).view

section Cases
variable (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole)

/-- At a first window the zero fill covers the accumulator, so what it held before does not matter. -/
theorem coverA1 (hc0 : condZ1 i) (hc1 : ¬condL1 i) (x0 : Vec F S4x8x68x128 .f32) (y : S4x68x68x128.Idx) :
    ∃ pc ∈ (runA1 c i arg2 harg2 arg3 harg3 arg4 harg4 hc0 hc1 x0).1, y ∈ pc.1.set := by
  unfold runA1
  refine ⟨_, List.mem_cons_of_mem _ (List.mem_cons_self), ?_⟩
  rw [Rect.mem_set_unit]
  intro a
  have hy := (y a).isLt
  fin_cases a <;> exact ⟨Nat.zero_le _, by simpa using hy⟩

/-- The accumulator after a first window. -/
def soutA1 (hc0 : condZ1 i) (hc1 : ¬condL1 i) (x0 : Vec F S4x8x68x128 .f32) : Vec F S4x68x68x128 .f32 :=
  VA1.read (Elt F) (VA1.writes (Elt F) VA1.junk (runA1 c i arg2 harg2 arg3 harg3 arg4 harg4 hc0 hc1 x0).1)

/-- The accumulator after a middle window, over what the window before left. -/
def soutB1 (hc0 : ¬condZ1 i) (hc1 : ¬condL1 i) (x0 : Vec F S4x8x68x128 .f32) (xs0 : Vec F S4x68x68x128 .f32) : Vec F S4x68x68x128 .f32 :=
  arg4.view.read (Elt F) (arg4.view.writes (Elt F) (harg4.unread xs0) (runB1 c i arg2 harg2 arg3 harg3 arg4 harg4 hc0 hc1 x0 xs0).1)

/-- The accumulator after a last window, over what the window before left. -/
def soutC1 (hc0 : ¬condZ1 i) (hc1 : condL1 i) (x0 : Vec F S4x8x68x128 .f32) (xs0 : Vec F S4x68x68x128 .f32) : Vec F S4x68x68x128 .f32 :=
  arg4.view.read (Elt F) (arg4.view.writes (Elt F) (harg4.unread xs0) (runC1 c i arg2 harg2 arg3 harg3 arg4 harg4 hc0 hc1 x0 xs0).2.1)

/-- At a last window the output block is stored whole. -/
theorem coverC1 (hc0 : ¬condZ1 i) (hc1 : condL1 i) (x0 : Vec F S4x8x68x128 .f32) (xs0 : Vec F S4x68x68x128 .f32) (y : S4x68x68x128.Idx) :
    ∃ pc ∈ (runC1 c i arg2 harg2 arg3 harg3 arg4 harg4 hc0 hc1 x0 xs0).1, y ∈ pc.1.set :=
  View.cover_of_tiledL (runC1 c i arg2 harg2 arg3 harg3 arg4 harg4 hc0 hc1 x0 xs0).1 S4x68x68x128.size (by sl_kernel_rfl) y

/-- The output block after a last window. -/
def outC1 (hc0 : ¬condZ1 i) (hc1 : condL1 i) (x0 : Vec F S4x8x68x128 .f32) (xs0 : Vec F S4x68x68x128 .f32) : Vec F S4x68x68x128 .f32 :=
  VO1.read (Elt F) (VO1.writes (Elt F) VO1.junk (runC1 c i arg2 harg2 arg3 harg3 arg4 harg4 hc0 hc1 x0 xs0).1)

end Cases

/-! ## Point by point -/

/-- Where the output window is idle the accumulator's contents stand in for the output's as a placeholder. -/
abbrev both1 {α : Type} (a : α) : α × α := (a, a)

/-- What the output block's staging buffer (a placeholder where the window is idle) and the accumulator hold after the
    body at position n. -/
def outsAt1 (c : Dev nD) : (n : ℕ) → n < cfg1.N → Vec F S4x68x68x128 .f32 × Vec F S4x68x68x128 .f32
  | 0, hn =>
    both1 (soutA1 c (grid1.coords ⟨0, hn⟩) (msI1 ⟨0, hn⟩) (hsI1 ⟨0, hn⟩) (msO1 ⟨0, hn⟩) (hsO1 ⟨0, hn⟩) accM1 haccM1 ((hcondZ1 ⟨0, hn⟩).mpr (Nat.zero_mod _)) (fun h => absurd ((Nat.zero_mod 16).symm.trans ((hcondL1 ⟨0, hn⟩).mp h)) (by decide)) (iblk1 V c 0 ⟨0, hn⟩))
  | n + 1, hn =>
    if h0 : (n + 1) % 16 = 0 then
      both1 (soutA1 c (grid1.coords ⟨n + 1, hn⟩) (msI1 ⟨n + 1, hn⟩) (hsI1 ⟨n + 1, hn⟩) (msO1 ⟨n + 1, hn⟩) (hsO1 ⟨n + 1, hn⟩) accM1 haccM1 ((hcondZ1 ⟨n + 1, hn⟩).mpr h0) (fun h => absurd (h0.symm.trans ((hcondL1 ⟨n + 1, hn⟩).mp h)) (by decide)) (iblk1 V c 0 ⟨n + 1, hn⟩))
    else
      if h1 : (n + 1) % 16 = 15 then
        (outC1 c (grid1.coords ⟨n + 1, hn⟩) (msI1 ⟨n + 1, hn⟩) (hsI1 ⟨n + 1, hn⟩) (msO1 ⟨n + 1, hn⟩) (hsO1 ⟨n + 1, hn⟩) accM1 haccM1 (fun h => h0 ((hcondZ1 ⟨n + 1, hn⟩).mp h)) ((hcondL1 ⟨n + 1, hn⟩).mpr h1) (iblk1 V c 0 ⟨n + 1, hn⟩) (outsAt1 c n (Nat.lt_of_succ_lt hn)).2,
         soutC1 c (grid1.coords ⟨n + 1, hn⟩) (msI1 ⟨n + 1, hn⟩) (hsI1 ⟨n + 1, hn⟩) (msO1 ⟨n + 1, hn⟩) (hsO1 ⟨n + 1, hn⟩) accM1 haccM1 (fun h => h0 ((hcondZ1 ⟨n + 1, hn⟩).mp h)) ((hcondL1 ⟨n + 1, hn⟩).mpr h1) (iblk1 V c 0 ⟨n + 1, hn⟩) (outsAt1 c n (Nat.lt_of_succ_lt hn)).2)
      else
        both1 (soutB1 c (grid1.coords ⟨n + 1, hn⟩) (msI1 ⟨n + 1, hn⟩) (hsI1 ⟨n + 1, hn⟩) (msO1 ⟨n + 1, hn⟩) (hsO1 ⟨n + 1, hn⟩) accM1 haccM1 (fun h => h0 ((hcondZ1 ⟨n + 1, hn⟩).mp h)) (fun h => h1 ((hcondL1 ⟨n + 1, hn⟩).mp h)) (iblk1 V c 0 ⟨n + 1, hn⟩) (outsAt1 c n (Nat.lt_of_succ_lt hn)).2)

theorem outsAt1_A (c : Dev nD) (t : Fin cfg1.N) (h0 : t.val % 16 = 0) (h1 : ¬t.val % 16 = 15) :
    (outsAt1 V c t.val t.isLt).2 = soutA1 c (grid1.coords t) (msI1 t) (hsI1 t) (msO1 t) (hsO1 t) accM1 haccM1 ((hcondZ1 t).mpr h0) (fun h => h1 ((hcondL1 t).mp h)) (iblk1 V c 0 t) := by
  obtain ⟨n, hn⟩ := t
  cases n with
  | zero => rw [outsAt1]
  | succ n => rw [outsAt1, dif_pos h0]

theorem outsAt1_B (c : Dev nD) (t : Fin cfg1.N) (h0 : ¬t.val % 16 = 0) (h1 : ¬t.val % 16 = 15) (k : ℕ) (hk : k + 1 = t.val) :
    (outsAt1 V c t.val t.isLt).2 = soutB1 c (grid1.coords t) (msI1 t) (hsI1 t) (msO1 t) (hsO1 t) accM1 haccM1 (fun h => h0 ((hcondZ1 t).mp h)) (fun h => h1 ((hcondL1 t).mp h)) (iblk1 V c 0 t) (outsAt1 V c k (by omega)).2 := by
  obtain ⟨n, hn⟩ := t
  dsimp only at hk
  subst hk
  rw [outsAt1, dif_neg h0, dif_neg h1]

theorem outsAt1_C (c : Dev nD) (t : Fin cfg1.N) (h0 : ¬t.val % 16 = 0) (h1 : t.val % 16 = 15) (k : ℕ) (hk : k + 1 = t.val) :
    outsAt1 V c t.val t.isLt = (outC1 c (grid1.coords t) (msI1 t) (hsI1 t) (msO1 t) (hsO1 t) accM1 haccM1 (fun h => h0 ((hcondZ1 t).mp h)) ((hcondL1 t).mpr h1) (iblk1 V c 0 t) (outsAt1 V c k (by omega)).2,
      soutC1 c (grid1.coords t) (msI1 t) (hsI1 t) (msO1 t) (hsO1 t) accM1 haccM1 (fun h => h0 ((hcondZ1 t).mp h)) ((hcondL1 t).mpr h1) (iblk1 V c 0 t) (outsAt1 V c k (by omega)).2) := by
  obtain ⟨n, hn⟩ := t
  dsimp only at hk
  subst hk
  rw [outsAt1, dif_neg h0, dif_pos h1]

/-! ## The region invariant: the accumulator carried between points -/

def PhiS1 (c : Dev nD) : (n : ℕ) → n ≤ cfg1.N → sProp 𝕄
  | 0, _ => Pipeline.ΦA spec1 c
  | n + 1, hn => iprop(iprop(owns (c : Thread nD τ) accM1 fullShare ((outsAt1 V c n hn).2) ∗ restS1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) accM1 fullShare ((outsAt1 V c n hn).2) ∗ restS1 (F := F) c) ∗ (∃ r, prngReg c r)) := rfl

theorem PhiS1_pos (c : Dev nD) (n : ℕ) (h : n ≤ cfg1.N) (k : ℕ) (hk : k + 1 = n) :
    PhiS1 V c n h = iprop(iprop(owns (c : Thread nD τ) accM1 fullShare ((outsAt1 V c k (by omega)).2) ∗ restS1 (F := F) c) ∗ (∃ r, prngReg c r)) := by
  subst hk
  rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem afterIn1 (c : Dev nD) (t : Fin cfg1.N) : (dat1 V c).after 0 t = iblk1 V c 0 t := by dsimp only [dat1]
theorem afterOut1 (c : Dev nD) (t : Fin cfg1.N) : (dat1 V c).after 1 t = (outsAt1 V c t.val t.isLt).1 := by dsimp only [dat1]

theorem beforeIn1 (c : Dev nD) (t : Fin cfg1.N) (d) : (dat1 V c).before 0 t d = iblk1 V c 0 t :=
  beforeIn1_of V (dat1 V c) (A_eq1 V c 0) (afterIn1 V c) t d

end Cert.Kernel.Fold

end
-- ==== Proof.K.R1Oblig.lean ====
/-
  Overlap-add along axis 1, one pallas_call: the body obligation. At a generic point the input's staging buffer holds
  its block; the invariant hands the body the accumulator (at what the point before left, or at anything before the first
  point) beside the scoped buffers of the later calls and the generator register, and takes the accumulator back at this
  point's contents. Which of the three runs applies is decided by t mod 16.
-/
import proofs.«112882_j45174466019398_1_alg».proof.Proof.K.R1Body

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The number of grid points, and its predecessor. -/
local notation "NP1" => (64 : ℕ)
local notation "NQ1" => (63 : ℕ)

def bodyPre1 (c : Dev nD) (t : Fin cfg1.N) : sProp 𝕄 :=
  iprop((dat1 V c).Φ t.castSucc ∗ (dat1 V c).owesAt () t.castSucc
    ∗ (∃ d, owns (c : Thread nD τ) (msI1 t) fullShare ((dat1 V c).before 0 t d))
    ∗ (∃ d, owns (c : Thread nD τ) (msO1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

/-- Before any point the invariant holds the accumulator at SOME contents. -/
theorem PhiAny1 (c : Dev nD) (t : Fin cfg1.N) :
    (dat1 V c).Φ t.castSucc ⊢ iprop(iprop((∃ d, owns (c : Thread nD τ) accM1 fullShare d) ∗ restS1 (F := F) c) ∗ (∃ r, prngReg c r)) := by
  rw [PhiS1_castSucc V c t]
  by_cases hz : t.val = 0
  · rw [PhiS1_zero V c _ _ hz, PhiAeq1]
  · obtain ⟨k, hk⟩ : ∃ k, k + 1 = t.val := ⟨t.val - 1, by omega⟩
    rw [PhiS1_pos V c _ _ k hk]
    iintro ⟨⟨HS0, Hrest⟩, Hg⟩
    isplitl [HS0 Hrest]
    · isplitl [HS0]; · iexists _; iexact HS0
      iexact Hrest
    iexact Hg

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [beforeIn1]
  rw [show (dat1 V c).owesAt () t.succ = (dat1 V c).owesAt () t.castSucc from rfl]
  rw [show (dat1 V c).Φ t.succ = PhiS1 V c (t.val + 1) t.isLt from rfl, PhiS1_succ]
  have hN : t.val < NP1 := lt_of_lt_of_eq t.isLt (show cfg1.N = NP1 from N_1)
  rw [show (dat1 V c).leavesExact 0 t = owns (c : Thread nD τ) (msI1 t) fullShare ((dat1 V c).after 0 t) from by
    unfold Dat.leavesExact; rw [liveIn1 t], afterIn1]
  by_cases h1 : t.val % 16 = 15
  · have h0 : ¬t.val % 16 = 0 := by omega
    obtain ⟨k, hk⟩ : ∃ k, k + 1 = t.val := ⟨t.val - 1, by omega⟩
    rw [show (dat1 V c).leavesExact 1 t = owns (c : Thread nD τ) (msO1 t) fullShare ((dat1 V c).after 1 t) from by
      unfold Dat.leavesExact; rw [liveOut1 t ((hcondL1 t).mpr h1)], afterOut1]
    rw [outsAt1_C V c t h0 h1 k hk]
    unfold outC1 soutC1; (try dsimp only)
    rw [PhiS1_castSucc V c t, PhiS1_pos V c _ _ k hk]
    iintro ⟨⟨⟨HS0, Hrest⟩, Hg⟩, Ho, ⟨%d0, H0⟩, ⟨%d1, H1⟩⟩
    iapply ((runC1 c (grid1.coords t) _ _ _ _ _ _ (fun h => h0 ((hcondZ1 t).mp h)) ((hcondL1 t).mpr h1) (iblk1 V c 0 t) _).2.2 Set.univ _)
    isplitl [H0]; · iexact H0
    isplitl [H1]; · iexists _; iexact H1
    isplitl [HS0]; · iexact HS0
    iintro ⟨H0, ⟨%e1, H1⟩, HS0⟩
    isplitl [HS0 Hg Hrest]
    · isplitl [HS0 Hrest]
      · isplitl [HS0]
        · unfold owns; iexists _; isplitr
          swap; · iexact HS0
          ipureintro; rfl
        iexact Hrest
      iexact Hg
    isplitl [Ho]; · iexact Ho
    isplitl [H0]; · iexact H0
    unfold owns; iexists _; isplitr
    swap; · iexact H1
    ipureintro; exact View.read_writes_of_cover _ _ _ _ _ (coverC1 c _ _ _ _ _ _ _ _ _ _ _)
  · rw [Dat.leavesExact_idle (dat1 V c) 1 t (idleOut1 t (fun h => h1 ((hcondL1 t).mp h))) (noFlushOut1 t (fun h => h1 ((hcondL1 t).mp h)))]
    by_cases h0 : t.val % 16 = 0
    · rw [outsAt1_A V c t h0 h1]
      unfold soutA1; (try dsimp only)
      iintro ⟨HΦ, Ho, ⟨%d0, H0⟩, ⟨%d1, H1⟩⟩
      ihave HΦ' := (PhiAny1 V c t) $$ HΦ
      icases HΦ' with ⟨⟨HS0, Hrest⟩, Hg⟩
      iapply ((runA1 c (grid1.coords t) _ _ _ _ _ _ ((hcondZ1 t).mpr h0) (fun h => h1 ((hcondL1 t).mp h)) (iblk1 V c 0 t)).2 _ Set.univ _)
      isplitl [H0]; · iexact H0
      isplitl [H1]; · iexact H1
      isplitl [HS0]; · iexact HS0
      iintro ⟨H0, H1, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (coverA1 c _ _ _ _ _ _ _ _ _ _)
          iexact Hrest
        iexact Hg
      isplitl [Ho]; · iexact Ho
      isplitl [H0]; · iexact H0
      iexists _; iexact H1
    · obtain ⟨k, hk⟩ : ∃ k, k + 1 = t.val := ⟨t.val - 1, by omega⟩
      rw [outsAt1_B V c t h0 h1 k hk]
      unfold soutB1; (try dsimp only)
      rw [PhiS1_castSucc V c t, PhiS1_pos V c _ _ k hk]
      iintro ⟨⟨⟨HS0, Hrest⟩, Hg⟩, Ho, ⟨%d0, H0⟩, ⟨%d1, H1⟩⟩
      iapply ((runB1 c (grid1.coords t) _ _ _ _ _ _ (fun h => h0 ((hcondZ1 t).mp h)) (fun h => h1 ((hcondL1 t).mp h)) (iblk1 V c 0 t) _).2 _ Set.univ _)
      isplitl [H0]; · iexact H0
      isplitl [H1]; · iexact H1
      isplitl [HS0]; · iexact HS0
      iintro ⟨H0, H1, HS0⟩
      isplitl [HS0 Hg Hrest]
      · isplitl [HS0 Hrest]
        · isplitl [HS0]
          · unfold owns; iexists _; isplitr
            swap; · iexact HS0
            ipureintro; rfl
          iexact Hrest
        iexact Hg
      isplitl [Ho]; · iexact Ho
      isplitl [H0]; · iexact H0
      iexists _; iexact H1

theorem body_obligation1 (c : Dev nD) : BodyObligation (dat1 (F := F) V c) (defs₀ (F := F)) Variants.none () Set.univ := fun t => by
  rw [bigSep_W1, bigSep_W1]
  exact sound_body1 V c t

/-- What the region's entry hands the kernel (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : NQ1 + 1 = (Fin.last cfg1.N).val := by rw [Fin.val_last]; exact (show cfg1.N = NP1 from N_1).symm
  rw [show (dat1 V c).Φ (Fin.last cfg1.N) = PhiS1 V c (Fin.last cfg1.N).val (Nat.le_of_lt_succ (Fin.last cfg1.N).isLt) from rfl, PhiS1_pos V c _ _ NQ1 ht, PhiAeq1]
  iintro ⟨⟨HS0, Hrest⟩, Hg⟩
  isplitl [HS0 Hrest]
  · isplitl [HS0]; · iexists _; iexact HS0
    iexact Hrest
  iexact Hg

end Cert.Kernel.Fold

end
-- ==== Proof.K.R2Shared.lean ====
/-
  Overlap-add along axis 1, one pallas_call (sixteen windows of width 8 at stride 4 into a length-68 accumulator,
  one channel block at a time): what the three control cases of the body share. The body's two branch conditions depend on
  the window number w = t mod 16 only: "w = 0" (the accumulator is zeroed first) and "w = 15" (the accumulator is
  copied to the output block at the end). Between them the body adds the 8-wide input window into the accumulator's
  slab [4w, 4w + 8) on axis 1 and leaves the rest of the accumulator as it found it.
-/
import proofs.«112882_j45174466019398_1_alg».proof.Proof.Gen.Kernel.Launch
import proofs.«112882_j45174466019398_1_alg».proof.Proof.Gen.Kernel.Skeleton
import proofs.«112882_j45174466019398_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fold

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "This is the first window of its channel block": the accumulator is zeroed before the add. -/
abbrev condZ2 (i : grid2.Coords) : Prop := (Scalar.cmpi .ne (Scalar.extui (Scalar.cmpi .eq (BitVec.ofNat 32 (i 1).val) 0#32)) 0#32) = 1#1
theorem hcondZ2 : ∀ t : Fin cfg2.N, condZ2 (grid2.coords t) ↔ t.val % 16 = 0 :=
  (by decide +kernel : ∀ t : Fin grid2.N, condZ2 (grid2.coords t) ↔ t.val % 16 = 0)

/-- "This is the last window of its channel block": the accumulator is copied out after the add. -/
abbrev condL2 (i : grid2.Coords) : Prop := k2_cond2 i = 1#1
theorem hcondL2 : ∀ t : Fin cfg2.N, condL2 (grid2.coords t) ↔ t.val % 16 = 15 :=
  (by decide +kernel : ∀ t : Fin grid2.N, condL2 (grid2.coords t) ↔ t.val % 16 = 15)

/-! ## Where the output window is idle -/

theorem liveIn2 : ∀ t : Fin cfg2.N, cfg2.idle 0 (grid2.coords t) = false := by decide +kernel
theorem idleOut2 : ∀ t : Fin cfg2.N, ¬condL2 (grid2.coords t) → cfg2.idle 1 (grid2.coords t) = true := by decide +kernel
theorem noFlushOut2 : ∀ t : Fin cfg2.N, ¬condL2 (grid2.coords t) → (cfg2.win 1).flush t = false := by decide +kernel
theorem liveOut2 : ∀ t : Fin cfg2.N, condL2 (grid2.coords t) → cfg2.idle 1 (grid2.coords t) = false := by decide +kernel

/-! ## The memrefs the body is called with -/

abbrev msI2 (t : Fin cfg2.N) : Memref sig .tc .vmem S8x8x68x68 .f32 := win2_0.stage (cfg2.slots t 0)
abbrev hsI2 (t : Fin cfg2.N) : (msI2 t).IsWhole := hstage2_0 ((cfg2.slots t 0).cast nbuf2_0)
abbrev msO2 (t : Fin cfg2.N) : Memref sig .tc .vmem S8x68x68x68 .f32 := win2_1.stage (cfg2.slots t 1)
abbrev hsO2 (t : Fin cfg2.N) : (msO2 t).IsWhole := hstage2_1 ((cfg2.slots t 1).cast nbuf2_1)
/-- The accumulator: a whole scoped buffer of the kernel's own. -/
abbrev accM2 : Memref sig .tc .vmem S8x68x68x68 .f32 := Memref.whole cc2_scratch0
theorem haccM2 : (accM2).IsWhole := Memref.isWhole_whole _

/-- The core's other scoped buffers (the other calls' staging buffers and accumulators), each at some contents: they
    ride beside the accumulator untouched. -/
def restS2 (c : Dev nD) : sProp 𝕄 :=
  Pipeline.scopedRestBut (Ix := Unit) (Name := ℕ) (U := UR sig nD τ) (Lvl := ℕ) (Val := Elt F) spec2 c [cc2_scratch0]

/-- The class invariant with the accumulator spelt as a memref owned at some contents. -/
theorem PhiAeq2 (c : Dev nD) :
    (Pipeline.ΦA spec2 c : sProp 𝕄)
      = iprop(iprop((∃ d, owns (c : Thread nD τ) accM2 fullShare d) ∗ restS2 (F := F) c) ∗ (∃ r, prngReg c r)) := by
  unfold Pipeline.ΦA restS2
  rw [Pipeline.scopedRest_split_of_list spec2 c [cc2_scratch0] (by decide) (by decide)]
  simp only [bigSepL_singleton, accM2, owns_whole]; try rfl

end Cert.Kernel.Fold

end
-- ==== Proof.K.R2RunA.lean ====
/-
  The body at a channel block's FIRST window (w = 0): the accumulator, whatever it held, is stored whole with zeros, then
  its slab [0, 8) on axis 1 is read back, the input window added, and the sum stored into that slab; the output block is
  not touched. The stores the run leaves in the accumulator (last first) are its witness.
-/
import proofs.«112882_j45174466019398_1_alg».proof.Proof.K.R2Shared

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA2 (c : Dev nD) (i : grid2.Coords) (arg2 : Memref sig .tc .vmem S8x8x68x68 .f32) (harg2 : arg2.IsWhole) (arg3 : Memref sig .tc .vmem S8x68x68x68 .f32) (harg3 : arg3.IsWhole) (arg4 : Memref sig .tc .vmem S8x68x68x68 .f32) (harg4 : arg4.IsWhole) (hc0 : condZ2 i) (hc1 : ¬condL2 i)
    (x0 : Vec F S8x8x68x68 .f32) :
    { LS0 : List (View.Piece (Elt F) S8x68x68x68 .f32) //
      ∀ (xi1 : Vec F S8x68x68x68 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc2__fold_kernel i arg2 harg2 arg3 harg3 arg4 harg4) K } := by
  refine ⟨?_, fun xi1 E K => ?run⟩
  case run =>
    simp only [cc2__fold_kernel_eq_skeleton]; unfold cc2__fold_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Fold

end
-- ==== Proof.K.R2RunB.lean ====
/-
  The body at a MIDDLE window (0 < w < 15): the accumulator's slab [4w, 4w + 8) on axis 1 is read, the input window
  added, and the sum stored back into that slab; everything else in the accumulator stays as the window before left it,
  and the output block is not touched. The one slab store is the run's witness, over the accumulator's prior contents.
-/
import proofs.«112882_j45174466019398_1_alg».proof.Proof.K.R2RunA

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB2 (c : Dev nD) (i : grid2.Coords) (arg2 : Memref sig .tc .vmem S8x8x68x68 .f32) (harg2 : arg2.IsWhole) (arg3 : Memref sig .tc .vmem S8x68x68x68 .f32) (harg3 : arg3.IsWhole) (arg4 : Memref sig .tc .vmem S8x68x68x68 .f32) (harg4 : arg4.IsWhole) (hc0 : ¬condZ2 i) (hc1 : ¬condL2 i)
    (x0 : Vec F S8x8x68x68 .f32) (xs0 : Vec F S8x68x68x68 .f32) :
    { LS0 : List (View.Piece (Elt F) S8x68x68x68 .f32) //
      ∀ (xi1 : Vec F S8x68x68x68 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (arg4.view.loc (c : Thread nD τ) ↦[arg4.view.set]{fullShare} arg4.view.writes (Elt F) (harg4.unread xs0) LS0)) -∗ K ⟨⟩))
          ⊢ wp frame (wpE (defs₀ (F := F)) Variants.none c none) E (cc2__fold_kernel i arg2 harg2 arg3 harg3 arg4 harg4) K } := by
  refine ⟨?_, fun xi1 E K => ?run⟩
  case run =>
    simp only [cc2__fold_kernel_eq_skeleton]; unfold cc2__fold_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexact HS0

end Cert.Kernel.Fold

end
-- ==== Proof.K.R2RunC.lean ====
/-
  The body at a channel block's LAST window (w = 15): as at a middle window the slab [60, 68) of the accumulator takes
  the input window added to what it held; then the whole accumulator is read and stored whole into the output block.
  The slab store (over the accumulator's prior contents) and the output's one covering store are the run's witnesses.
-/
import proofs.«112882_j45174466019398_1_alg».proof.Proof.K.R2RunB

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC2 (c : Dev nD) (i : grid2.Coords) (arg2 : Memref sig .tc .vmem S8x8x68x68 .f32) (harg2 : arg2.IsWhole) (arg3 : Memref sig .tc .vmem S8x68x68x68 .f32) (harg3 : arg3.IsWhole) (arg4 : Memref sig .tc .vmem S8x68x68x68 .f32) (harg4 : arg4.IsWhole) (hc0 : ¬condZ2 i) (hc1 : condL2 i)
    (x0 : Vec F S8x8x68x68 .f32) (xs0 : Vec F S8x68x68x68 .f32) :
    Σ' (L1 : List (View.Piece (Elt F) S8x68x68x68 .f32)), { LS0 : List (View.Piece (Elt F) S8x68x68x68 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (arg4.view.loc (c : Thread nD τ) ↦[arg4.view.set]{fullShare} arg4.view.writes (Elt F) (harg4.unread xs0) LS0)) -∗ K ⟨⟩))
          ⊢ wp frame (wpE (defs₀ (F := F)) Variants.none c none) E (cc2__fold_kernel i arg2 harg2 arg3 harg3 arg4 harg4) K } := by
  refine ⟨?_, ?_, fun E K => ?run⟩
  case run =>
    simp only [cc2__fold_kernel_eq_skeleton]; unfold cc2__fold_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexact HS0

end Cert.Kernel.Fold

end
-- ==== Proof.K.R2Body.lean ====
/-
  Overlap-add along axis 1, one pallas_call: what the accumulator holds after each grid point, and the body obligation.
  A grid point is (channel block, window w), visited in row-major order, so t mod 16 = w. After point t the accumulator
  holds: at w = 0 the zero fill with the window added into slab [0, 8); at 0 < w what point t - 1 left with the window
  added into slab [4w, 4w + 8). At w = 15 the output block takes the accumulator whole; at the other points the output
  window is idle (its buffer is handed back untouched and not written back), so what is recorded for it there is only a
  placeholder. Everything is stated at the region-entry contents V, a parameter.
-/
import proofs.«112882_j45174466019398_1_alg».proof.Proof.K.R2RunC

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is V's and
    whose body leaves the block in place. -/
theorem beforeIn2_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

abbrev VA2 : View sig .tc .vmem S8x68x68x68 .f32 := (accM2).view
abbrev VO2 : View sig .tc .vmem S8x68x68x68 .f32 := (Memref.whole cc2_stg1_0 : Memref sig .tc .vmem S8x68x68x68 .f32).view

section Cases
variable (c : Dev nD) (i : grid2.Coords) (arg2 : Memref sig .tc .vmem S8x8x68x68 .f32) (harg2 : arg2.IsWhole) (arg3 : Memref sig .tc .vmem S8x68x68x68 .f32) (harg3 : arg3.IsWhole) (arg4 : Memref sig .tc .vmem S8x68x68x68 .f32) (harg4 : arg4.IsWhole)

/-- At a first window the zero fill covers the accumulator, so what it held before does not matter. -/
theorem coverA2 (hc0 : condZ2 i) (hc1 : ¬condL2 i) (x0 : Vec F S8x8x68x68 .f32) (y : S8x68x68x68.Idx) :
    ∃ pc ∈ (runA2 c i arg2 harg2 arg3 harg3 arg4 harg4 hc0 hc1 x0).1, y ∈ pc.1.set := by
  unfold runA2
  refine ⟨_, List.mem_cons_of_mem _ (List.mem_cons_self), ?_⟩
  rw [Rect.mem_set_unit]
  intro a
  have hy := (y a).isLt
  fin_cases a <;> exact ⟨Nat.zero_le _, by simpa using hy⟩

/-- The accumulator after a first window. -/
def soutA2 (hc0 : condZ2 i) (hc1 : ¬condL2 i) (x0 : Vec F S8x8x68x68 .f32) : Vec F S8x68x68x68 .f32 :=
  VA2.read (Elt F) (VA2.writes (Elt F) VA2.junk (runA2 c i arg2 harg2 arg3 harg3 arg4 harg4 hc0 hc1 x0).1)

/-- The accumulator after a middle window, over what the window before left. -/
def soutB2 (hc0 : ¬condZ2 i) (hc1 : ¬condL2 i) (x0 : Vec F S8x8x68x68 .f32) (xs0 : Vec F S8x68x68x68 .f32) : Vec F S8x68x68x68 .f32 :=
  arg4.view.read (Elt F) (arg4.view.writes (Elt F) (harg4.unread xs0) (runB2 c i arg2 harg2 arg3 harg3 arg4 harg4 hc0 hc1 x0 xs0).1)

/-- The accumulator after a last window, over what the window before left. -/
def soutC2 (hc0 : ¬condZ2 i) (hc1 : condL2 i) (x0 : Vec F S8x8x68x68 .f32) (xs0 : Vec F S8x68x68x68 .f32) : Vec F S8x68x68x68 .f32 :=
  arg4.view.read (Elt F) (arg4.view.writes (Elt F) (harg4.unread xs0) (runC2 c i arg2 harg2 arg3 harg3 arg4 harg4 hc0 hc1 x0 xs0).2.1)

/-- At a last window the output block is stored whole. -/
theorem coverC2 (hc0 : ¬condZ2 i) (hc1 : condL2 i) (x0 : Vec F S8x8x68x68 .f32) (xs0 : Vec F S8x68x68x68 .f32) (y : S8x68x68x68.Idx) :
    ∃ pc ∈ (runC2 c i arg2 harg2 arg3 harg3 arg4 harg4 hc0 hc1 x0 xs0).1, y ∈ pc.1.set :=
  View.cover_of_tiledL (runC2 c i arg2 harg2 arg3 harg3 arg4 harg4 hc0 hc1 x0 xs0).1 S8x68x68x68.size (by sl_kernel_rfl) y

/-- The output block after a last window. -/
def outC2 (hc0 : ¬condZ2 i) (hc1 : condL2 i) (x0 : Vec F S8x8x68x68 .f32) (xs0 : Vec F S8x68x68x68 .f32) : Vec F S8x68x68x68 .f32 :=
  VO2.read (Elt F) (VO2.writes (Elt F) VO2.junk (runC2 c i arg2 harg2 arg3 harg3 arg4 harg4 hc0 hc1 x0 xs0).1)

end Cases

/-! ## Point by point -/

/-- Where the output window is idle the accumulator's contents stand in for the output's as a placeholder. -/
abbrev both2 {α : Type} (a : α) : α × α := (a, a)

/-- What the output block's staging buffer (a placeholder where the window is idle) and the accumulator hold after the
    body at position n. -/
def outsAt2 (c : Dev nD) : (n : ℕ) → n < cfg2.N → Vec F S8x68x68x68 .f32 × Vec F S8x68x68x68 .f32
  | 0, hn =>
    both2 (soutA2 c (grid2.coords ⟨0, hn⟩) (msI2 ⟨0, hn⟩) (hsI2 ⟨0, hn⟩) (msO2 ⟨0, hn⟩) (hsO2 ⟨0, hn⟩) accM2 haccM2 ((hcondZ2 ⟨0, hn⟩).mpr (Nat.zero_mod _)) (fun h => absurd ((Nat.zero_mod 16).symm.trans ((hcondL2 ⟨0, hn⟩).mp h)) (by decide)) (iblk2 V c 0 ⟨0, hn⟩))
  | n + 1, hn =>
    if h0 : (n + 1) % 16 = 0 then
      both2 (soutA2 c (grid2.coords ⟨n + 1, hn⟩) (msI2 ⟨n + 1, hn⟩) (hsI2 ⟨n + 1, hn⟩) (msO2 ⟨n + 1, hn⟩) (hsO2 ⟨n + 1, hn⟩) accM2 haccM2 ((hcondZ2 ⟨n + 1, hn⟩).mpr h0) (fun h => absurd (h0.symm.trans ((hcondL2 ⟨n + 1, hn⟩).mp h)) (by decide)) (iblk2 V c 0 ⟨n + 1, hn⟩))
    else
      if h1 : (n + 1) % 16 = 15 then
        (outC2 c (grid2.coords ⟨n + 1, hn⟩) (msI2 ⟨n + 1, hn⟩) (hsI2 ⟨n + 1, hn⟩) (msO2 ⟨n + 1, hn⟩) (hsO2 ⟨n + 1, hn⟩) accM2 haccM2 (fun h => h0 ((hcondZ2 ⟨n + 1, hn⟩).mp h)) ((hcondL2 ⟨n + 1, hn⟩).mpr h1) (iblk2 V c 0 ⟨n + 1, hn⟩) (outsAt2 c n (Nat.lt_of_succ_lt hn)).2,
         soutC2 c (grid2.coords ⟨n + 1, hn⟩) (msI2 ⟨n + 1, hn⟩) (hsI2 ⟨n + 1, hn⟩) (msO2 ⟨n + 1, hn⟩) (hsO2 ⟨n + 1, hn⟩) accM2 haccM2 (fun h => h0 ((hcondZ2 ⟨n + 1, hn⟩).mp h)) ((hcondL2 ⟨n + 1, hn⟩).mpr h1) (iblk2 V c 0 ⟨n + 1, hn⟩) (outsAt2 c n (Nat.lt_of_succ_lt hn)).2)
      else
        both2 (soutB2 c (grid2.coords ⟨n + 1, hn⟩) (msI2 ⟨n + 1, hn⟩) (hsI2 ⟨n + 1, hn⟩) (msO2 ⟨n + 1, hn⟩) (hsO2 ⟨n + 1, hn⟩) accM2 haccM2 (fun h => h0 ((hcondZ2 ⟨n + 1, hn⟩).mp h)) (fun h => h1 ((hcondL2 ⟨n + 1, hn⟩).mp h)) (iblk2 V c 0 ⟨n + 1, hn⟩) (outsAt2 c n (Nat.lt_of_succ_lt hn)).2)

theorem outsAt2_A (c : Dev nD) (t : Fin cfg2.N) (h0 : t.val % 16 = 0) (h1 : ¬t.val % 16 = 15) :
    (outsAt2 V c t.val t.isLt).2 = soutA2 c (grid2.coords t) (msI2 t) (hsI2 t) (msO2 t) (hsO2 t) accM2 haccM2 ((hcondZ2 t).mpr h0) (fun h => h1 ((hcondL2 t).mp h)) (iblk2 V c 0 t) := by
  obtain ⟨n, hn⟩ := t
  cases n with
  | zero => rw [outsAt2]
  | succ n => rw [outsAt2, dif_pos h0]

theorem outsAt2_B (c : Dev nD) (t : Fin cfg2.N) (h0 : ¬t.val % 16 = 0) (h1 : ¬t.val % 16 = 15) (k : ℕ) (hk : k + 1 = t.val) :
    (outsAt2 V c t.val t.isLt).2 = soutB2 c (grid2.coords t) (msI2 t) (hsI2 t) (msO2 t) (hsO2 t) accM2 haccM2 (fun h => h0 ((hcondZ2 t).mp h)) (fun h => h1 ((hcondL2 t).mp h)) (iblk2 V c 0 t) (outsAt2 V c k (by omega)).2 := by
  obtain ⟨n, hn⟩ := t
  dsimp only at hk
  subst hk
  rw [outsAt2, dif_neg h0, dif_neg h1]

theorem outsAt2_C (c : Dev nD) (t : Fin cfg2.N) (h0 : ¬t.val % 16 = 0) (h1 : t.val % 16 = 15) (k : ℕ) (hk : k + 1 = t.val) :
    outsAt2 V c t.val t.isLt = (outC2 c (grid2.coords t) (msI2 t) (hsI2 t) (msO2 t) (hsO2 t) accM2 haccM2 (fun h => h0 ((hcondZ2 t).mp h)) ((hcondL2 t).mpr h1) (iblk2 V c 0 t) (outsAt2 V c k (by omega)).2,
      soutC2 c (grid2.coords t) (msI2 t) (hsI2 t) (msO2 t) (hsO2 t) accM2 haccM2 (fun h => h0 ((hcondZ2 t).mp h)) ((hcondL2 t).mpr h1) (iblk2 V c 0 t) (outsAt2 V c k (by omega)).2) := by
  obtain ⟨n, hn⟩ := t
  dsimp only at hk
  subst hk
  rw [outsAt2, dif_neg h0, dif_pos h1]

/-! ## The region invariant: the accumulator carried between points -/

def PhiS2 (c : Dev nD) : (n : ℕ) → n ≤ cfg2.N → sProp 𝕄
  | 0, _ => Pipeline.ΦA spec2 c
  | n + 1, hn => iprop(iprop(owns (c : Thread nD τ) accM2 fullShare ((outsAt2 V c n hn).2) ∗ restS2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) accM2 fullShare ((outsAt2 V c n hn).2) ∗ restS2 (F := F) c) ∗ (∃ r, prngReg c r)) := rfl

theorem PhiS2_pos (c : Dev nD) (n : ℕ) (h : n ≤ cfg2.N) (k : ℕ) (hk : k + 1 = n) :
    PhiS2 V c n h = iprop(iprop(owns (c : Thread nD τ) accM2 fullShare ((outsAt2 V c k (by omega)).2) ∗ restS2 (F := F) c) ∗ (∃ r, prngReg c r)) := by
  subst hk
  rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem afterIn2 (c : Dev nD) (t : Fin cfg2.N) : (dat2 V c).after 0 t = iblk2 V c 0 t := by dsimp only [dat2]
theorem afterOut2 (c : Dev nD) (t : Fin cfg2.N) : (dat2 V c).after 1 t = (outsAt2 V c t.val t.isLt).1 := by dsimp only [dat2]

theorem beforeIn2 (c : Dev nD) (t : Fin cfg2.N) (d) : (dat2 V c).before 0 t d = iblk2 V c 0 t :=
  beforeIn2_of V (dat2 V c) (A_eq2 V c 0) (afterIn2 V c) t d

end Cert.Kernel.Fold

end
-- ==== Proof.K.R2Oblig.lean ====
/-
  Overlap-add along axis 1, one pallas_call: the body obligation. At a generic point the input's staging buffer holds
  its block; the invariant hands the body the accumulator (at what the point before left, or at anything before the first
  point) beside the scoped buffers of the later calls and the generator register, and takes the accumulator back at this
  point's contents. Which of the three runs applies is decided by t mod 16.
-/
import proofs.«112882_j45174466019398_1_alg».proof.Proof.K.R2Body

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The number of grid points, and its predecessor. -/
local notation "NP2" => (32 : ℕ)
local notation "NQ2" => (31 : ℕ)

def bodyPre2 (c : Dev nD) (t : Fin cfg2.N) : sProp 𝕄 :=
  iprop((dat2 V c).Φ t.castSucc ∗ (dat2 V c).owesAt () t.castSucc
    ∗ (∃ d, owns (c : Thread nD τ) (msI2 t) fullShare ((dat2 V c).before 0 t d))
    ∗ (∃ d, owns (c : Thread nD τ) (msO2 t) fullShare ((dat2 V c).before 1 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

/-- Before any point the invariant holds the accumulator at SOME contents. -/
theorem PhiAny2 (c : Dev nD) (t : Fin cfg2.N) :
    (dat2 V c).Φ t.castSucc ⊢ iprop(iprop((∃ d, owns (c : Thread nD τ) accM2 fullShare d) ∗ restS2 (F := F) c) ∗ (∃ r, prngReg c r)) := by
  rw [PhiS2_castSucc V c t]
  by_cases hz : t.val = 0
  · rw [PhiS2_zero V c _ _ hz, PhiAeq2]
  · obtain ⟨k, hk⟩ : ∃ k, k + 1 = t.val := ⟨t.val - 1, by omega⟩
    rw [PhiS2_pos V c _ _ k hk]
    iintro ⟨⟨HS0, Hrest⟩, Hg⟩
    isplitl [HS0 Hrest]
    · isplitl [HS0]; · iexists _; iexact HS0
      iexact Hrest
    iexact Hg

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [beforeIn2]
  rw [show (dat2 V c).owesAt () t.succ = (dat2 V c).owesAt () t.castSucc from rfl]
  rw [show (dat2 V c).Φ t.succ = PhiS2 V c (t.val + 1) t.isLt from rfl, PhiS2_succ]
  have hN : t.val < NP2 := lt_of_lt_of_eq t.isLt (show cfg2.N = NP2 from N_2)
  rw [show (dat2 V c).leavesExact 0 t = owns (c : Thread nD τ) (msI2 t) fullShare ((dat2 V c).after 0 t) from by
    unfold Dat.leavesExact; rw [liveIn2 t], afterIn2]
  by_cases h1 : t.val % 16 = 15
  · have h0 : ¬t.val % 16 = 0 := by omega
    obtain ⟨k, hk⟩ : ∃ k, k + 1 = t.val := ⟨t.val - 1, by omega⟩
    rw [show (dat2 V c).leavesExact 1 t = owns (c : Thread nD τ) (msO2 t) fullShare ((dat2 V c).after 1 t) from by
      unfold Dat.leavesExact; rw [liveOut2 t ((hcondL2 t).mpr h1)], afterOut2]
    rw [outsAt2_C V c t h0 h1 k hk]
    unfold outC2 soutC2; (try dsimp only)
    rw [PhiS2_castSucc V c t, PhiS2_pos V c _ _ k hk]
    iintro ⟨⟨⟨HS0, Hrest⟩, Hg⟩, Ho, ⟨%d0, H0⟩, ⟨%d1, H1⟩⟩
    iapply ((runC2 c (grid2.coords t) _ _ _ _ _ _ (fun h => h0 ((hcondZ2 t).mp h)) ((hcondL2 t).mpr h1) (iblk2 V c 0 t) _).2.2 Set.univ _)
    isplitl [H0]; · iexact H0
    isplitl [H1]; · iexists _; iexact H1
    isplitl [HS0]; · iexact HS0
    iintro ⟨H0, ⟨%e1, H1⟩, HS0⟩
    isplitl [HS0 Hg Hrest]
    · isplitl [HS0 Hrest]
      · isplitl [HS0]
        · unfold owns; iexists _; isplitr
          swap; · iexact HS0
          ipureintro; rfl
        iexact Hrest
      iexact Hg
    isplitl [Ho]; · iexact Ho
    isplitl [H0]; · iexact H0
    unfold owns; iexists _; isplitr
    swap; · iexact H1
    ipureintro; exact View.read_writes_of_cover _ _ _ _ _ (coverC2 c _ _ _ _ _ _ _ _ _ _ _)
  · rw [Dat.leavesExact_idle (dat2 V c) 1 t (idleOut2 t (fun h => h1 ((hcondL2 t).mp h))) (noFlushOut2 t (fun h => h1 ((hcondL2 t).mp h)))]
    by_cases h0 : t.val % 16 = 0
    · rw [outsAt2_A V c t h0 h1]
      unfold soutA2; (try dsimp only)
      iintro ⟨HΦ, Ho, ⟨%d0, H0⟩, ⟨%d1, H1⟩⟩
      ihave HΦ' := (PhiAny2 V c t) $$ HΦ
      icases HΦ' with ⟨⟨HS0, Hrest⟩, Hg⟩
      iapply ((runA2 c (grid2.coords t) _ _ _ _ _ _ ((hcondZ2 t).mpr h0) (fun h => h1 ((hcondL2 t).mp h)) (iblk2 V c 0 t)).2 _ Set.univ _)
      isplitl [H0]; · iexact H0
      isplitl [H1]; · iexact H1
      isplitl [HS0]; · iexact HS0
      iintro ⟨H0, H1, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (coverA2 c _ _ _ _ _ _ _ _ _ _)
          iexact Hrest
        iexact Hg
      isplitl [Ho]; · iexact Ho
      isplitl [H0]; · iexact H0
      iexists _; iexact H1
    · obtain ⟨k, hk⟩ : ∃ k, k + 1 = t.val := ⟨t.val - 1, by omega⟩
      rw [outsAt2_B V c t h0 h1 k hk]
      unfold soutB2; (try dsimp only)
      rw [PhiS2_castSucc V c t, PhiS2_pos V c _ _ k hk]
      iintro ⟨⟨⟨HS0, Hrest⟩, Hg⟩, Ho, ⟨%d0, H0⟩, ⟨%d1, H1⟩⟩
      iapply ((runB2 c (grid2.coords t) _ _ _ _ _ _ (fun h => h0 ((hcondZ2 t).mp h)) (fun h => h1 ((hcondL2 t).mp h)) (iblk2 V c 0 t) _).2 _ Set.univ _)
      isplitl [H0]; · iexact H0
      isplitl [H1]; · iexact H1
      isplitl [HS0]; · iexact HS0
      iintro ⟨H0, H1, HS0⟩
      isplitl [HS0 Hg Hrest]
      · isplitl [HS0 Hrest]
        · isplitl [HS0]
          · unfold owns; iexists _; isplitr
            swap; · iexact HS0
            ipureintro; rfl
          iexact Hrest
        iexact Hg
      isplitl [Ho]; · iexact Ho
      isplitl [H0]; · iexact H0
      iexists _; iexact H1

theorem body_obligation2 (c : Dev nD) : BodyObligation (dat2 (F := F) V c) (defs₀ (F := F)) Variants.none () Set.univ := fun t => by
  rw [bigSep_W2, bigSep_W2]
  exact sound_body2 V c t

/-- What the region's entry hands the kernel (the class invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have ht : NQ2 + 1 = (Fin.last cfg2.N).val := by rw [Fin.val_last]; exact (show cfg2.N = NP2 from N_2).symm
  rw [show (dat2 V c).Φ (Fin.last cfg2.N) = PhiS2 V c (Fin.last cfg2.N).val (Nat.le_of_lt_succ (Fin.last cfg2.N).isLt) from rfl, PhiS2_pos V c _ _ NQ2 ht, PhiAeq2]
  iintro ⟨⟨HS0, Hrest⟩, Hg⟩
  isplitl [HS0 Hrest]
  · isplitl [HS0]; · iexists _; iexact HS0
    iexact Hrest
  iexact Hg

end Cert.Kernel.Fold

end
-- ==== Proof.K.Regs.lean ====
/-
  The three pallas_calls as segments of @main, and the program's frame. Between two items of @main every unscoped buffer is
  held at a known valuation: the launch contents, then each host stretch applied, then — after a pallas_call — its output
  array replaced by what the call's write-backs leave. Each call's proof data is taken at the valuation it is entered
  from; its accumulator and the other scoped buffers never leave the call's invariant.
-/
import proofs.«112882_j45174466019398_1_alg».proof.Proof.K.R0Oblig
import proofs.«112882_j45174466019398_1_alg».proof.Proof.K.R1Oblig
import proofs.«112882_j45174466019398_1_alg».proof.Proof.K.R2Oblig
import proofs.«112882_j45174466019398_1_alg».proof.Proof.Gen.Kernel.Regions
import Idealize.ShloMosaic.Lib.Pipeline.RegionsLoop

set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The valuations between items -/

/-- A valuation read at the TensorCore's references: what a call's proof data take. -/
abbrev atTc (W : Dev nD → Valuation τ sig (Elt F)) : (c : Dev nD) → (b : Ref sig .tc) → Buf (Elt F) ((c : Thread nD τ).loc b) :=
  fun c b => W c b

/-- After the first host stretch: the first call's entry. -/
abbrev W1 (c : Dev nD) : Valuation τ sig (Elt F) := V1 m c
/-- What the first call leaves in its output array. -/
def o2 (c : Dev nD) : Buf (Elt F) ((c : Thread nD τ).loc main_v4) := (dat0 (atTc (W1 m)) c).arrAt 1 cfg0.N
abbrev W2 (c : Dev nD) : Valuation τ sig (Elt F) := Function.update (W1 m c) main_v4 (o2 m c)
abbrev W3 (c : Dev nD) : Valuation τ sig (Elt F) := StableHlo.after hostOps1 (W2 m c)
/-- What the second call leaves in its output array. -/
def o4 (c : Dev nD) : Buf (Elt F) ((c : Thread nD τ).loc main_v6) := (dat1 (atTc (W3 m)) c).arrAt 1 cfg1.N
abbrev W4 (c : Dev nD) : Valuation τ sig (Elt F) := Function.update (W3 m c) main_v6 (o4 m c)
abbrev W5 (c : Dev nD) : Valuation τ sig (Elt F) := StableHlo.after hostOps2 (W4 m c)
/-- What the third call leaves in its output array. -/
def o6 (c : Dev nD) : Buf (Elt F) ((c : Thread nD τ).loc main_v8) := (dat2 (atTc (W5 m)) c).arrAt 1 cfg2.N
abbrev W6 (c : Dev nD) : Valuation τ sig (Elt F) := Function.update (W5 m c) main_v8 (o6 m c)
abbrev W7 (c : Dev nD) : Valuation τ sig (Elt F) := StableHlo.after hostOps3 (W6 m c)

/-- What the calls leave, as the table of unknowns the generated thread states are written over. -/
def outs : Outs (F := F) := fun J r c =>
  match J with
  | 2 => W2 m c r
  | 4 => W4 m c r
  | 6 => W6 m c r
  | _ => m ((c : Thread nD τ).loc r)

theorem outs_2 (c : Dev nD) : outs m 2 main_v4 c = o2 m c := by
  show Function.update (W1 m c) main_v4 (o2 m c) main_v4 = _
  exact Function.update_self ..
theorem outs_4 (c : Dev nD) : outs m 4 main_v6 c = o4 m c := by
  show Function.update (W3 m c) main_v6 (o4 m c) main_v6 = _
  exact Function.update_self ..
theorem outs_6 (c : Dev nD) : outs m 6 main_v8 c = o6 m c := by
  show Function.update (W5 m c) main_v8 (o6 m c) main_v8 = _
  exact Function.update_self ..

/-- The generated valuations at this table are the ones above. -/
theorem V2_eq (c : Dev nD) : V2 m (outs m) c = W2 m c := by
  show Function.update (V1 m c) main_v4 (outs m 2 main_v4 c) = _
  rw [outs_2]
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v6 (outs m 4 main_v6 c) = _
  rw [outs_4, V3_eq]
theorem V5_eq (c : Dev nD) : V5 m (outs m) c = W5 m c := by
  show StableHlo.after hostOps2 (V4 m (outs m) c) = _
  rw [V4_eq]
theorem V6_eq (c : Dev nD) : V6 m (outs m) c = W6 m c := by
  show Function.update (V5 m (outs m) c) main_v8 (outs m 6 main_v8 c) = _
  rw [outs_6, V5_eq]
theorem V7_eq (c : Dev nD) : V7 m (outs m) c = W7 m c := by
  show StableHlo.after hostOps3 (V6 m (outs m) c) = _
  rw [V6_eq]

/-! ## The proof data family and what rides beside the buffers -/

/-- Every call's proof data, each at its entry valuation: a literal match, so that the pinned configuration at a numeral
    reduces to the printed one. -/
def pdats : (p : Fin 3) → (c : Dev nD) → Dat τ (Elt F) Unit ℕ (UR sig nD τ) ℕ (Pipeline.pin (pcfgs (F := F)) adm p) c
  | ⟨0, _⟩ => fun c => dat0 (atTc (W1 m)) c
  | ⟨1, _⟩ => fun c => dat1 (atTc (W3 m)) c
  | ⟨2, _⟩ => fun c => dat2 (atTc (W5 m)) c

abbrev 𝒱₀ : Variants := Variants.none
/-- No core owes another anything. -/
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)

/-- At call 0's exit each of its arrays holds what the pipeline leaves, and every other buffer what it held at entry. -/
theorem hF0 (c : Dev nD) (w : Fin cfg0.W) : (pdats m 0 c).arrAt w cfg0.N = atTc (W2 m) c (Pipeline.arrRef spec0 w) :=
  match w with
  | ⟨0, _⟩ => ((pdats m 0 c).arrAt_in 0 rfl _).trans (by
      show W1 m c (Proc.devRef .tc main_v3) = Function.update (W1 m c) (Proc.devRef .tc main_v4) (o2 m c) (Proc.devRef .tc main_v3)
      exact (Function.update_of_ne (StableHlo.devRef_ne_of_ne (by decide) : (Proc.devRef .tc main_v3 : DevRef τ sig) ≠ Proc.devRef .tc main_v4) _ _).symm)
  | ⟨1, _⟩ => (Function.update_self (f := W1 m c) (Proc.devRef .tc main_v4 : DevRef τ sig) (o2 m c)).symm
theorem hrest0 (c : Dev nD) : ∀ b, b ∉ Finset.univ.image (Pipeline.arrRef spec0) → atTc (W2 m) c b = atTc (W1 m) c b :=
  fun b hb => Function.update_of_ne (StableHlo.devRef_ne_of_ne (fun e => hb (Finset.mem_image.mpr ⟨1, Finset.mem_univ _, e.symm⟩))) _ _

/-- At call 1's exit each of its arrays holds what the pipeline leaves, and every other buffer what it held at entry. -/
theorem hF1 (c : Dev nD) (w : Fin cfg1.W) : (pdats m 1 c).arrAt w cfg1.N = atTc (W4 m) c (Pipeline.arrRef spec1 w) :=
  match w with
  | ⟨0, _⟩ => ((pdats m 1 c).arrAt_in 0 rfl _).trans (by
      show W3 m c (Proc.devRef .tc main_v5) = Function.update (W3 m c) (Proc.devRef .tc main_v6) (o4 m c) (Proc.devRef .tc main_v5)
      exact (Function.update_of_ne (StableHlo.devRef_ne_of_ne (by decide) : (Proc.devRef .tc main_v5 : DevRef τ sig) ≠ Proc.devRef .tc main_v6) _ _).symm)
  | ⟨1, _⟩ => (Function.update_self (f := W3 m c) (Proc.devRef .tc main_v6 : DevRef τ sig) (o4 m c)).symm
theorem hrest1 (c : Dev nD) : ∀ b, b ∉ Finset.univ.image (Pipeline.arrRef spec1) → atTc (W4 m) c b = atTc (W3 m) c b :=
  fun b hb => Function.update_of_ne (StableHlo.devRef_ne_of_ne (fun e => hb (Finset.mem_image.mpr ⟨1, Finset.mem_univ _, e.symm⟩))) _ _

/-- At call 2's exit each of its arrays holds what the pipeline leaves, and every other buffer what it held at entry. -/
theorem hF2 (c : Dev nD) (w : Fin cfg2.W) : (pdats m 2 c).arrAt w cfg2.N = atTc (W6 m) c (Pipeline.arrRef spec2 w) :=
  match w with
  | ⟨0, _⟩ => ((pdats m 2 c).arrAt_in 0 rfl _).trans (by
      show W5 m c (Proc.devRef .tc main_v7) = Function.update (W5 m c) (Proc.devRef .tc main_v8) (o6 m c) (Proc.devRef .tc main_v7)
      exact (Function.update_of_ne (StableHlo.devRef_ne_of_ne (by decide) : (Proc.devRef .tc main_v7 : DevRef τ sig) ≠ Proc.devRef .tc main_v8) _ _).symm)
  | ⟨1, _⟩ => (Function.update_self (f := W5 m c) (Proc.devRef .tc main_v8 : DevRef τ sig) (o6 m c)).symm
theorem hrest2 (c : Dev nD) : ∀ b, b ∉ Finset.univ.image (Pipeline.arrRef spec2) → atTc (W6 m) c b = atTc (W5 m) c b :=
  fun b hb => Function.update_of_ne (StableHlo.devRef_ne_of_ne (fun e => hb (Finset.mem_image.mpr ⟨1, Finset.mem_univ _, e.symm⟩))) _ _

/-! ## The calls as segments -/

-- a library lemma stated over the pinned configuration unifies with the printed one only when unification may unfold
-- plain definitions in a metavariable's type
set_option backward.isDefEq.respectTransparency.types false in
/-- Pallas_call 0 as a segment: entered from every unscoped buffer at `W1`, left at `W2`. Its two arrays are split
    out of the unscoped buffers and put back with the output array at what the write-backs leave; the generator register
    goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit

    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (atTc (W1 m)) c)
    unfold Pipeline.ΦA
    iintro ⟨Hp, -, Hr⟩
    isplitl [Hr]; · iexact Hr
    iexact Hp
  hout c := by
    rw [Pipeline.ownSems0_none]
    refine (hout0 (atTc (W1 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    rw [V2_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 1 as a segment: entered from every unscoped buffer at `W3`, left at `W4`. Its two arrays are split
    out of the unscoped buffers and put back with the output array at what the write-backs leave; the generator register
    goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W3 m)) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W3 m) c) fun _ => rfl
    rw [Pipeline.unscopedBufs_held] at hsplit
    rw [V3_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (atTc (W3 m)) c)
    unfold Pipeline.ΦA
    iintro ⟨Hp, -, Hr⟩
    isplitl [Hr]; · iexact Hr
    iexact Hp
  hout c := by
    rw [Pipeline.ownSems0_none]
    refine (hout1 (atTc (W3 m)) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W3 m) c) (atTc (W4 m) c) ((pdats m 1 c).arrAt · cfg1.N) (hF1 m c) (hrest1 m c)
    rw [Pipeline.unscopedBufs_held] at hjoin
    rw [V4_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 2 as a segment: entered from every unscoped buffer at `W5`, left at `W6`. Its two arrays are split
    out of the unscoped buffers and put back with the output array at what the write-backs leave; the generator register
    goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W5 m)) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (W5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W5 m) c) fun _ => rfl
    rw [Pipeline.unscopedBufs_held] at hsplit
    rw [V5_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (atTc (W5 m)) c)
    unfold Pipeline.ΦA
    iintro ⟨Hp, -, Hr⟩
    isplitl [Hr]; · iexact Hr
    iexact Hp
  hout c := by
    rw [Pipeline.ownSems0_none]
    refine (hout2 (atTc (W5 m)) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W5 m) c) (atTc (W6 m) c) ((pdats m 2 c).arrAt · cfg2.N) (hF2 m c) (hrest2 m c)
    rw [Pipeline.unscopedBufs_held] at hjoin
    rw [V6_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

variable (ρ : Dev nD → PrngReg)

/-- What the launch makes beside the buffers on every core, and that the last item leaves the core owing nothing. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

-- the conditional frame's implicit arguments are found by unifying its conclusion with this one
set_option backward.isDefEq.respectTransparency.types false in
/-- THE FRAME, at any instance: from any memory with zero counters every weakly fair execution of @main terminates,
    nothing faulting, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_cond (m := m) emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c) (hE0 ρ)
    (fun c => by iintro ⟨-, HO⟩; iexact HO)
    (reg0 m) (fun c => .rfl) (fun c => .rfl)
    (reg1 m) (fun c => .rfl) (fun c => .rfl)
    (reg2 m) (fun c => .rfl) (fun c => .rfl)

end Cert.Kernel.Fold

end
-- ==== Proof.KI.R0Shared.lean ====
/-
  Overlap-add along axis 1, one pallas_call (sixteen windows of width 8 at stride 4 into a length-68 accumulator,
  one channel block at a time): what the three control cases of the body share. The body's two branch conditions depend on
  the window number w = t mod 16 only: "w = 0" (the accumulator is zeroed first) and "w = 15" (the accumulator is
  copied to the output block at the end). Between them the body adds the 8-wide input window into the accumulator's
  slab [4w, 4w + 8) on axis 1 and leaves the rest of the accumulator as it found it.
-/
import proofs.«112882_j45174466019398_1_alg».proof.Proof.Gen.KernelIdeal.Launch
import proofs.«112882_j45174466019398_1_alg».proof.Proof.Gen.KernelIdeal.Skeleton
import proofs.«112882_j45174466019398_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fold

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "This is the first window of its channel block": the accumulator is zeroed before the add. -/
abbrev condZ0 (i : grid0.Coords) : Prop := (Scalar.cmpi .ne (Scalar.extui (Scalar.cmpi .eq (BitVec.ofNat 32 (i 1).val) 0#32)) 0#32) = 1#1
theorem hcondZ0 : ∀ t : Fin cfg0.N, condZ0 (grid0.coords t) ↔ t.val % 16 = 0 :=
  (by decide +kernel : ∀ t : Fin grid0.N, condZ0 (grid0.coords t) ↔ t.val % 16 = 0)

/-- "This is the last window of its channel block": the accumulator is copied out after the add. -/
abbrev condL0 (i : grid0.Coords) : Prop := k0_cond2 i = 1#1
theorem hcondL0 : ∀ t : Fin cfg0.N, condL0 (grid0.coords t) ↔ t.val % 16 = 15 :=
  (by decide +kernel : ∀ t : Fin grid0.N, condL0 (grid0.coords t) ↔ t.val % 16 = 15)

/-! ## Where the output window is idle -/

theorem liveIn0 : ∀ t : Fin cfg0.N, cfg0.idle 0 (grid0.coords t) = false := by decide +kernel
theorem idleOut0 : ∀ t : Fin cfg0.N, ¬condL0 (grid0.coords t) → cfg0.idle 1 (grid0.coords t) = true := by decide +kernel
theorem noFlushOut0 : ∀ t : Fin cfg0.N, ¬condL0 (grid0.coords t) → (cfg0.win 1).flush t = false := by decide +kernel
theorem liveOut0 : ∀ t : Fin cfg0.N, condL0 (grid0.coords t) → cfg0.idle 1 (grid0.coords t) = false := by decide +kernel

/-! ## The memrefs the body is called with -/

abbrev msI0 (t : Fin cfg0.N) : Memref sig .tc .vmem S2x8x128x128 .f32 := win0_0.stage (cfg0.slots t 0)
abbrev hsI0 (t : Fin cfg0.N) : (msI0 t).IsWhole := hstage0_0 ((cfg0.slots t 0).cast nbuf0_0)
abbrev msO0 (t : Fin cfg0.N) : Memref sig .tc .vmem S2x68x128x128 .f32 := win0_1.stage (cfg0.slots t 1)
abbrev hsO0 (t : Fin cfg0.N) : (msO0 t).IsWhole := hstage0_1 ((cfg0.slots t 1).cast nbuf0_1)
/-- The accumulator: a whole scoped buffer of the kernel's own. -/
abbrev accM0 : Memref sig .tc .vmem S2x68x128x128 .f32 := Memref.whole cc0_scratch0
theorem haccM0 : (accM0).IsWhole := Memref.isWhole_whole _

/-- The core's other scoped buffers (the other calls' staging buffers and accumulators), each at some contents: they
    ride beside the accumulator untouched. -/
def restS0 (c : Dev nD) : sProp 𝕄 :=
  Pipeline.scopedRestBut (Ix := Unit) (Name := ℕ) (U := UR sig nD τ) (Lvl := ℕ) (Val := Elt F) spec0 c [cc0_scratch0]

/-- The class invariant with the accumulator spelt as a memref owned at some contents. -/
theorem PhiAeq0 (c : Dev nD) :
    (Pipeline.ΦA spec0 c : sProp 𝕄)
      = iprop(iprop((∃ d, owns (c : Thread nD τ) accM0 fullShare d) ∗ restS0 (F := F) c) ∗ (∃ r, prngReg c r)) := by
  unfold Pipeline.ΦA restS0
  rw [Pipeline.scopedRest_split_of_list spec0 c [cc0_scratch0] (by decide) (by decide)]
  simp only [bigSepL_singleton, accM0, owns_whole]; try rfl

end Cert.KernelIdeal.Fold

end
-- ==== Proof.KI.R0RunA.lean ====
/-
  The body at a channel block's FIRST window (w = 0): the accumulator, whatever it held, is stored whole with zeros, then
  its slab [0, 8) on axis 1 is read back, the input window added, and the sum stored into that slab; the output block is
  not touched. The stores the run leaves in the accumulator (last first) are its witness.
-/
import proofs.«112882_j45174466019398_1_alg».proof.Proof.KI.R0Shared

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : condZ0 i) (hc1 : ¬condL0 i)
    (x0 : Vec F S2x8x128x128 .f32) :
    { LS0 : List (View.Piece (Elt F) S2x68x128x128 .f32) //
      ∀ (xi1 : Vec F S2x68x128x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__fold_kernel i arg2 harg2 arg3 harg3 arg4 harg4) K } := by
  refine ⟨?_, fun xi1 E K => ?run⟩
  case run =>
    simp only [cc0__fold_kernel_eq_skeleton]; unfold cc0__fold_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fold

end
-- ==== Proof.KI.R0RunB.lean ====
/-
  The body at a MIDDLE window (0 < w < 15): the accumulator's slab [4w, 4w + 8) on axis 1 is read, the input window
  added, and the sum stored back into that slab; everything else in the accumulator stays as the window before left it,
  and the output block is not touched. The one slab store is the run's witness, over the accumulator's prior contents.
-/
import proofs.«112882_j45174466019398_1_alg».proof.Proof.KI.R0RunA

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : ¬condZ0 i) (hc1 : ¬condL0 i)
    (x0 : Vec F S2x8x128x128 .f32) (xs0 : Vec F S2x68x128x128 .f32) :
    { LS0 : List (View.Piece (Elt F) S2x68x128x128 .f32) //
      ∀ (xi1 : Vec F S2x68x128x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (arg4.view.loc (c : Thread nD τ) ↦[arg4.view.set]{fullShare} arg4.view.writes (Elt F) (harg4.unread xs0) LS0)) -∗ K ⟨⟩))
          ⊢ wp frame (wpE (defs₀ (F := F)) Variants.none c none) E (cc0__fold_kernel i arg2 harg2 arg3 harg3 arg4 harg4) K } := by
  refine ⟨?_, fun xi1 E K => ?run⟩
  case run =>
    simp only [cc0__fold_kernel_eq_skeleton]; unfold cc0__fold_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexact HS0

end Cert.KernelIdeal.Fold

end
-- ==== Proof.KI.R0RunC.lean ====
/-
  The body at a channel block's LAST window (w = 15): as at a middle window the slab [60, 68) of the accumulator takes
  the input window added to what it held; then the whole accumulator is read and stored whole into the output block.
  The slab store (over the accumulator's prior contents) and the output's one covering store are the run's witnesses.
-/
import proofs.«112882_j45174466019398_1_alg».proof.Proof.KI.R0RunB

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC0 (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole) (hc0 : ¬condZ0 i) (hc1 : condL0 i)
    (x0 : Vec F S2x8x128x128 .f32) (xs0 : Vec F S2x68x128x128 .f32) :
    Σ' (L1 : List (View.Piece (Elt F) S2x68x128x128 .f32)), { LS0 : List (View.Piece (Elt F) S2x68x128x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (arg4.view.loc (c : Thread nD τ) ↦[arg4.view.set]{fullShare} arg4.view.writes (Elt F) (harg4.unread xs0) LS0)) -∗ K ⟨⟩))
          ⊢ wp frame (wpE (defs₀ (F := F)) Variants.none c none) E (cc0__fold_kernel i arg2 harg2 arg3 harg3 arg4 harg4) K } := by
  refine ⟨?_, ?_, fun E K => ?run⟩
  case run =>
    simp only [cc0__fold_kernel_eq_skeleton]; unfold cc0__fold_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexact HS0

end Cert.KernelIdeal.Fold

end
-- ==== Proof.KI.R0Body.lean ====
/-
  Overlap-add along axis 1, one pallas_call: what the accumulator holds after each grid point, and the body obligation.
  A grid point is (channel block, window w), visited in row-major order, so t mod 16 = w. After point t the accumulator
  holds: at w = 0 the zero fill with the window added into slab [0, 8); at 0 < w what point t - 1 left with the window
  added into slab [4w, 4w + 8). At w = 15 the output block takes the accumulator whole; at the other points the output
  window is idle (its buffer is handed back untouched and not written back), so what is recorded for it there is only a
  placeholder. Everything is stated at the region-entry contents V, a parameter.
-/
import proofs.«112882_j45174466019398_1_alg».proof.Proof.KI.R0RunC

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is V's and
    whose body leaves the block in place. -/
theorem beforeIn0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

abbrev VA0 : View sig .tc .vmem S2x68x128x128 .f32 := (accM0).view
abbrev VO0 : View sig .tc .vmem S2x68x128x128 .f32 := (Memref.whole cc0_stg1_0 : Memref sig .tc .vmem S2x68x128x128 .f32).view

section Cases
variable (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole)

/-- At a first window the zero fill covers the accumulator, so what it held before does not matter. -/
theorem coverA0 (hc0 : condZ0 i) (hc1 : ¬condL0 i) (x0 : Vec F S2x8x128x128 .f32) (y : S2x68x128x128.Idx) :
    ∃ pc ∈ (runA0 c i arg2 harg2 arg3 harg3 arg4 harg4 hc0 hc1 x0).1, y ∈ pc.1.set := by
  unfold runA0
  refine ⟨_, List.mem_cons_of_mem _ (List.mem_cons_self), ?_⟩
  rw [Rect.mem_set_unit]
  intro a
  have hy := (y a).isLt
  fin_cases a <;> exact ⟨Nat.zero_le _, by simpa using hy⟩

/-- The accumulator after a first window. -/
def soutA0 (hc0 : condZ0 i) (hc1 : ¬condL0 i) (x0 : Vec F S2x8x128x128 .f32) : Vec F S2x68x128x128 .f32 :=
  VA0.read (Elt F) (VA0.writes (Elt F) VA0.junk (runA0 c i arg2 harg2 arg3 harg3 arg4 harg4 hc0 hc1 x0).1)

/-- The accumulator after a middle window, over what the window before left. -/
def soutB0 (hc0 : ¬condZ0 i) (hc1 : ¬condL0 i) (x0 : Vec F S2x8x128x128 .f32) (xs0 : Vec F S2x68x128x128 .f32) : Vec F S2x68x128x128 .f32 :=
  arg4.view.read (Elt F) (arg4.view.writes (Elt F) (harg4.unread xs0) (runB0 c i arg2 harg2 arg3 harg3 arg4 harg4 hc0 hc1 x0 xs0).1)

/-- The accumulator after a last window, over what the window before left. -/
def soutC0 (hc0 : ¬condZ0 i) (hc1 : condL0 i) (x0 : Vec F S2x8x128x128 .f32) (xs0 : Vec F S2x68x128x128 .f32) : Vec F S2x68x128x128 .f32 :=
  arg4.view.read (Elt F) (arg4.view.writes (Elt F) (harg4.unread xs0) (runC0 c i arg2 harg2 arg3 harg3 arg4 harg4 hc0 hc1 x0 xs0).2.1)

/-- At a last window the output block is stored whole. -/
theorem coverC0 (hc0 : ¬condZ0 i) (hc1 : condL0 i) (x0 : Vec F S2x8x128x128 .f32) (xs0 : Vec F S2x68x128x128 .f32) (y : S2x68x128x128.Idx) :
    ∃ pc ∈ (runC0 c i arg2 harg2 arg3 harg3 arg4 harg4 hc0 hc1 x0 xs0).1, y ∈ pc.1.set :=
  View.cover_of_tiledL (runC0 c i arg2 harg2 arg3 harg3 arg4 harg4 hc0 hc1 x0 xs0).1 S2x68x128x128.size (by sl_kernel_rfl) y

/-- The output block after a last window. -/
def outC0 (hc0 : ¬condZ0 i) (hc1 : condL0 i) (x0 : Vec F S2x8x128x128 .f32) (xs0 : Vec F S2x68x128x128 .f32) : Vec F S2x68x128x128 .f32 :=
  VO0.read (Elt F) (VO0.writes (Elt F) VO0.junk (runC0 c i arg2 harg2 arg3 harg3 arg4 harg4 hc0 hc1 x0 xs0).1)

end Cases

/-! ## Point by point -/

/-- Where the output window is idle the accumulator's contents stand in for the output's as a placeholder. -/
abbrev both0 {α : Type} (a : α) : α × α := (a, a)

/-- What the output block's staging buffer (a placeholder where the window is idle) and the accumulator hold after the
    body at position n. -/
def outsAt0 (c : Dev nD) : (n : ℕ) → n < cfg0.N → Vec F S2x68x128x128 .f32 × Vec F S2x68x128x128 .f32
  | 0, hn =>
    both0 (soutA0 c (grid0.coords ⟨0, hn⟩) (msI0 ⟨0, hn⟩) (hsI0 ⟨0, hn⟩) (msO0 ⟨0, hn⟩) (hsO0 ⟨0, hn⟩) accM0 haccM0 ((hcondZ0 ⟨0, hn⟩).mpr (Nat.zero_mod _)) (fun h => absurd ((Nat.zero_mod 16).symm.trans ((hcondL0 ⟨0, hn⟩).mp h)) (by decide)) (iblk0 V c 0 ⟨0, hn⟩))
  | n + 1, hn =>
    if h0 : (n + 1) % 16 = 0 then
      both0 (soutA0 c (grid0.coords ⟨n + 1, hn⟩) (msI0 ⟨n + 1, hn⟩) (hsI0 ⟨n + 1, hn⟩) (msO0 ⟨n + 1, hn⟩) (hsO0 ⟨n + 1, hn⟩) accM0 haccM0 ((hcondZ0 ⟨n + 1, hn⟩).mpr h0) (fun h => absurd (h0.symm.trans ((hcondL0 ⟨n + 1, hn⟩).mp h)) (by decide)) (iblk0 V c 0 ⟨n + 1, hn⟩))
    else
      if h1 : (n + 1) % 16 = 15 then
        (outC0 c (grid0.coords ⟨n + 1, hn⟩) (msI0 ⟨n + 1, hn⟩) (hsI0 ⟨n + 1, hn⟩) (msO0 ⟨n + 1, hn⟩) (hsO0 ⟨n + 1, hn⟩) accM0 haccM0 (fun h => h0 ((hcondZ0 ⟨n + 1, hn⟩).mp h)) ((hcondL0 ⟨n + 1, hn⟩).mpr h1) (iblk0 V c 0 ⟨n + 1, hn⟩) (outsAt0 c n (Nat.lt_of_succ_lt hn)).2,
         soutC0 c (grid0.coords ⟨n + 1, hn⟩) (msI0 ⟨n + 1, hn⟩) (hsI0 ⟨n + 1, hn⟩) (msO0 ⟨n + 1, hn⟩) (hsO0 ⟨n + 1, hn⟩) accM0 haccM0 (fun h => h0 ((hcondZ0 ⟨n + 1, hn⟩).mp h)) ((hcondL0 ⟨n + 1, hn⟩).mpr h1) (iblk0 V c 0 ⟨n + 1, hn⟩) (outsAt0 c n (Nat.lt_of_succ_lt hn)).2)
      else
        both0 (soutB0 c (grid0.coords ⟨n + 1, hn⟩) (msI0 ⟨n + 1, hn⟩) (hsI0 ⟨n + 1, hn⟩) (msO0 ⟨n + 1, hn⟩) (hsO0 ⟨n + 1, hn⟩) accM0 haccM0 (fun h => h0 ((hcondZ0 ⟨n + 1, hn⟩).mp h)) (fun h => h1 ((hcondL0 ⟨n + 1, hn⟩).mp h)) (iblk0 V c 0 ⟨n + 1, hn⟩) (outsAt0 c n (Nat.lt_of_succ_lt hn)).2)

theorem outsAt0_A (c : Dev nD) (t : Fin cfg0.N) (h0 : t.val % 16 = 0) (h1 : ¬t.val % 16 = 15) :
    (outsAt0 V c t.val t.isLt).2 = soutA0 c (grid0.coords t) (msI0 t) (hsI0 t) (msO0 t) (hsO0 t) accM0 haccM0 ((hcondZ0 t).mpr h0) (fun h => h1 ((hcondL0 t).mp h)) (iblk0 V c 0 t) := by
  obtain ⟨n, hn⟩ := t
  cases n with
  | zero => rw [outsAt0]
  | succ n => rw [outsAt0, dif_pos h0]

theorem outsAt0_B (c : Dev nD) (t : Fin cfg0.N) (h0 : ¬t.val % 16 = 0) (h1 : ¬t.val % 16 = 15) (k : ℕ) (hk : k + 1 = t.val) :
    (outsAt0 V c t.val t.isLt).2 = soutB0 c (grid0.coords t) (msI0 t) (hsI0 t) (msO0 t) (hsO0 t) accM0 haccM0 (fun h => h0 ((hcondZ0 t).mp h)) (fun h => h1 ((hcondL0 t).mp h)) (iblk0 V c 0 t) (outsAt0 V c k (by omega)).2 := by
  obtain ⟨n, hn⟩ := t
  dsimp only at hk
  subst hk
  rw [outsAt0, dif_neg h0, dif_neg h1]

theorem outsAt0_C (c : Dev nD) (t : Fin cfg0.N) (h0 : ¬t.val % 16 = 0) (h1 : t.val % 16 = 15) (k : ℕ) (hk : k + 1 = t.val) :
    outsAt0 V c t.val t.isLt = (outC0 c (grid0.coords t) (msI0 t) (hsI0 t) (msO0 t) (hsO0 t) accM0 haccM0 (fun h => h0 ((hcondZ0 t).mp h)) ((hcondL0 t).mpr h1) (iblk0 V c 0 t) (outsAt0 V c k (by omega)).2,
      soutC0 c (grid0.coords t) (msI0 t) (hsI0 t) (msO0 t) (hsO0 t) accM0 haccM0 (fun h => h0 ((hcondZ0 t).mp h)) ((hcondL0 t).mpr h1) (iblk0 V c 0 t) (outsAt0 V c k (by omega)).2) := by
  obtain ⟨n, hn⟩ := t
  dsimp only at hk
  subst hk
  rw [outsAt0, dif_neg h0, dif_pos h1]

/-! ## The region invariant: the accumulator carried between points -/

def PhiS0 (c : Dev nD) : (n : ℕ) → n ≤ cfg0.N → sProp 𝕄
  | 0, _ => Pipeline.ΦA spec0 c
  | n + 1, hn => iprop(iprop(owns (c : Thread nD τ) accM0 fullShare ((outsAt0 V c n hn).2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM0 fullShare ((outsAt0 V c n hn).2) ∗ restS0 (F := F) c) ∗ (∃ r, prngReg c r)) := rfl

theorem PhiS0_pos (c : Dev nD) (n : ℕ) (h : n ≤ cfg0.N) (k : ℕ) (hk : k + 1 = n) :
    PhiS0 V c n h = iprop(iprop(owns (c : Thread nD τ) accM0 fullShare ((outsAt0 V c k (by omega)).2) ∗ restS0 (F := F) c) ∗ (∃ r, prngReg c r)) := by
  subst hk
  rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem afterIn0 (c : Dev nD) (t : Fin cfg0.N) : (dat0 V c).after 0 t = iblk0 V c 0 t := by dsimp only [dat0]
theorem afterOut0 (c : Dev nD) (t : Fin cfg0.N) : (dat0 V c).after 1 t = (outsAt0 V c t.val t.isLt).1 := by dsimp only [dat0]

theorem beforeIn0 (c : Dev nD) (t : Fin cfg0.N) (d) : (dat0 V c).before 0 t d = iblk0 V c 0 t :=
  beforeIn0_of V (dat0 V c) (A_eq0 V c 0) (afterIn0 V c) t d

end Cert.KernelIdeal.Fold

end
-- ==== Proof.KI.R0Oblig.lean ====
/-
  Overlap-add along axis 1, one pallas_call: the body obligation. At a generic point the input's staging buffer holds
  its block; the invariant hands the body the accumulator (at what the point before left, or at anything before the first
  point) beside the scoped buffers of the later calls and the generator register, and takes the accumulator back at this
  point's contents. Which of the three runs applies is decided by t mod 16.
-/
import proofs.«112882_j45174466019398_1_alg».proof.Proof.KI.R0Body

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The number of grid points, and its predecessor. -/
local notation "NP0" => (128 : ℕ)
local notation "NQ0" => (127 : ℕ)

def bodyPre0 (c : Dev nD) (t : Fin cfg0.N) : sProp 𝕄 :=
  iprop((dat0 V c).Φ t.castSucc ∗ (dat0 V c).owesAt () t.castSucc
    ∗ (∃ d, owns (c : Thread nD τ) (msI0 t) fullShare ((dat0 V c).before 0 t d))
    ∗ (∃ d, owns (c : Thread nD τ) (msO0 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

/-- Before any point the invariant holds the accumulator at SOME contents. -/
theorem PhiAny0 (c : Dev nD) (t : Fin cfg0.N) :
    (dat0 V c).Φ t.castSucc ⊢ iprop(iprop((∃ d, owns (c : Thread nD τ) accM0 fullShare d) ∗ restS0 (F := F) c) ∗ (∃ r, prngReg c r)) := by
  rw [PhiS0_castSucc V c t]
  by_cases hz : t.val = 0
  · rw [PhiS0_zero V c _ _ hz, PhiAeq0]
  · obtain ⟨k, hk⟩ : ∃ k, k + 1 = t.val := ⟨t.val - 1, by omega⟩
    rw [PhiS0_pos V c _ _ k hk]
    iintro ⟨⟨HS0, Hrest⟩, Hg⟩
    isplitl [HS0 Hrest]
    · isplitl [HS0]; · iexists _; iexact HS0
      iexact Hrest
    iexact Hg

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [beforeIn0]
  rw [show (dat0 V c).owesAt () t.succ = (dat0 V c).owesAt () t.castSucc from rfl]
  rw [show (dat0 V c).Φ t.succ = PhiS0 V c (t.val + 1) t.isLt from rfl, PhiS0_succ]
  have hN : t.val < NP0 := lt_of_lt_of_eq t.isLt (show cfg0.N = NP0 from N_0)
  rw [show (dat0 V c).leavesExact 0 t = owns (c : Thread nD τ) (msI0 t) fullShare ((dat0 V c).after 0 t) from by
    unfold Dat.leavesExact; rw [liveIn0 t], afterIn0]
  by_cases h1 : t.val % 16 = 15
  · have h0 : ¬t.val % 16 = 0 := by omega
    obtain ⟨k, hk⟩ : ∃ k, k + 1 = t.val := ⟨t.val - 1, by omega⟩
    rw [show (dat0 V c).leavesExact 1 t = owns (c : Thread nD τ) (msO0 t) fullShare ((dat0 V c).after 1 t) from by
      unfold Dat.leavesExact; rw [liveOut0 t ((hcondL0 t).mpr h1)], afterOut0]
    rw [outsAt0_C V c t h0 h1 k hk]
    unfold outC0 soutC0; (try dsimp only)
    rw [PhiS0_castSucc V c t, PhiS0_pos V c _ _ k hk]
    iintro ⟨⟨⟨HS0, Hrest⟩, Hg⟩, Ho, ⟨%d0, H0⟩, ⟨%d1, H1⟩⟩
    iapply ((runC0 c (grid0.coords t) _ _ _ _ _ _ (fun h => h0 ((hcondZ0 t).mp h)) ((hcondL0 t).mpr h1) (iblk0 V c 0 t) _).2.2 Set.univ _)
    isplitl [H0]; · iexact H0
    isplitl [H1]; · iexists _; iexact H1
    isplitl [HS0]; · iexact HS0
    iintro ⟨H0, ⟨%e1, H1⟩, HS0⟩
    isplitl [HS0 Hg Hrest]
    · isplitl [HS0 Hrest]
      · isplitl [HS0]
        · unfold owns; iexists _; isplitr
          swap; · iexact HS0
          ipureintro; rfl
        iexact Hrest
      iexact Hg
    isplitl [Ho]; · iexact Ho
    isplitl [H0]; · iexact H0
    unfold owns; iexists _; isplitr
    swap; · iexact H1
    ipureintro; exact View.read_writes_of_cover _ _ _ _ _ (coverC0 c _ _ _ _ _ _ _ _ _ _ _)
  · rw [Dat.leavesExact_idle (dat0 V c) 1 t (idleOut0 t (fun h => h1 ((hcondL0 t).mp h))) (noFlushOut0 t (fun h => h1 ((hcondL0 t).mp h)))]
    by_cases h0 : t.val % 16 = 0
    · rw [outsAt0_A V c t h0 h1]
      unfold soutA0; (try dsimp only)
      iintro ⟨HΦ, Ho, ⟨%d0, H0⟩, ⟨%d1, H1⟩⟩
      ihave HΦ' := (PhiAny0 V c t) $$ HΦ
      icases HΦ' with ⟨⟨HS0, Hrest⟩, Hg⟩
      iapply ((runA0 c (grid0.coords t) _ _ _ _ _ _ ((hcondZ0 t).mpr h0) (fun h => h1 ((hcondL0 t).mp h)) (iblk0 V c 0 t)).2 _ Set.univ _)
      isplitl [H0]; · iexact H0
      isplitl [H1]; · iexact H1
      isplitl [HS0]; · iexact HS0
      iintro ⟨H0, H1, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (coverA0 c _ _ _ _ _ _ _ _ _ _)
          iexact Hrest
        iexact Hg
      isplitl [Ho]; · iexact Ho
      isplitl [H0]; · iexact H0
      iexists _; iexact H1
    · obtain ⟨k, hk⟩ : ∃ k, k + 1 = t.val := ⟨t.val - 1, by omega⟩
      rw [outsAt0_B V c t h0 h1 k hk]
      unfold soutB0; (try dsimp only)
      rw [PhiS0_castSucc V c t, PhiS0_pos V c _ _ k hk]
      iintro ⟨⟨⟨HS0, Hrest⟩, Hg⟩, Ho, ⟨%d0, H0⟩, ⟨%d1, H1⟩⟩
      iapply ((runB0 c (grid0.coords t) _ _ _ _ _ _ (fun h => h0 ((hcondZ0 t).mp h)) (fun h => h1 ((hcondL0 t).mp h)) (iblk0 V c 0 t) _).2 _ Set.univ _)
      isplitl [H0]; · iexact H0
      isplitl [H1]; · iexact H1
      isplitl [HS0]; · iexact HS0
      iintro ⟨H0, H1, HS0⟩
      isplitl [HS0 Hg Hrest]
      · isplitl [HS0 Hrest]
        · isplitl [HS0]
          · unfold owns; iexists _; isplitr
            swap; · iexact HS0
            ipureintro; rfl
          iexact Hrest
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body0 V c t

/-- What the region's entry hands the kernel (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : NQ0 + 1 = (Fin.last cfg0.N).val := by rw [Fin.val_last]; exact (show cfg0.N = NP0 from N_0).symm
  rw [show (dat0 V c).Φ (Fin.last cfg0.N) = PhiS0 V c (Fin.last cfg0.N).val (Nat.le_of_lt_succ (Fin.last cfg0.N).isLt) from rfl, PhiS0_pos V c _ _ NQ0 ht, PhiAeq0]
  iintro ⟨⟨HS0, Hrest⟩, Hg⟩
  isplitl [HS0 Hrest]
  · isplitl [HS0]; · iexists _; iexact HS0
    iexact Hrest
  iexact Hg

end Cert.KernelIdeal.Fold

end
-- ==== Proof.KI.R1Shared.lean ====
/-
  Overlap-add along axis 1, one pallas_call (sixteen windows of width 8 at stride 4 into a length-68 accumulator,
  one channel block at a time): what the three control cases of the body share. The body's two branch conditions depend on
  the window number w = t mod 16 only: "w = 0" (the accumulator is zeroed first) and "w = 15" (the accumulator is
  copied to the output block at the end). Between them the body adds the 8-wide input window into the accumulator's
  slab [4w, 4w + 8) on axis 1 and leaves the rest of the accumulator as it found it.
-/
import proofs.«112882_j45174466019398_1_alg».proof.Proof.Gen.KernelIdeal.Launch
import proofs.«112882_j45174466019398_1_alg».proof.Proof.Gen.KernelIdeal.Skeleton
import proofs.«112882_j45174466019398_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fold

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "This is the first window of its channel block": the accumulator is zeroed before the add. -/
abbrev condZ1 (i : grid1.Coords) : Prop := (Scalar.cmpi .ne (Scalar.extui (Scalar.cmpi .eq (BitVec.ofNat 32 (i 1).val) 0#32)) 0#32) = 1#1
theorem hcondZ1 : ∀ t : Fin cfg1.N, condZ1 (grid1.coords t) ↔ t.val % 16 = 0 :=
  (by decide +kernel : ∀ t : Fin grid1.N, condZ1 (grid1.coords t) ↔ t.val % 16 = 0)

/-- "This is the last window of its channel block": the accumulator is copied out after the add. -/
abbrev condL1 (i : grid1.Coords) : Prop := k1_cond2 i = 1#1
theorem hcondL1 : ∀ t : Fin cfg1.N, condL1 (grid1.coords t) ↔ t.val % 16 = 15 :=
  (by decide +kernel : ∀ t : Fin grid1.N, condL1 (grid1.coords t) ↔ t.val % 16 = 15)

/-! ## Where the output window is idle -/

theorem liveIn1 : ∀ t : Fin cfg1.N, cfg1.idle 0 (grid1.coords t) = false := by decide +kernel
theorem idleOut1 : ∀ t : Fin cfg1.N, ¬condL1 (grid1.coords t) → cfg1.idle 1 (grid1.coords t) = true := by decide +kernel
theorem noFlushOut1 : ∀ t : Fin cfg1.N, ¬condL1 (grid1.coords t) → (cfg1.win 1).flush t = false := by decide +kernel
theorem liveOut1 : ∀ t : Fin cfg1.N, condL1 (grid1.coords t) → cfg1.idle 1 (grid1.coords t) = false := by decide +kernel

/-! ## The memrefs the body is called with -/

abbrev msI1 (t : Fin cfg1.N) : Memref sig .tc .vmem S4x8x68x128 .f32 := win1_0.stage (cfg1.slots t 0)
abbrev hsI1 (t : Fin cfg1.N) : (msI1 t).IsWhole := hstage1_0 ((cfg1.slots t 0).cast nbuf1_0)
abbrev msO1 (t : Fin cfg1.N) : Memref sig .tc .vmem S4x68x68x128 .f32 := win1_1.stage (cfg1.slots t 1)
abbrev hsO1 (t : Fin cfg1.N) : (msO1 t).IsWhole := hstage1_1 ((cfg1.slots t 1).cast nbuf1_1)
/-- The accumulator: a whole scoped buffer of the kernel's own. -/
abbrev accM1 : Memref sig .tc .vmem S4x68x68x128 .f32 := Memref.whole cc1_scratch0
theorem haccM1 : (accM1).IsWhole := Memref.isWhole_whole _

/-- The core's other scoped buffers (the other calls' staging buffers and accumulators), each at some contents: they
    ride beside the accumulator untouched. -/
def restS1 (c : Dev nD) : sProp 𝕄 :=
  Pipeline.scopedRestBut (Ix := Unit) (Name := ℕ) (U := UR sig nD τ) (Lvl := ℕ) (Val := Elt F) spec1 c [cc1_scratch0]

/-- The class invariant with the accumulator spelt as a memref owned at some contents. -/
theorem PhiAeq1 (c : Dev nD) :
    (Pipeline.ΦA spec1 c : sProp 𝕄)
      = iprop(iprop((∃ d, owns (c : Thread nD τ) accM1 fullShare d) ∗ restS1 (F := F) c) ∗ (∃ r, prngReg c r)) := by
  unfold Pipeline.ΦA restS1
  rw [Pipeline.scopedRest_split_of_list spec1 c [cc1_scratch0] (by decide) (by decide)]
  simp only [bigSepL_singleton, accM1, owns_whole]; try rfl

end Cert.KernelIdeal.Fold

end
-- ==== Proof.KI.R1RunA.lean ====
/-
  The body at a channel block's FIRST window (w = 0): the accumulator, whatever it held, is stored whole with zeros, then
  its slab [0, 8) on axis 1 is read back, the input window added, and the sum stored into that slab; the output block is
  not touched. The stores the run leaves in the accumulator (last first) are its witness.
-/
import proofs.«112882_j45174466019398_1_alg».proof.Proof.KI.R1Shared

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : condZ1 i) (hc1 : ¬condL1 i)
    (x0 : Vec F S4x8x68x128 .f32) :
    { LS0 : List (View.Piece (Elt F) S4x68x68x128 .f32) //
      ∀ (xi1 : Vec F S4x68x68x128 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc1__fold_kernel i arg2 harg2 arg3 harg3 arg4 harg4) K } := by
  refine ⟨?_, fun xi1 E K => ?run⟩
  case run =>
    simp only [cc1__fold_kernel_eq_skeleton]; unfold cc1__fold_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fold

end
-- ==== Proof.KI.R1RunB.lean ====
/-
  The body at a MIDDLE window (0 < w < 15): the accumulator's slab [4w, 4w + 8) on axis 1 is read, the input window
  added, and the sum stored back into that slab; everything else in the accumulator stays as the window before left it,
  and the output block is not touched. The one slab store is the run's witness, over the accumulator's prior contents.
-/
import proofs.«112882_j45174466019398_1_alg».proof.Proof.KI.R1RunA

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : ¬condZ1 i) (hc1 : ¬condL1 i)
    (x0 : Vec F S4x8x68x128 .f32) (xs0 : Vec F S4x68x68x128 .f32) :
    { LS0 : List (View.Piece (Elt F) S4x68x68x128 .f32) //
      ∀ (xi1 : Vec F S4x68x68x128 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (arg4.view.loc (c : Thread nD τ) ↦[arg4.view.set]{fullShare} arg4.view.writes (Elt F) (harg4.unread xs0) LS0)) -∗ K ⟨⟩))
          ⊢ wp frame (wpE (defs₀ (F := F)) Variants.none c none) E (cc1__fold_kernel i arg2 harg2 arg3 harg3 arg4 harg4) K } := by
  refine ⟨?_, fun xi1 E K => ?run⟩
  case run =>
    simp only [cc1__fold_kernel_eq_skeleton]; unfold cc1__fold_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexact HS0

end Cert.KernelIdeal.Fold

end
-- ==== Proof.KI.R1RunC.lean ====
/-
  The body at a channel block's LAST window (w = 15): as at a middle window the slab [60, 68) of the accumulator takes
  the input window added to what it held; then the whole accumulator is read and stored whole into the output block.
  The slab store (over the accumulator's prior contents) and the output's one covering store are the run's witnesses.
-/
import proofs.«112882_j45174466019398_1_alg».proof.Proof.KI.R1RunB

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC1 (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole) (hc0 : ¬condZ1 i) (hc1 : condL1 i)
    (x0 : Vec F S4x8x68x128 .f32) (xs0 : Vec F S4x68x68x128 .f32) :
    Σ' (L1 : List (View.Piece (Elt F) S4x68x68x128 .f32)), { LS0 : List (View.Piece (Elt F) S4x68x68x128 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (arg4.view.loc (c : Thread nD τ) ↦[arg4.view.set]{fullShare} arg4.view.writes (Elt F) (harg4.unread xs0) LS0)) -∗ K ⟨⟩))
          ⊢ wp frame (wpE (defs₀ (F := F)) Variants.none c none) E (cc1__fold_kernel i arg2 harg2 arg3 harg3 arg4 harg4) K } := by
  refine ⟨?_, ?_, fun E K => ?run⟩
  case run =>
    simp only [cc1__fold_kernel_eq_skeleton]; unfold cc1__fold_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexact HS0

end Cert.KernelIdeal.Fold

end
-- ==== Proof.KI.R1Body.lean ====
/-
  Overlap-add along axis 1, one pallas_call: what the accumulator holds after each grid point, and the body obligation.
  A grid point is (channel block, window w), visited in row-major order, so t mod 16 = w. After point t the accumulator
  holds: at w = 0 the zero fill with the window added into slab [0, 8); at 0 < w what point t - 1 left with the window
  added into slab [4w, 4w + 8). At w = 15 the output block takes the accumulator whole; at the other points the output
  window is idle (its buffer is handed back untouched and not written back), so what is recorded for it there is only a
  placeholder. Everything is stated at the region-entry contents V, a parameter.
-/
import proofs.«112882_j45174466019398_1_alg».proof.Proof.KI.R1RunC

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is V's and
    whose body leaves the block in place. -/
theorem beforeIn1_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

abbrev VA1 : View sig .tc .vmem S4x68x68x128 .f32 := (accM1).view
abbrev VO1 : View sig .tc .vmem S4x68x68x128 .f32 := (Memref.whole cc1_stg1_0 : Memref sig .tc .vmem S4x68x68x128 .f32).view

section Cases
variable (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole)

/-- At a first window the zero fill covers the accumulator, so what it held before does not matter. -/
theorem coverA1 (hc0 : condZ1 i) (hc1 : ¬condL1 i) (x0 : Vec F S4x8x68x128 .f32) (y : S4x68x68x128.Idx) :
    ∃ pc ∈ (runA1 c i arg2 harg2 arg3 harg3 arg4 harg4 hc0 hc1 x0).1, y ∈ pc.1.set := by
  unfold runA1
  refine ⟨_, List.mem_cons_of_mem _ (List.mem_cons_self), ?_⟩
  rw [Rect.mem_set_unit]
  intro a
  have hy := (y a).isLt
  fin_cases a <;> exact ⟨Nat.zero_le _, by simpa using hy⟩

/-- The accumulator after a first window. -/
def soutA1 (hc0 : condZ1 i) (hc1 : ¬condL1 i) (x0 : Vec F S4x8x68x128 .f32) : Vec F S4x68x68x128 .f32 :=
  VA1.read (Elt F) (VA1.writes (Elt F) VA1.junk (runA1 c i arg2 harg2 arg3 harg3 arg4 harg4 hc0 hc1 x0).1)

/-- The accumulator after a middle window, over what the window before left. -/
def soutB1 (hc0 : ¬condZ1 i) (hc1 : ¬condL1 i) (x0 : Vec F S4x8x68x128 .f32) (xs0 : Vec F S4x68x68x128 .f32) : Vec F S4x68x68x128 .f32 :=
  arg4.view.read (Elt F) (arg4.view.writes (Elt F) (harg4.unread xs0) (runB1 c i arg2 harg2 arg3 harg3 arg4 harg4 hc0 hc1 x0 xs0).1)

/-- The accumulator after a last window, over what the window before left. -/
def soutC1 (hc0 : ¬condZ1 i) (hc1 : condL1 i) (x0 : Vec F S4x8x68x128 .f32) (xs0 : Vec F S4x68x68x128 .f32) : Vec F S4x68x68x128 .f32 :=
  arg4.view.read (Elt F) (arg4.view.writes (Elt F) (harg4.unread xs0) (runC1 c i arg2 harg2 arg3 harg3 arg4 harg4 hc0 hc1 x0 xs0).2.1)

/-- At a last window the output block is stored whole. -/
theorem coverC1 (hc0 : ¬condZ1 i) (hc1 : condL1 i) (x0 : Vec F S4x8x68x128 .f32) (xs0 : Vec F S4x68x68x128 .f32) (y : S4x68x68x128.Idx) :
    ∃ pc ∈ (runC1 c i arg2 harg2 arg3 harg3 arg4 harg4 hc0 hc1 x0 xs0).1, y ∈ pc.1.set :=
  View.cover_of_tiledL (runC1 c i arg2 harg2 arg3 harg3 arg4 harg4 hc0 hc1 x0 xs0).1 S4x68x68x128.size (by sl_kernel_rfl) y

/-- The output block after a last window. -/
def outC1 (hc0 : ¬condZ1 i) (hc1 : condL1 i) (x0 : Vec F S4x8x68x128 .f32) (xs0 : Vec F S4x68x68x128 .f32) : Vec F S4x68x68x128 .f32 :=
  VO1.read (Elt F) (VO1.writes (Elt F) VO1.junk (runC1 c i arg2 harg2 arg3 harg3 arg4 harg4 hc0 hc1 x0 xs0).1)

end Cases

/-! ## Point by point -/

/-- Where the output window is idle the accumulator's contents stand in for the output's as a placeholder. -/
abbrev both1 {α : Type} (a : α) : α × α := (a, a)

/-- What the output block's staging buffer (a placeholder where the window is idle) and the accumulator hold after the
    body at position n. -/
def outsAt1 (c : Dev nD) : (n : ℕ) → n < cfg1.N → Vec F S4x68x68x128 .f32 × Vec F S4x68x68x128 .f32
  | 0, hn =>
    both1 (soutA1 c (grid1.coords ⟨0, hn⟩) (msI1 ⟨0, hn⟩) (hsI1 ⟨0, hn⟩) (msO1 ⟨0, hn⟩) (hsO1 ⟨0, hn⟩) accM1 haccM1 ((hcondZ1 ⟨0, hn⟩).mpr (Nat.zero_mod _)) (fun h => absurd ((Nat.zero_mod 16).symm.trans ((hcondL1 ⟨0, hn⟩).mp h)) (by decide)) (iblk1 V c 0 ⟨0, hn⟩))
  | n + 1, hn =>
    if h0 : (n + 1) % 16 = 0 then
      both1 (soutA1 c (grid1.coords ⟨n + 1, hn⟩) (msI1 ⟨n + 1, hn⟩) (hsI1 ⟨n + 1, hn⟩) (msO1 ⟨n + 1, hn⟩) (hsO1 ⟨n + 1, hn⟩) accM1 haccM1 ((hcondZ1 ⟨n + 1, hn⟩).mpr h0) (fun h => absurd (h0.symm.trans ((hcondL1 ⟨n + 1, hn⟩).mp h)) (by decide)) (iblk1 V c 0 ⟨n + 1, hn⟩))
    else
      if h1 : (n + 1) % 16 = 15 then
        (outC1 c (grid1.coords ⟨n + 1, hn⟩) (msI1 ⟨n + 1, hn⟩) (hsI1 ⟨n + 1, hn⟩) (msO1 ⟨n + 1, hn⟩) (hsO1 ⟨n + 1, hn⟩) accM1 haccM1 (fun h => h0 ((hcondZ1 ⟨n + 1, hn⟩).mp h)) ((hcondL1 ⟨n + 1, hn⟩).mpr h1) (iblk1 V c 0 ⟨n + 1, hn⟩) (outsAt1 c n (Nat.lt_of_succ_lt hn)).2,
         soutC1 c (grid1.coords ⟨n + 1, hn⟩) (msI1 ⟨n + 1, hn⟩) (hsI1 ⟨n + 1, hn⟩) (msO1 ⟨n + 1, hn⟩) (hsO1 ⟨n + 1, hn⟩) accM1 haccM1 (fun h => h0 ((hcondZ1 ⟨n + 1, hn⟩).mp h)) ((hcondL1 ⟨n + 1, hn⟩).mpr h1) (iblk1 V c 0 ⟨n + 1, hn⟩) (outsAt1 c n (Nat.lt_of_succ_lt hn)).2)
      else
        both1 (soutB1 c (grid1.coords ⟨n + 1, hn⟩) (msI1 ⟨n + 1, hn⟩) (hsI1 ⟨n + 1, hn⟩) (msO1 ⟨n + 1, hn⟩) (hsO1 ⟨n + 1, hn⟩) accM1 haccM1 (fun h => h0 ((hcondZ1 ⟨n + 1, hn⟩).mp h)) (fun h => h1 ((hcondL1 ⟨n + 1, hn⟩).mp h)) (iblk1 V c 0 ⟨n + 1, hn⟩) (outsAt1 c n (Nat.lt_of_succ_lt hn)).2)

theorem outsAt1_A (c : Dev nD) (t : Fin cfg1.N) (h0 : t.val % 16 = 0) (h1 : ¬t.val % 16 = 15) :
    (outsAt1 V c t.val t.isLt).2 = soutA1 c (grid1.coords t) (msI1 t) (hsI1 t) (msO1 t) (hsO1 t) accM1 haccM1 ((hcondZ1 t).mpr h0) (fun h => h1 ((hcondL1 t).mp h)) (iblk1 V c 0 t) := by
  obtain ⟨n, hn⟩ := t
  cases n with
  | zero => rw [outsAt1]
  | succ n => rw [outsAt1, dif_pos h0]

theorem outsAt1_B (c : Dev nD) (t : Fin cfg1.N) (h0 : ¬t.val % 16 = 0) (h1 : ¬t.val % 16 = 15) (k : ℕ) (hk : k + 1 = t.val) :
    (outsAt1 V c t.val t.isLt).2 = soutB1 c (grid1.coords t) (msI1 t) (hsI1 t) (msO1 t) (hsO1 t) accM1 haccM1 (fun h => h0 ((hcondZ1 t).mp h)) (fun h => h1 ((hcondL1 t).mp h)) (iblk1 V c 0 t) (outsAt1 V c k (by omega)).2 := by
  obtain ⟨n, hn⟩ := t
  dsimp only at hk
  subst hk
  rw [outsAt1, dif_neg h0, dif_neg h1]

theorem outsAt1_C (c : Dev nD) (t : Fin cfg1.N) (h0 : ¬t.val % 16 = 0) (h1 : t.val % 16 = 15) (k : ℕ) (hk : k + 1 = t.val) :
    outsAt1 V c t.val t.isLt = (outC1 c (grid1.coords t) (msI1 t) (hsI1 t) (msO1 t) (hsO1 t) accM1 haccM1 (fun h => h0 ((hcondZ1 t).mp h)) ((hcondL1 t).mpr h1) (iblk1 V c 0 t) (outsAt1 V c k (by omega)).2,
      soutC1 c (grid1.coords t) (msI1 t) (hsI1 t) (msO1 t) (hsO1 t) accM1 haccM1 (fun h => h0 ((hcondZ1 t).mp h)) ((hcondL1 t).mpr h1) (iblk1 V c 0 t) (outsAt1 V c k (by omega)).2) := by
  obtain ⟨n, hn⟩ := t
  dsimp only at hk
  subst hk
  rw [outsAt1, dif_neg h0, dif_pos h1]

/-! ## The region invariant: the accumulator carried between points -/

def PhiS1 (c : Dev nD) : (n : ℕ) → n ≤ cfg1.N → sProp 𝕄
  | 0, _ => Pipeline.ΦA spec1 c
  | n + 1, hn => iprop(iprop(owns (c : Thread nD τ) accM1 fullShare ((outsAt1 V c n hn).2) ∗ restS1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) accM1 fullShare ((outsAt1 V c n hn).2) ∗ restS1 (F := F) c) ∗ (∃ r, prngReg c r)) := rfl

theorem PhiS1_pos (c : Dev nD) (n : ℕ) (h : n ≤ cfg1.N) (k : ℕ) (hk : k + 1 = n) :
    PhiS1 V c n h = iprop(iprop(owns (c : Thread nD τ) accM1 fullShare ((outsAt1 V c k (by omega)).2) ∗ restS1 (F := F) c) ∗ (∃ r, prngReg c r)) := by
  subst hk
  rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem afterIn1 (c : Dev nD) (t : Fin cfg1.N) : (dat1 V c).after 0 t = iblk1 V c 0 t := by dsimp only [dat1]
theorem afterOut1 (c : Dev nD) (t : Fin cfg1.N) : (dat1 V c).after 1 t = (outsAt1 V c t.val t.isLt).1 := by dsimp only [dat1]

theorem beforeIn1 (c : Dev nD) (t : Fin cfg1.N) (d) : (dat1 V c).before 0 t d = iblk1 V c 0 t :=
  beforeIn1_of V (dat1 V c) (A_eq1 V c 0) (afterIn1 V c) t d

end Cert.KernelIdeal.Fold

end
-- ==== Proof.KI.R1Oblig.lean ====
/-
  Overlap-add along axis 1, one pallas_call: the body obligation. At a generic point the input's staging buffer holds
  its block; the invariant hands the body the accumulator (at what the point before left, or at anything before the first
  point) beside the scoped buffers of the later calls and the generator register, and takes the accumulator back at this
  point's contents. Which of the three runs applies is decided by t mod 16.
-/
import proofs.«112882_j45174466019398_1_alg».proof.Proof.KI.R1Body

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The number of grid points, and its predecessor. -/
local notation "NP1" => (64 : ℕ)
local notation "NQ1" => (63 : ℕ)

def bodyPre1 (c : Dev nD) (t : Fin cfg1.N) : sProp 𝕄 :=
  iprop((dat1 V c).Φ t.castSucc ∗ (dat1 V c).owesAt () t.castSucc
    ∗ (∃ d, owns (c : Thread nD τ) (msI1 t) fullShare ((dat1 V c).before 0 t d))
    ∗ (∃ d, owns (c : Thread nD τ) (msO1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

/-- Before any point the invariant holds the accumulator at SOME contents. -/
theorem PhiAny1 (c : Dev nD) (t : Fin cfg1.N) :
    (dat1 V c).Φ t.castSucc ⊢ iprop(iprop((∃ d, owns (c : Thread nD τ) accM1 fullShare d) ∗ restS1 (F := F) c) ∗ (∃ r, prngReg c r)) := by
  rw [PhiS1_castSucc V c t]
  by_cases hz : t.val = 0
  · rw [PhiS1_zero V c _ _ hz, PhiAeq1]
  · obtain ⟨k, hk⟩ : ∃ k, k + 1 = t.val := ⟨t.val - 1, by omega⟩
    rw [PhiS1_pos V c _ _ k hk]
    iintro ⟨⟨HS0, Hrest⟩, Hg⟩
    isplitl [HS0 Hrest]
    · isplitl [HS0]; · iexists _; iexact HS0
      iexact Hrest
    iexact Hg

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [beforeIn1]
  rw [show (dat1 V c).owesAt () t.succ = (dat1 V c).owesAt () t.castSucc from rfl]
  rw [show (dat1 V c).Φ t.succ = PhiS1 V c (t.val + 1) t.isLt from rfl, PhiS1_succ]
  have hN : t.val < NP1 := lt_of_lt_of_eq t.isLt (show cfg1.N = NP1 from N_1)
  rw [show (dat1 V c).leavesExact 0 t = owns (c : Thread nD τ) (msI1 t) fullShare ((dat1 V c).after 0 t) from by
    unfold Dat.leavesExact; rw [liveIn1 t], afterIn1]
  by_cases h1 : t.val % 16 = 15
  · have h0 : ¬t.val % 16 = 0 := by omega
    obtain ⟨k, hk⟩ : ∃ k, k + 1 = t.val := ⟨t.val - 1, by omega⟩
    rw [show (dat1 V c).leavesExact 1 t = owns (c : Thread nD τ) (msO1 t) fullShare ((dat1 V c).after 1 t) from by
      unfold Dat.leavesExact; rw [liveOut1 t ((hcondL1 t).mpr h1)], afterOut1]
    rw [outsAt1_C V c t h0 h1 k hk]
    unfold outC1 soutC1; (try dsimp only)
    rw [PhiS1_castSucc V c t, PhiS1_pos V c _ _ k hk]
    iintro ⟨⟨⟨HS0, Hrest⟩, Hg⟩, Ho, ⟨%d0, H0⟩, ⟨%d1, H1⟩⟩
    iapply ((runC1 c (grid1.coords t) _ _ _ _ _ _ (fun h => h0 ((hcondZ1 t).mp h)) ((hcondL1 t).mpr h1) (iblk1 V c 0 t) _).2.2 Set.univ _)
    isplitl [H0]; · iexact H0
    isplitl [H1]; · iexists _; iexact H1
    isplitl [HS0]; · iexact HS0
    iintro ⟨H0, ⟨%e1, H1⟩, HS0⟩
    isplitl [HS0 Hg Hrest]
    · isplitl [HS0 Hrest]
      · isplitl [HS0]
        · unfold owns; iexists _; isplitr
          swap; · iexact HS0
          ipureintro; rfl
        iexact Hrest
      iexact Hg
    isplitl [Ho]; · iexact Ho
    isplitl [H0]; · iexact H0
    unfold owns; iexists _; isplitr
    swap; · iexact H1
    ipureintro; exact View.read_writes_of_cover _ _ _ _ _ (coverC1 c _ _ _ _ _ _ _ _ _ _ _)
  · rw [Dat.leavesExact_idle (dat1 V c) 1 t (idleOut1 t (fun h => h1 ((hcondL1 t).mp h))) (noFlushOut1 t (fun h => h1 ((hcondL1 t).mp h)))]
    by_cases h0 : t.val % 16 = 0
    · rw [outsAt1_A V c t h0 h1]
      unfold soutA1; (try dsimp only)
      iintro ⟨HΦ, Ho, ⟨%d0, H0⟩, ⟨%d1, H1⟩⟩
      ihave HΦ' := (PhiAny1 V c t) $$ HΦ
      icases HΦ' with ⟨⟨HS0, Hrest⟩, Hg⟩
      iapply ((runA1 c (grid1.coords t) _ _ _ _ _ _ ((hcondZ1 t).mpr h0) (fun h => h1 ((hcondL1 t).mp h)) (iblk1 V c 0 t)).2 _ Set.univ _)
      isplitl [H0]; · iexact H0
      isplitl [H1]; · iexact H1
      isplitl [HS0]; · iexact HS0
      iintro ⟨H0, H1, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (coverA1 c _ _ _ _ _ _ _ _ _ _)
          iexact Hrest
        iexact Hg
      isplitl [Ho]; · iexact Ho
      isplitl [H0]; · iexact H0
      iexists _; iexact H1
    · obtain ⟨k, hk⟩ : ∃ k, k + 1 = t.val := ⟨t.val - 1, by omega⟩
      rw [outsAt1_B V c t h0 h1 k hk]
      unfold soutB1; (try dsimp only)
      rw [PhiS1_castSucc V c t, PhiS1_pos V c _ _ k hk]
      iintro ⟨⟨⟨HS0, Hrest⟩, Hg⟩, Ho, ⟨%d0, H0⟩, ⟨%d1, H1⟩⟩
      iapply ((runB1 c (grid1.coords t) _ _ _ _ _ _ (fun h => h0 ((hcondZ1 t).mp h)) (fun h => h1 ((hcondL1 t).mp h)) (iblk1 V c 0 t) _).2 _ Set.univ _)
      isplitl [H0]; · iexact H0
      isplitl [H1]; · iexact H1
      isplitl [HS0]; · iexact HS0
      iintro ⟨H0, H1, HS0⟩
      isplitl [HS0 Hg Hrest]
      · isplitl [HS0 Hrest]
        · isplitl [HS0]
          · unfold owns; iexists _; isplitr
            swap; · iexact HS0
            ipureintro; rfl
          iexact Hrest
        iexact Hg
      isplitl [Ho]; · iexact Ho
      isplitl [H0]; · iexact H0
      iexists _; iexact H1

theorem body_obligation1 (c : Dev nD) : BodyObligation (dat1 (F := F) V c) (defs₀ (F := F)) Variants.none () Set.univ := fun t => by
  rw [bigSep_W1, bigSep_W1]
  exact sound_body1 V c t

/-- What the region's entry hands the kernel (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : NQ1 + 1 = (Fin.last cfg1.N).val := by rw [Fin.val_last]; exact (show cfg1.N = NP1 from N_1).symm
  rw [show (dat1 V c).Φ (Fin.last cfg1.N) = PhiS1 V c (Fin.last cfg1.N).val (Nat.le_of_lt_succ (Fin.last cfg1.N).isLt) from rfl, PhiS1_pos V c _ _ NQ1 ht, PhiAeq1]
  iintro ⟨⟨HS0, Hrest⟩, Hg⟩
  isplitl [HS0 Hrest]
  · isplitl [HS0]; · iexists _; iexact HS0
    iexact Hrest
  iexact Hg

end Cert.KernelIdeal.Fold

end
-- ==== Proof.KI.R2Shared.lean ====
/-
  Overlap-add along axis 1, one pallas_call (sixteen windows of width 8 at stride 4 into a length-68 accumulator,
  one channel block at a time): what the three control cases of the body share. The body's two branch conditions depend on
  the window number w = t mod 16 only: "w = 0" (the accumulator is zeroed first) and "w = 15" (the accumulator is
  copied to the output block at the end). Between them the body adds the 8-wide input window into the accumulator's
  slab [4w, 4w + 8) on axis 1 and leaves the rest of the accumulator as it found it.
-/
import proofs.«112882_j45174466019398_1_alg».proof.Proof.Gen.KernelIdeal.Launch
import proofs.«112882_j45174466019398_1_alg».proof.Proof.Gen.KernelIdeal.Skeleton
import proofs.«112882_j45174466019398_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fold

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "This is the first window of its channel block": the accumulator is zeroed before the add. -/
abbrev condZ2 (i : grid2.Coords) : Prop := (Scalar.cmpi .ne (Scalar.extui (Scalar.cmpi .eq (BitVec.ofNat 32 (i 1).val) 0#32)) 0#32) = 1#1
theorem hcondZ2 : ∀ t : Fin cfg2.N, condZ2 (grid2.coords t) ↔ t.val % 16 = 0 :=
  (by decide +kernel : ∀ t : Fin grid2.N, condZ2 (grid2.coords t) ↔ t.val % 16 = 0)

/-- "This is the last window of its channel block": the accumulator is copied out after the add. -/
abbrev condL2 (i : grid2.Coords) : Prop := k2_cond2 i = 1#1
theorem hcondL2 : ∀ t : Fin cfg2.N, condL2 (grid2.coords t) ↔ t.val % 16 = 15 :=
  (by decide +kernel : ∀ t : Fin grid2.N, condL2 (grid2.coords t) ↔ t.val % 16 = 15)

/-! ## Where the output window is idle -/

theorem liveIn2 : ∀ t : Fin cfg2.N, cfg2.idle 0 (grid2.coords t) = false := by decide +kernel
theorem idleOut2 : ∀ t : Fin cfg2.N, ¬condL2 (grid2.coords t) → cfg2.idle 1 (grid2.coords t) = true := by decide +kernel
theorem noFlushOut2 : ∀ t : Fin cfg2.N, ¬condL2 (grid2.coords t) → (cfg2.win 1).flush t = false := by decide +kernel
theorem liveOut2 : ∀ t : Fin cfg2.N, condL2 (grid2.coords t) → cfg2.idle 1 (grid2.coords t) = false := by decide +kernel

/-! ## The memrefs the body is called with -/

abbrev msI2 (t : Fin cfg2.N) : Memref sig .tc .vmem S8x8x68x68 .f32 := win2_0.stage (cfg2.slots t 0)
abbrev hsI2 (t : Fin cfg2.N) : (msI2 t).IsWhole := hstage2_0 ((cfg2.slots t 0).cast nbuf2_0)
abbrev msO2 (t : Fin cfg2.N) : Memref sig .tc .vmem S8x68x68x68 .f32 := win2_1.stage (cfg2.slots t 1)
abbrev hsO2 (t : Fin cfg2.N) : (msO2 t).IsWhole := hstage2_1 ((cfg2.slots t 1).cast nbuf2_1)
/-- The accumulator: a whole scoped buffer of the kernel's own. -/
abbrev accM2 : Memref sig .tc .vmem S8x68x68x68 .f32 := Memref.whole cc2_scratch0
theorem haccM2 : (accM2).IsWhole := Memref.isWhole_whole _

/-- The core's other scoped buffers (the other calls' staging buffers and accumulators), each at some contents: they
    ride beside the accumulator untouched. -/
def restS2 (c : Dev nD) : sProp 𝕄 :=
  Pipeline.scopedRestBut (Ix := Unit) (Name := ℕ) (U := UR sig nD τ) (Lvl := ℕ) (Val := Elt F) spec2 c [cc2_scratch0]

/-- The class invariant with the accumulator spelt as a memref owned at some contents. -/
theorem PhiAeq2 (c : Dev nD) :
    (Pipeline.ΦA spec2 c : sProp 𝕄)
      = iprop(iprop((∃ d, owns (c : Thread nD τ) accM2 fullShare d) ∗ restS2 (F := F) c) ∗ (∃ r, prngReg c r)) := by
  unfold Pipeline.ΦA restS2
  rw [Pipeline.scopedRest_split_of_list spec2 c [cc2_scratch0] (by decide) (by decide)]
  simp only [bigSepL_singleton, accM2, owns_whole]; try rfl

end Cert.KernelIdeal.Fold

end
-- ==== Proof.KI.R2RunA.lean ====
/-
  The body at a channel block's FIRST window (w = 0): the accumulator, whatever it held, is stored whole with zeros, then
  its slab [0, 8) on axis 1 is read back, the input window added, and the sum stored into that slab; the output block is
  not touched. The stores the run leaves in the accumulator (last first) are its witness.
-/
import proofs.«112882_j45174466019398_1_alg».proof.Proof.KI.R2Shared

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA2 (c : Dev nD) (i : grid2.Coords) (arg2 : Memref sig .tc .vmem S8x8x68x68 .f32) (harg2 : arg2.IsWhole) (arg3 : Memref sig .tc .vmem S8x68x68x68 .f32) (harg3 : arg3.IsWhole) (arg4 : Memref sig .tc .vmem S8x68x68x68 .f32) (harg4 : arg4.IsWhole) (hc0 : condZ2 i) (hc1 : ¬condL2 i)
    (x0 : Vec F S8x8x68x68 .f32) :
    { LS0 : List (View.Piece (Elt F) S8x68x68x68 .f32) //
      ∀ (xi1 : Vec F S8x68x68x68 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc2__fold_kernel i arg2 harg2 arg3 harg3 arg4 harg4) K } := by
  refine ⟨?_, fun xi1 E K => ?run⟩
  case run =>
    simp only [cc2__fold_kernel_eq_skeleton]; unfold cc2__fold_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Fold

end
-- ==== Proof.KI.R2RunB.lean ====
/-
  The body at a MIDDLE window (0 < w < 15): the accumulator's slab [4w, 4w + 8) on axis 1 is read, the input window
  added, and the sum stored back into that slab; everything else in the accumulator stays as the window before left it,
  and the output block is not touched. The one slab store is the run's witness, over the accumulator's prior contents.
-/
import proofs.«112882_j45174466019398_1_alg».proof.Proof.KI.R2RunA

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB2 (c : Dev nD) (i : grid2.Coords) (arg2 : Memref sig .tc .vmem S8x8x68x68 .f32) (harg2 : arg2.IsWhole) (arg3 : Memref sig .tc .vmem S8x68x68x68 .f32) (harg3 : arg3.IsWhole) (arg4 : Memref sig .tc .vmem S8x68x68x68 .f32) (harg4 : arg4.IsWhole) (hc0 : ¬condZ2 i) (hc1 : ¬condL2 i)
    (x0 : Vec F S8x8x68x68 .f32) (xs0 : Vec F S8x68x68x68 .f32) :
    { LS0 : List (View.Piece (Elt F) S8x68x68x68 .f32) //
      ∀ (xi1 : Vec F S8x68x68x68 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (arg4.view.loc (c : Thread nD τ) ↦[arg4.view.set]{fullShare} arg4.view.writes (Elt F) (harg4.unread xs0) LS0)) -∗ K ⟨⟩))
          ⊢ wp frame (wpE (defs₀ (F := F)) Variants.none c none) E (cc2__fold_kernel i arg2 harg2 arg3 harg3 arg4 harg4) K } := by
  refine ⟨?_, fun xi1 E K => ?run⟩
  case run =>
    simp only [cc2__fold_kernel_eq_skeleton]; unfold cc2__fold_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexact HS0

end Cert.KernelIdeal.Fold

end
-- ==== Proof.KI.R2RunC.lean ====
/-
  The body at a channel block's LAST window (w = 15): as at a middle window the slab [60, 68) of the accumulator takes
  the input window added to what it held; then the whole accumulator is read and stored whole into the output block.
  The slab store (over the accumulator's prior contents) and the output's one covering store are the run's witnesses.
-/
import proofs.«112882_j45174466019398_1_alg».proof.Proof.KI.R2RunB

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC2 (c : Dev nD) (i : grid2.Coords) (arg2 : Memref sig .tc .vmem S8x8x68x68 .f32) (harg2 : arg2.IsWhole) (arg3 : Memref sig .tc .vmem S8x68x68x68 .f32) (harg3 : arg3.IsWhole) (arg4 : Memref sig .tc .vmem S8x68x68x68 .f32) (harg4 : arg4.IsWhole) (hc0 : ¬condZ2 i) (hc1 : condL2 i)
    (x0 : Vec F S8x8x68x68 .f32) (xs0 : Vec F S8x68x68x68 .f32) :
    Σ' (L1 : List (View.Piece (Elt F) S8x68x68x68 .f32)), { LS0 : List (View.Piece (Elt F) S8x68x68x68 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (arg4.view.loc (c : Thread nD τ) ↦[arg4.view.set]{fullShare} arg4.view.writes (Elt F) (harg4.unread xs0) LS0)) -∗ K ⟨⟩))
          ⊢ wp frame (wpE (defs₀ (F := F)) Variants.none c none) E (cc2__fold_kernel i arg2 harg2 arg3 harg3 arg4 harg4) K } := by
  refine ⟨?_, ?_, fun E K => ?run⟩
  case run =>
    simp only [cc2__fold_kernel_eq_skeleton]; unfold cc2__fold_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexact HS0

end Cert.KernelIdeal.Fold

end
-- ==== Proof.KI.R2Body.lean ====
/-
  Overlap-add along axis 1, one pallas_call: what the accumulator holds after each grid point, and the body obligation.
  A grid point is (channel block, window w), visited in row-major order, so t mod 16 = w. After point t the accumulator
  holds: at w = 0 the zero fill with the window added into slab [0, 8); at 0 < w what point t - 1 left with the window
  added into slab [4w, 4w + 8). At w = 15 the output block takes the accumulator whole; at the other points the output
  window is idle (its buffer is handed back untouched and not written back), so what is recorded for it there is only a
  placeholder. Everything is stated at the region-entry contents V, a parameter.
-/
import proofs.«112882_j45174466019398_1_alg».proof.Proof.KI.R2RunC

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is V's and
    whose body leaves the block in place. -/
theorem beforeIn2_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

abbrev VA2 : View sig .tc .vmem S8x68x68x68 .f32 := (accM2).view
abbrev VO2 : View sig .tc .vmem S8x68x68x68 .f32 := (Memref.whole cc2_stg1_0 : Memref sig .tc .vmem S8x68x68x68 .f32).view

section Cases
variable (c : Dev nD) (i : grid2.Coords) (arg2 : Memref sig .tc .vmem S8x8x68x68 .f32) (harg2 : arg2.IsWhole) (arg3 : Memref sig .tc .vmem S8x68x68x68 .f32) (harg3 : arg3.IsWhole) (arg4 : Memref sig .tc .vmem S8x68x68x68 .f32) (harg4 : arg4.IsWhole)

/-- At a first window the zero fill covers the accumulator, so what it held before does not matter. -/
theorem coverA2 (hc0 : condZ2 i) (hc1 : ¬condL2 i) (x0 : Vec F S8x8x68x68 .f32) (y : S8x68x68x68.Idx) :
    ∃ pc ∈ (runA2 c i arg2 harg2 arg3 harg3 arg4 harg4 hc0 hc1 x0).1, y ∈ pc.1.set := by
  unfold runA2
  refine ⟨_, List.mem_cons_of_mem _ (List.mem_cons_self), ?_⟩
  rw [Rect.mem_set_unit]
  intro a
  have hy := (y a).isLt
  fin_cases a <;> exact ⟨Nat.zero_le _, by simpa using hy⟩

/-- The accumulator after a first window. -/
def soutA2 (hc0 : condZ2 i) (hc1 : ¬condL2 i) (x0 : Vec F S8x8x68x68 .f32) : Vec F S8x68x68x68 .f32 :=
  VA2.read (Elt F) (VA2.writes (Elt F) VA2.junk (runA2 c i arg2 harg2 arg3 harg3 arg4 harg4 hc0 hc1 x0).1)

/-- The accumulator after a middle window, over what the window before left. -/
def soutB2 (hc0 : ¬condZ2 i) (hc1 : ¬condL2 i) (x0 : Vec F S8x8x68x68 .f32) (xs0 : Vec F S8x68x68x68 .f32) : Vec F S8x68x68x68 .f32 :=
  arg4.view.read (Elt F) (arg4.view.writes (Elt F) (harg4.unread xs0) (runB2 c i arg2 harg2 arg3 harg3 arg4 harg4 hc0 hc1 x0 xs0).1)

/-- The accumulator after a last window, over what the window before left. -/
def soutC2 (hc0 : ¬condZ2 i) (hc1 : condL2 i) (x0 : Vec F S8x8x68x68 .f32) (xs0 : Vec F S8x68x68x68 .f32) : Vec F S8x68x68x68 .f32 :=
  arg4.view.read (Elt F) (arg4.view.writes (Elt F) (harg4.unread xs0) (runC2 c i arg2 harg2 arg3 harg3 arg4 harg4 hc0 hc1 x0 xs0).2.1)

/-- At a last window the output block is stored whole. -/
theorem coverC2 (hc0 : ¬condZ2 i) (hc1 : condL2 i) (x0 : Vec F S8x8x68x68 .f32) (xs0 : Vec F S8x68x68x68 .f32) (y : S8x68x68x68.Idx) :
    ∃ pc ∈ (runC2 c i arg2 harg2 arg3 harg3 arg4 harg4 hc0 hc1 x0 xs0).1, y ∈ pc.1.set :=
  View.cover_of_tiledL (runC2 c i arg2 harg2 arg3 harg3 arg4 harg4 hc0 hc1 x0 xs0).1 S8x68x68x68.size (by sl_kernel_rfl) y

/-- The output block after a last window. -/
def outC2 (hc0 : ¬condZ2 i) (hc1 : condL2 i) (x0 : Vec F S8x8x68x68 .f32) (xs0 : Vec F S8x68x68x68 .f32) : Vec F S8x68x68x68 .f32 :=
  VO2.read (Elt F) (VO2.writes (Elt F) VO2.junk (runC2 c i arg2 harg2 arg3 harg3 arg4 harg4 hc0 hc1 x0 xs0).1)

end Cases

/-! ## Point by point -/

/-- Where the output window is idle the accumulator's contents stand in for the output's as a placeholder. -/
abbrev both2 {α : Type} (a : α) : α × α := (a, a)

/-- What the output block's staging buffer (a placeholder where the window is idle) and the accumulator hold after the
    body at position n. -/
def outsAt2 (c : Dev nD) : (n : ℕ) → n < cfg2.N → Vec F S8x68x68x68 .f32 × Vec F S8x68x68x68 .f32
  | 0, hn =>
    both2 (soutA2 c (grid2.coords ⟨0, hn⟩) (msI2 ⟨0, hn⟩) (hsI2 ⟨0, hn⟩) (msO2 ⟨0, hn⟩) (hsO2 ⟨0, hn⟩) accM2 haccM2 ((hcondZ2 ⟨0, hn⟩).mpr (Nat.zero_mod _)) (fun h => absurd ((Nat.zero_mod 16).symm.trans ((hcondL2 ⟨0, hn⟩).mp h)) (by decide)) (iblk2 V c 0 ⟨0, hn⟩))
  | n + 1, hn =>
    if h0 : (n + 1) % 16 = 0 then
      both2 (soutA2 c (grid2.coords ⟨n + 1, hn⟩) (msI2 ⟨n + 1, hn⟩) (hsI2 ⟨n + 1, hn⟩) (msO2 ⟨n + 1, hn⟩) (hsO2 ⟨n + 1, hn⟩) accM2 haccM2 ((hcondZ2 ⟨n + 1, hn⟩).mpr h0) (fun h => absurd (h0.symm.trans ((hcondL2 ⟨n + 1, hn⟩).mp h)) (by decide)) (iblk2 V c 0 ⟨n + 1, hn⟩))
    else
      if h1 : (n + 1) % 16 = 15 then
        (outC2 c (grid2.coords ⟨n + 1, hn⟩) (msI2 ⟨n + 1, hn⟩) (hsI2 ⟨n + 1, hn⟩) (msO2 ⟨n + 1, hn⟩) (hsO2 ⟨n + 1, hn⟩) accM2 haccM2 (fun h => h0 ((hcondZ2 ⟨n + 1, hn⟩).mp h)) ((hcondL2 ⟨n + 1, hn⟩).mpr h1) (iblk2 V c 0 ⟨n + 1, hn⟩) (outsAt2 c n (Nat.lt_of_succ_lt hn)).2,
         soutC2 c (grid2.coords ⟨n + 1, hn⟩) (msI2 ⟨n + 1, hn⟩) (hsI2 ⟨n + 1, hn⟩) (msO2 ⟨n + 1, hn⟩) (hsO2 ⟨n + 1, hn⟩) accM2 haccM2 (fun h => h0 ((hcondZ2 ⟨n + 1, hn⟩).mp h)) ((hcondL2 ⟨n + 1, hn⟩).mpr h1) (iblk2 V c 0 ⟨n + 1, hn⟩) (outsAt2 c n (Nat.lt_of_succ_lt hn)).2)
      else
        both2 (soutB2 c (grid2.coords ⟨n + 1, hn⟩) (msI2 ⟨n + 1, hn⟩) (hsI2 ⟨n + 1, hn⟩) (msO2 ⟨n + 1, hn⟩) (hsO2 ⟨n + 1, hn⟩) accM2 haccM2 (fun h => h0 ((hcondZ2 ⟨n + 1, hn⟩).mp h)) (fun h => h1 ((hcondL2 ⟨n + 1, hn⟩).mp h)) (iblk2 V c 0 ⟨n + 1, hn⟩) (outsAt2 c n (Nat.lt_of_succ_lt hn)).2)

theorem outsAt2_A (c : Dev nD) (t : Fin cfg2.N) (h0 : t.val % 16 = 0) (h1 : ¬t.val % 16 = 15) :
    (outsAt2 V c t.val t.isLt).2 = soutA2 c (grid2.coords t) (msI2 t) (hsI2 t) (msO2 t) (hsO2 t) accM2 haccM2 ((hcondZ2 t).mpr h0) (fun h => h1 ((hcondL2 t).mp h)) (iblk2 V c 0 t) := by
  obtain ⟨n, hn⟩ := t
  cases n with
  | zero => rw [outsAt2]
  | succ n => rw [outsAt2, dif_pos h0]

theorem outsAt2_B (c : Dev nD) (t : Fin cfg2.N) (h0 : ¬t.val % 16 = 0) (h1 : ¬t.val % 16 = 15) (k : ℕ) (hk : k + 1 = t.val) :
    (outsAt2 V c t.val t.isLt).2 = soutB2 c (grid2.coords t) (msI2 t) (hsI2 t) (msO2 t) (hsO2 t) accM2 haccM2 (fun h => h0 ((hcondZ2 t).mp h)) (fun h => h1 ((hcondL2 t).mp h)) (iblk2 V c 0 t) (outsAt2 V c k (by omega)).2 := by
  obtain ⟨n, hn⟩ := t
  dsimp only at hk
  subst hk
  rw [outsAt2, dif_neg h0, dif_neg h1]

theorem outsAt2_C (c : Dev nD) (t : Fin cfg2.N) (h0 : ¬t.val % 16 = 0) (h1 : t.val % 16 = 15) (k : ℕ) (hk : k + 1 = t.val) :
    outsAt2 V c t.val t.isLt = (outC2 c (grid2.coords t) (msI2 t) (hsI2 t) (msO2 t) (hsO2 t) accM2 haccM2 (fun h => h0 ((hcondZ2 t).mp h)) ((hcondL2 t).mpr h1) (iblk2 V c 0 t) (outsAt2 V c k (by omega)).2,
      soutC2 c (grid2.coords t) (msI2 t) (hsI2 t) (msO2 t) (hsO2 t) accM2 haccM2 (fun h => h0 ((hcondZ2 t).mp h)) ((hcondL2 t).mpr h1) (iblk2 V c 0 t) (outsAt2 V c k (by omega)).2) := by
  obtain ⟨n, hn⟩ := t
  dsimp only at hk
  subst hk
  rw [outsAt2, dif_neg h0, dif_pos h1]

/-! ## The region invariant: the accumulator carried between points -/

def PhiS2 (c : Dev nD) : (n : ℕ) → n ≤ cfg2.N → sProp 𝕄
  | 0, _ => Pipeline.ΦA spec2 c
  | n + 1, hn => iprop(iprop(owns (c : Thread nD τ) accM2 fullShare ((outsAt2 V c n hn).2) ∗ restS2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) accM2 fullShare ((outsAt2 V c n hn).2) ∗ restS2 (F := F) c) ∗ (∃ r, prngReg c r)) := rfl

theorem PhiS2_pos (c : Dev nD) (n : ℕ) (h : n ≤ cfg2.N) (k : ℕ) (hk : k + 1 = n) :
    PhiS2 V c n h = iprop(iprop(owns (c : Thread nD τ) accM2 fullShare ((outsAt2 V c k (by omega)).2) ∗ restS2 (F := F) c) ∗ (∃ r, prngReg c r)) := by
  subst hk
  rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem afterIn2 (c : Dev nD) (t : Fin cfg2.N) : (dat2 V c).after 0 t = iblk2 V c 0 t := by dsimp only [dat2]
theorem afterOut2 (c : Dev nD) (t : Fin cfg2.N) : (dat2 V c).after 1 t = (outsAt2 V c t.val t.isLt).1 := by dsimp only [dat2]

theorem beforeIn2 (c : Dev nD) (t : Fin cfg2.N) (d) : (dat2 V c).before 0 t d = iblk2 V c 0 t :=
  beforeIn2_of V (dat2 V c) (A_eq2 V c 0) (afterIn2 V c) t d

end Cert.KernelIdeal.Fold

end
-- ==== Proof.KI.R2Oblig.lean ====
/-
  Overlap-add along axis 1, one pallas_call: the body obligation. At a generic point the input's staging buffer holds
  its block; the invariant hands the body the accumulator (at what the point before left, or at anything before the first
  point) beside the scoped buffers of the later calls and the generator register, and takes the accumulator back at this
  point's contents. Which of the three runs applies is decided by t mod 16.
-/
import proofs.«112882_j45174466019398_1_alg».proof.Proof.KI.R2Body

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The number of grid points, and its predecessor. -/
local notation "NP2" => (32 : ℕ)
local notation "NQ2" => (31 : ℕ)

def bodyPre2 (c : Dev nD) (t : Fin cfg2.N) : sProp 𝕄 :=
  iprop((dat2 V c).Φ t.castSucc ∗ (dat2 V c).owesAt () t.castSucc
    ∗ (∃ d, owns (c : Thread nD τ) (msI2 t) fullShare ((dat2 V c).before 0 t d))
    ∗ (∃ d, owns (c : Thread nD τ) (msO2 t) fullShare ((dat2 V c).before 1 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

/-- Before any point the invariant holds the accumulator at SOME contents. -/
theorem PhiAny2 (c : Dev nD) (t : Fin cfg2.N) :
    (dat2 V c).Φ t.castSucc ⊢ iprop(iprop((∃ d, owns (c : Thread nD τ) accM2 fullShare d) ∗ restS2 (F := F) c) ∗ (∃ r, prngReg c r)) := by
  rw [PhiS2_castSucc V c t]
  by_cases hz : t.val = 0
  · rw [PhiS2_zero V c _ _ hz, PhiAeq2]
  · obtain ⟨k, hk⟩ : ∃ k, k + 1 = t.val := ⟨t.val - 1, by omega⟩
    rw [PhiS2_pos V c _ _ k hk]
    iintro ⟨⟨HS0, Hrest⟩, Hg⟩
    isplitl [HS0 Hrest]
    · isplitl [HS0]; · iexists _; iexact HS0
      iexact Hrest
    iexact Hg

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [beforeIn2]
  rw [show (dat2 V c).owesAt () t.succ = (dat2 V c).owesAt () t.castSucc from rfl]
  rw [show (dat2 V c).Φ t.succ = PhiS2 V c (t.val + 1) t.isLt from rfl, PhiS2_succ]
  have hN : t.val < NP2 := lt_of_lt_of_eq t.isLt (show cfg2.N = NP2 from N_2)
  rw [show (dat2 V c).leavesExact 0 t = owns (c : Thread nD τ) (msI2 t) fullShare ((dat2 V c).after 0 t) from by
    unfold Dat.leavesExact; rw [liveIn2 t], afterIn2]
  by_cases h1 : t.val % 16 = 15
  · have h0 : ¬t.val % 16 = 0 := by omega
    obtain ⟨k, hk⟩ : ∃ k, k + 1 = t.val := ⟨t.val - 1, by omega⟩
    rw [show (dat2 V c).leavesExact 1 t = owns (c : Thread nD τ) (msO2 t) fullShare ((dat2 V c).after 1 t) from by
      unfold Dat.leavesExact; rw [liveOut2 t ((hcondL2 t).mpr h1)], afterOut2]
    rw [outsAt2_C V c t h0 h1 k hk]
    unfold outC2 soutC2; (try dsimp only)
    rw [PhiS2_castSucc V c t, PhiS2_pos V c _ _ k hk]
    iintro ⟨⟨⟨HS0, Hrest⟩, Hg⟩, Ho, ⟨%d0, H0⟩, ⟨%d1, H1⟩⟩
    iapply ((runC2 c (grid2.coords t) _ _ _ _ _ _ (fun h => h0 ((hcondZ2 t).mp h)) ((hcondL2 t).mpr h1) (iblk2 V c 0 t) _).2.2 Set.univ _)
    isplitl [H0]; · iexact H0
    isplitl [H1]; · iexists _; iexact H1
    isplitl [HS0]; · iexact HS0
    iintro ⟨H0, ⟨%e1, H1⟩, HS0⟩
    isplitl [HS0 Hg Hrest]
    · isplitl [HS0 Hrest]
      · isplitl [HS0]
        · unfold owns; iexists _; isplitr
          swap; · iexact HS0
          ipureintro; rfl
        iexact Hrest
      iexact Hg
    isplitl [Ho]; · iexact Ho
    isplitl [H0]; · iexact H0
    unfold owns; iexists _; isplitr
    swap; · iexact H1
    ipureintro; exact View.read_writes_of_cover _ _ _ _ _ (coverC2 c _ _ _ _ _ _ _ _ _ _ _)
  · rw [Dat.leavesExact_idle (dat2 V c) 1 t (idleOut2 t (fun h => h1 ((hcondL2 t).mp h))) (noFlushOut2 t (fun h => h1 ((hcondL2 t).mp h)))]
    by_cases h0 : t.val % 16 = 0
    · rw [outsAt2_A V c t h0 h1]
      unfold soutA2; (try dsimp only)
      iintro ⟨HΦ, Ho, ⟨%d0, H0⟩, ⟨%d1, H1⟩⟩
      ihave HΦ' := (PhiAny2 V c t) $$ HΦ
      icases HΦ' with ⟨⟨HS0, Hrest⟩, Hg⟩
      iapply ((runA2 c (grid2.coords t) _ _ _ _ _ _ ((hcondZ2 t).mpr h0) (fun h => h1 ((hcondL2 t).mp h)) (iblk2 V c 0 t)).2 _ Set.univ _)
      isplitl [H0]; · iexact H0
      isplitl [H1]; · iexact H1
      isplitl [HS0]; · iexact HS0
      iintro ⟨H0, H1, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (coverA2 c _ _ _ _ _ _ _ _ _ _)
          iexact Hrest
        iexact Hg
      isplitl [Ho]; · iexact Ho
      isplitl [H0]; · iexact H0
      iexists _; iexact H1
    · obtain ⟨k, hk⟩ : ∃ k, k + 1 = t.val := ⟨t.val - 1, by omega⟩
      rw [outsAt2_B V c t h0 h1 k hk]
      unfold soutB2; (try dsimp only)
      rw [PhiS2_castSucc V c t, PhiS2_pos V c _ _ k hk]
      iintro ⟨⟨⟨HS0, Hrest⟩, Hg⟩, Ho, ⟨%d0, H0⟩, ⟨%d1, H1⟩⟩
      iapply ((runB2 c (grid2.coords t) _ _ _ _ _ _ (fun h => h0 ((hcondZ2 t).mp h)) (fun h => h1 ((hcondL2 t).mp h)) (iblk2 V c 0 t) _).2 _ Set.univ _)
      isplitl [H0]; · iexact H0
      isplitl [H1]; · iexact H1
      isplitl [HS0]; · iexact HS0
      iintro ⟨H0, H1, HS0⟩
      isplitl [HS0 Hg Hrest]
      · isplitl [HS0 Hrest]
        · isplitl [HS0]
          · unfold owns; iexists _; isplitr
            swap; · iexact HS0
            ipureintro; rfl
          iexact Hrest
        iexact Hg
      isplitl [Ho]; · iexact Ho
      isplitl [H0]; · iexact H0
      iexists _; iexact H1

theorem body_obligation2 (c : Dev nD) : BodyObligation (dat2 (F := F) V c) (defs₀ (F := F)) Variants.none () Set.univ := fun t => by
  rw [bigSep_W2, bigSep_W2]
  exact sound_body2 V c t

/-- What the region's entry hands the kernel (the class invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have ht : NQ2 + 1 = (Fin.last cfg2.N).val := by rw [Fin.val_last]; exact (show cfg2.N = NP2 from N_2).symm
  rw [show (dat2 V c).Φ (Fin.last cfg2.N) = PhiS2 V c (Fin.last cfg2.N).val (Nat.le_of_lt_succ (Fin.last cfg2.N).isLt) from rfl, PhiS2_pos V c _ _ NQ2 ht, PhiAeq2]
  iintro ⟨⟨HS0, Hrest⟩, Hg⟩
  isplitl [HS0 Hrest]
  · isplitl [HS0]; · iexists _; iexact HS0
    iexact Hrest
  iexact Hg

end Cert.KernelIdeal.Fold

end
-- ==== Proof.KI.Regs.lean ====
/-
  The three pallas_calls as segments of @main, and the program's frame. Between two items of @main every unscoped buffer is
  held at a known valuation: the launch contents, then each host stretch applied, then — after a pallas_call — its output
  array replaced by what the call's write-backs leave. Each call's proof data is taken at the valuation it is entered
  from; its accumulator and the other scoped buffers never leave the call's invariant.
-/
import proofs.«112882_j45174466019398_1_alg».proof.Proof.KI.R0Oblig
import proofs.«112882_j45174466019398_1_alg».proof.Proof.KI.R1Oblig
import proofs.«112882_j45174466019398_1_alg».proof.Proof.KI.R2Oblig
import proofs.«112882_j45174466019398_1_alg».proof.Proof.Gen.KernelIdeal.Regions
import Idealize.ShloMosaic.Lib.Pipeline.RegionsLoop

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The valuations between items -/

/-- A valuation read at the TensorCore's references: what a call's proof data take. -/
abbrev atTc (W : Dev nD → Valuation τ sig (Elt F)) : (c : Dev nD) → (b : Ref sig .tc) → Buf (Elt F) ((c : Thread nD τ).loc b) :=
  fun c b => W c b

/-- After the first host stretch: the first call's entry. -/
abbrev W1 (c : Dev nD) : Valuation τ sig (Elt F) := V1 m c
/-- What the first call leaves in its output array. -/
def o2 (c : Dev nD) : Buf (Elt F) ((c : Thread nD τ).loc main_v4) := (dat0 (atTc (W1 m)) c).arrAt 1 cfg0.N
abbrev W2 (c : Dev nD) : Valuation τ sig (Elt F) := Function.update (W1 m c) main_v4 (o2 m c)
abbrev W3 (c : Dev nD) : Valuation τ sig (Elt F) := StableHlo.after hostOps1 (W2 m c)
/-- What the second call leaves in its output array. -/
def o4 (c : Dev nD) : Buf (Elt F) ((c : Thread nD τ).loc main_v6) := (dat1 (atTc (W3 m)) c).arrAt 1 cfg1.N
abbrev W4 (c : Dev nD) : Valuation τ sig (Elt F) := Function.update (W3 m c) main_v6 (o4 m c)
abbrev W5 (c : Dev nD) : Valuation τ sig (Elt F) := StableHlo.after hostOps2 (W4 m c)
/-- What the third call leaves in its output array. -/
def o6 (c : Dev nD) : Buf (Elt F) ((c : Thread nD τ).loc main_v8) := (dat2 (atTc (W5 m)) c).arrAt 1 cfg2.N
abbrev W6 (c : Dev nD) : Valuation τ sig (Elt F) := Function.update (W5 m c) main_v8 (o6 m c)
abbrev W7 (c : Dev nD) : Valuation τ sig (Elt F) := StableHlo.after hostOps3 (W6 m c)

/-- What the calls leave, as the table of unknowns the generated thread states are written over. -/
def outs : Outs (F := F) := fun J r c =>
  match J with
  | 2 => W2 m c r
  | 4 => W4 m c r
  | 6 => W6 m c r
  | _ => m ((c : Thread nD τ).loc r)

theorem outs_2 (c : Dev nD) : outs m 2 main_v4 c = o2 m c := by
  show Function.update (W1 m c) main_v4 (o2 m c) main_v4 = _
  exact Function.update_self ..
theorem outs_4 (c : Dev nD) : outs m 4 main_v6 c = o4 m c := by
  show Function.update (W3 m c) main_v6 (o4 m c) main_v6 = _
  exact Function.update_self ..
theorem outs_6 (c : Dev nD) : outs m 6 main_v8 c = o6 m c := by
  show Function.update (W5 m c) main_v8 (o6 m c) main_v8 = _
  exact Function.update_self ..

/-- The generated valuations at this table are the ones above. -/
theorem V2_eq (c : Dev nD) : V2 m (outs m) c = W2 m c := by
  show Function.update (V1 m c) main_v4 (outs m 2 main_v4 c) = _
  rw [outs_2]
theorem V3_eq (c : Dev nD) : V3 m (outs m) c = W3 m c := by
  show StableHlo.after hostOps1 (V2 m (outs m) c) = _
  rw [V2_eq]
theorem V4_eq (c : Dev nD) : V4 m (outs m) c = W4 m c := by
  show Function.update (V3 m (outs m) c) main_v6 (outs m 4 main_v6 c) = _
  rw [outs_4, V3_eq]
theorem V5_eq (c : Dev nD) : V5 m (outs m) c = W5 m c := by
  show StableHlo.after hostOps2 (V4 m (outs m) c) = _
  rw [V4_eq]
theorem V6_eq (c : Dev nD) : V6 m (outs m) c = W6 m c := by
  show Function.update (V5 m (outs m) c) main_v8 (outs m 6 main_v8 c) = _
  rw [outs_6, V5_eq]
theorem V7_eq (c : Dev nD) : V7 m (outs m) c = W7 m c := by
  show StableHlo.after hostOps3 (V6 m (outs m) c) = _
  rw [V6_eq]

/-! ## The proof data family and what rides beside the buffers -/

/-- Every call's proof data, each at its entry valuation: a literal match, so that the pinned configuration at a numeral
    reduces to the printed one. -/
def pdats : (p : Fin 3) → (c : Dev nD) → Dat τ (Elt F) Unit ℕ (UR sig nD τ) ℕ (Pipeline.pin (pcfgs (F := F)) adm p) c
  | ⟨0, _⟩ => fun c => dat0 (atTc (W1 m)) c
  | ⟨1, _⟩ => fun c => dat1 (atTc (W3 m)) c
  | ⟨2, _⟩ => fun c => dat2 (atTc (W5 m)) c

abbrev 𝒱₀ : Variants := Variants.none
/-- No core owes another anything. -/
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)

/-- At call 0's exit each of its arrays holds what the pipeline leaves, and every other buffer what it held at entry. -/
theorem hF0 (c : Dev nD) (w : Fin cfg0.W) : (pdats m 0 c).arrAt w cfg0.N = atTc (W2 m) c (Pipeline.arrRef spec0 w) :=
  match w with
  | ⟨0, _⟩ => ((pdats m 0 c).arrAt_in 0 rfl _).trans (by
      show W1 m c (Proc.devRef .tc main_v3) = Function.update (W1 m c) (Proc.devRef .tc main_v4) (o2 m c) (Proc.devRef .tc main_v3)
      exact (Function.update_of_ne (StableHlo.devRef_ne_of_ne (by decide) : (Proc.devRef .tc main_v3 : DevRef τ sig) ≠ Proc.devRef .tc main_v4) _ _).symm)
  | ⟨1, _⟩ => (Function.update_self (f := W1 m c) (Proc.devRef .tc main_v4 : DevRef τ sig) (o2 m c)).symm
theorem hrest0 (c : Dev nD) : ∀ b, b ∉ Finset.univ.image (Pipeline.arrRef spec0) → atTc (W2 m) c b = atTc (W1 m) c b :=
  fun b hb => Function.update_of_ne (StableHlo.devRef_ne_of_ne (fun e => hb (Finset.mem_image.mpr ⟨1, Finset.mem_univ _, e.symm⟩))) _ _

/-- At call 1's exit each of its arrays holds what the pipeline leaves, and every other buffer what it held at entry. -/
theorem hF1 (c : Dev nD) (w : Fin cfg1.W) : (pdats m 1 c).arrAt w cfg1.N = atTc (W4 m) c (Pipeline.arrRef spec1 w) :=
  match w with
  | ⟨0, _⟩ => ((pdats m 1 c).arrAt_in 0 rfl _).trans (by
      show W3 m c (Proc.devRef .tc main_v5) = Function.update (W3 m c) (Proc.devRef .tc main_v6) (o4 m c) (Proc.devRef .tc main_v5)
      exact (Function.update_of_ne (StableHlo.devRef_ne_of_ne (by decide) : (Proc.devRef .tc main_v5 : DevRef τ sig) ≠ Proc.devRef .tc main_v6) _ _).symm)
  | ⟨1, _⟩ => (Function.update_self (f := W3 m c) (Proc.devRef .tc main_v6 : DevRef τ sig) (o4 m c)).symm
theorem hrest1 (c : Dev nD) : ∀ b, b ∉ Finset.univ.image (Pipeline.arrRef spec1) → atTc (W4 m) c b = atTc (W3 m) c b :=
  fun b hb => Function.update_of_ne (StableHlo.devRef_ne_of_ne (fun e => hb (Finset.mem_image.mpr ⟨1, Finset.mem_univ _, e.symm⟩))) _ _

/-- At call 2's exit each of its arrays holds what the pipeline leaves, and every other buffer what it held at entry. -/
theorem hF2 (c : Dev nD) (w : Fin cfg2.W) : (pdats m 2 c).arrAt w cfg2.N = atTc (W6 m) c (Pipeline.arrRef spec2 w) :=
  match w with
  | ⟨0, _⟩ => ((pdats m 2 c).arrAt_in 0 rfl _).trans (by
      show W5 m c (Proc.devRef .tc main_v7) = Function.update (W5 m c) (Proc.devRef .tc main_v8) (o6 m c) (Proc.devRef .tc main_v7)
      exact (Function.update_of_ne (StableHlo.devRef_ne_of_ne (by decide) : (Proc.devRef .tc main_v7 : DevRef τ sig) ≠ Proc.devRef .tc main_v8) _ _).symm)
  | ⟨1, _⟩ => (Function.update_self (f := W5 m c) (Proc.devRef .tc main_v8 : DevRef τ sig) (o6 m c)).symm
theorem hrest2 (c : Dev nD) : ∀ b, b ∉ Finset.univ.image (Pipeline.arrRef spec2) → atTc (W6 m) c b = atTc (W5 m) c b :=
  fun b hb => Function.update_of_ne (StableHlo.devRef_ne_of_ne (fun e => hb (Finset.mem_image.mpr ⟨1, Finset.mem_univ _, e.symm⟩))) _ _

/-! ## The calls as segments -/

-- a library lemma stated over the pinned configuration unifies with the printed one only when unification may unfold
-- plain definitions in a metavariable's type
set_option backward.isDefEq.respectTransparency.types false in
/-- Pallas_call 0 as a segment: entered from every unscoped buffer at `W1`, left at `W2`. Its two arrays are split
    out of the unscoped buffers and put back with the output array at what the write-backs leave; the generator register
    goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit

    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (atTc (W1 m)) c)
    unfold Pipeline.ΦA
    iintro ⟨Hp, -, Hr⟩
    isplitl [Hr]; · iexact Hr
    iexact Hp
  hout c := by
    rw [Pipeline.ownSems0_none]
    refine (hout0 (atTc (W1 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    rw [V2_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 1 as a segment: entered from every unscoped buffer at `W3`, left at `W4`. Its two arrays are split
    out of the unscoped buffers and put back with the output array at what the write-backs leave; the generator register
    goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W3 m)) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W3 m) c) fun _ => rfl
    rw [Pipeline.unscopedBufs_held] at hsplit
    rw [V3_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (atTc (W3 m)) c)
    unfold Pipeline.ΦA
    iintro ⟨Hp, -, Hr⟩
    isplitl [Hr]; · iexact Hr
    iexact Hp
  hout c := by
    rw [Pipeline.ownSems0_none]
    refine (hout1 (atTc (W3 m)) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W3 m) c) (atTc (W4 m) c) ((pdats m 1 c).arrAt · cfg1.N) (hF1 m c) (hrest1 m c)
    rw [Pipeline.unscopedBufs_held] at hjoin
    rw [V4_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pallas_call 2 as a segment: entered from every unscoped buffer at `W5`, left at `W6`. Its two arrays are split
    out of the unscoped buffers and put back with the output array at what the write-backs leave; the generator register
    goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W5 m)) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (W5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W5 m) c) fun _ => rfl
    rw [Pipeline.unscopedBufs_held] at hsplit
    rw [V5_eq m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (atTc (W5 m)) c)
    unfold Pipeline.ΦA
    iintro ⟨Hp, -, Hr⟩
    isplitl [Hr]; · iexact Hr
    iexact Hp
  hout c := by
    rw [Pipeline.ownSems0_none]
    refine (hout2 (atTc (W5 m)) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W5 m) c) (atTc (W6 m) c) ((pdats m 2 c).arrAt · cfg2.N) (hF2 m c) (hrest2 m c)
    rw [Pipeline.unscopedBufs_held] at hjoin
    rw [V6_eq m c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

variable (ρ : Dev nD → PrngReg)

/-- What the launch makes beside the buffers on every core, and that the last item leaves the core owing nothing. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

-- the conditional frame's implicit arguments are found by unifying its conclusion with this one
set_option backward.isDefEq.respectTransparency.types false in
/-- THE FRAME, at any instance: from any memory with zero counters every weakly fair execution of @main terminates,
    nothing faulting, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_cond (m := m) emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c) (hE0 ρ)
    (fun c => by iintro ⟨-, HO⟩; iexact HO)
    (reg0 m) (fun c => .rfl) (fun c => .rfl)
    (reg1 m) (fun c => .rfl) (fun c => .rfl)
    (reg2 m) (fun c => .rfl) (fun c => .rfl)

end Cert.KernelIdeal.Fold

end
-- ==== Proof.KI.RunVal.lean ====
/-
  The idealized kernel's run with its result named: every weakly fair execution of @main terminates, the result array ends
  at the last valuation's contents at `main_v10`, and the argument array ends as launched.
-/
import proofs.«112882_j45174466019398_1_alg».proof.Proof.KI.Regs
import proofs.«112882_j45174466019398_1_alg».proof.Proof.KI.RunCond

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

-- the conditional run's implicit arguments are found by unifying its conclusion with this one
set_option backward.isDefEq.respectTransparency.types false in
theorem run : θ_run defs (onTc (τ := τ) (main (F := F))) ⟨m, fun _ => 0, ρ⟩ (fun r => ∀ c : Dev nD,
      r.2.mem ((c.tc : Thread nD τ).loc main_v10) = W7 m c main_v10
      ∧ r.2.mem ((c.tc : Thread nD τ).loc main_arg0) = m ((c.tc : Thread nD τ).loc main_arg0)) :=
  (θ_run defs _ _).mono (fun _ h c => ⟨(h c).1.trans (congrFun (V7_eq m c) _), (h c).2⟩)
  (run_cond (m := m) emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c) (hE0 ρ)
    (fun c => by iintro ⟨-, HO⟩; iexact HO)
    (reg0 m) (fun c => .rfl) (fun c => .rfl)
    (reg1 m) (fun c => .rfl) (fun c => .rfl)
    (reg2 m) (fun c => .rfl) (fun c => .rfl))

end Cert.KernelIdeal.Fold

end
-- ==== Proof.FoldSpec.lean ====
/-
  The mathematics of a "fold" (overlapping-window scatter-add) along one axis and along three.

  One axis: 128 entries p, read as sixteen windows of width 8 (window p / 8, offset p % 8), are added into 68 output
  positions, window w landing at stride 4: entry p lands at position 4 * (p / 8) + p % 8. Each output position receives
  one or two entries. fold1 is that sum. acc is the same sum built the way a sequential accumulator builds it: from zero,
  window after window, window w adding its 8 entries into positions [4w, 4w + 8); after sixteen windows it is fold1
  (acc_sixteen): over the extended reals addition is commutative and associative, so the order does not matter.
  Three axes: the one-axis fold applied along each axis in turn (fold3) is the sum over all triples that land on the
  output position (fold3_eq_sum), which is what one scatter-add over the three-axis index table computes.
-/
import Idealize.ShloMosaic.PureOps.Ideal

noncomputable section

open scoped BigOperators

namespace Cert.FoldSpec

/-- Where entry p of the merged (window, offset) axis lands. -/
def pos (p : ℕ) : ℕ := 4 * (p / 8) + p % 8

/-- The one-axis fold at output position a. -/
def fold1 (f : ℕ → EReal) (a : ℕ) : EReal := ∑ p ∈ Finset.range 128, if pos p = a then f p else 0

/-- The accumulator after w windows, at position a. -/
def acc (f : ℕ → EReal) : ℕ → ℕ → EReal
  | 0, _ => 0
  | w + 1, a => if 4 * w ≤ a ∧ a < 4 * w + 8 then acc f w a + f (8 * w + (a - 4 * w)) else acc f w a

/-- The three-axis fold: along the first merged axis innermost, then the second, then the third. -/
def fold3 (x : ℕ → ℕ → ℕ → EReal) (a b d : ℕ) : EReal :=
  fold1 (fun r => fold1 (fun q => fold1 (fun p => x p q r) a) b) d

theorem pos_lt {p : ℕ} (h : p < 128) : pos p < 68 := by
  unfold pos; omega

end Cert.FoldSpec

end
-- ==== Proof.FoldLaws.lean ====
/-
  Laws of the one-axis and three-axis fold.

  The extended reals are an additive commutative monoid: 0 + x = x and finite sums may be reordered. Nothing else is
  used (no cancellation, no distribution).

  acc_eq_partial: after w windows the accumulator at position a is the sum, over the first 8 * w entries, of those that
  land on a. Induction on w: the entries 8 * w + k (k < 8) of window w land on 4 * w + k, so exactly one of them lands
  on a when 4 * w ≤ a < 4 * w + 8 (the one with k = a - 4 * w), and none otherwise.
  acc_sixteen: sixteen windows are all 128 entries.
  fold3_eq_sum: "if c then (a sum) else 0" is the sum of "if c then (the term) else 0"; the three sums commute; the
  three nested conditions are one conjunction.
  fold1_congr: the fold reads only the entries below 128.
-/
import proofs.«112882_j45174466019398_1_alg».proof.Proof.FoldSpec
import Mathlib.Algebra.BigOperators.Group.Finset.Basic
import Mathlib.Algebra.BigOperators.Group.Finset.Sigma
import Mathlib.Data.EReal.Basic

noncomputable section

open scoped BigOperators

namespace Cert.FoldSpec

/-- Entry k of window w lands at 4 * w + k. -/
theorem pos_window (w k : ℕ) (hk : k < 8) : pos (8 * w + k) = 4 * w + k := by
  unfold pos; omega

/-- Of the 8 entries of window w, exactly the one with offset a - 4 * w lands on a, when a is in [4w, 4w + 8). -/
theorem window_sum (f : ℕ → EReal) (w a : ℕ) :
    (∑ k ∈ Finset.range 8, if pos (8 * w + k) = a then f (8 * w + k) else 0)
      = if 4 * w ≤ a ∧ a < 4 * w + 8 then f (8 * w + (a - 4 * w)) else 0 := by
  split_ifs with h
  · rw [Finset.sum_eq_single (a - 4 * w)]
    · rw [if_pos]
      rw [pos_window _ _ (by omega)]; omega
    · intro k hk hne
      rw [if_neg]
      rw [pos_window _ _ (Finset.mem_range.mp hk)]; omega
    · intro hn
      exfalso; apply hn; rw [Finset.mem_range]; omega
  · apply Finset.sum_eq_zero
    intro k hk
    have hk8 : k < 8 := Finset.mem_range.mp hk
    rw [if_neg]
    rw [pos_window _ _ hk8]; omega

theorem acc_eq_partial (f : ℕ → EReal) (w a : ℕ) (hw : w ≤ 16) :
    acc f w a = ∑ p ∈ Finset.range (8 * w), if pos p = a then f p else 0 := by
  induction w with
  | zero => simp [acc]
  | succ w ih =>
    have ih' := ih (by omega)
    rw [show 8 * (w + 1) = 8 * w + 8 by ring, Finset.sum_range_add, window_sum, ← ih', acc]
    split_ifs
    · rfl
    · rw [add_zero]

theorem acc_sixteen (f : ℕ → EReal) (a : ℕ) : acc f 16 a = fold1 f a := by
  rw [acc_eq_partial f 16 a le_rfl]; rfl

/-- A condition in front of a sum goes onto every term. -/
theorem ite_sum_zero {ι : Type} (s : Finset ι) (c : Prop) [Decidable c] (g : ι → EReal) :
    (if c then ∑ i ∈ s, g i else 0) = ∑ i ∈ s, if c then g i else 0 := by
  split_ifs
  · rfl
  · rw [Finset.sum_const_zero]

/-- Three finite sums in the opposite order. -/
theorem sum_comm3 (s : Finset ℕ) (F : ℕ → ℕ → ℕ → EReal) :
    ∑ r ∈ s, ∑ q ∈ s, ∑ p ∈ s, F p q r = ∑ p ∈ s, ∑ q ∈ s, ∑ r ∈ s, F p q r :=
  calc ∑ r ∈ s, ∑ q ∈ s, ∑ p ∈ s, F p q r
      = ∑ r ∈ s, ∑ p ∈ s, ∑ q ∈ s, F p q r := Finset.sum_congr rfl (fun _ _ => Finset.sum_comm)
    _ = ∑ p ∈ s, ∑ r ∈ s, ∑ q ∈ s, F p q r := Finset.sum_comm
    _ = ∑ p ∈ s, ∑ q ∈ s, ∑ r ∈ s, F p q r := Finset.sum_congr rfl (fun _ _ => Finset.sum_comm)

theorem fold3_eq_sum (x : ℕ → ℕ → ℕ → EReal) (a b d : ℕ) :
    fold3 x a b d = ∑ p ∈ Finset.range 128, ∑ q ∈ Finset.range 128, ∑ r ∈ Finset.range 128,
      if pos p = a ∧ pos q = b ∧ pos r = d then x p q r else 0 := by
  unfold fold3 fold1
  simp only [ite_sum_zero]
  rw [sum_comm3 (Finset.range 128)
    (fun p q r => if pos r = d then (if pos q = b then (if pos p = a then x p q r else 0) else 0) else 0)]
  refine Finset.sum_congr rfl (fun p _ => Finset.sum_congr rfl (fun q _ => Finset.sum_congr rfl (fun r _ => ?_)))
  by_cases hp : pos p = a <;> by_cases hq : pos q = b <;> by_cases hr : pos r = d <;> simp [hp, hq, hr]

theorem fold1_congr {f g : ℕ → EReal} (h : ∀ p, p < 128 → f p = g p) (a : ℕ) : fold1 f a = fold1 g a := by
  unfold fold1
  refine Finset.sum_congr rfl (fun p hp => ?_)
  rw [h p (Finset.mem_range.mp hp)]

end Cert.FoldSpec

end
-- ==== Proof.KI.R0Val.lean ====
/-
  Overlap-add along axis 1, one call: the VALUE of the call. Its output array, after the region, holds the one-axis
  fold of its input array: output (r, a, j2, j3) is the sum of the input entries (r, p, j2, j3) over the positions p of
  axis 1 that land on a, entry p = 8w + k of window w landing on 4w + k.

  The road. (1) Each control case of the body, read at an index of the accumulator: inside the window's slab
  [4w, 4w + 8) of axis 1 the entry becomes what it was plus the window's entry, outside it stays; at a first window
  "what it was" is the zero fill. (2) The input block at point t = 16 cb + w holds channels [CB0 cb, CB0 cb + CB0) and positions
  [8w, 8w + 8) of the input array. (3) So, by induction on the point, after point t the accumulator entry (j0, a, j2, j3)
  is the sequential accumulator's value after windows 0 … w for channel CB0 cb + j0. (4) At a last window (w = 15) the output
  block takes the accumulator whole: sixteen windows, which is the fold, since over the extended reals the order of the
  additions does not matter. (5) The write-backs of the last windows, one per channel block, cover the output array.
-/
import proofs.«112882_j45174466019398_1_alg».proof.Proof.KI.R0Body
import proofs.«112882_j45174466019398_1_alg».proof.Proof.FoldSpec
import proofs.«112882_j45174466019398_1_alg».proof.Proof.FoldLaws
import Idealize.ShloMosaic.Lib.WritesUnit
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

local notation "CB0" => (2 : ℕ)
local notation "NP0" => (128 : ℕ)

/-! ## The slab's offsets, and the zero fill -/

theorem hz0 : (![0, 0, 0, 0] : Fin 4 → ℕ) = fun _ => 0 := funext fun a => by fin_cases a <;> rfl

/-- The slab of window w = t mod 16 starts at position 4w of axis 1. -/
theorem off0_eq : ∀ t : Fin cfg0.N, k0_off1 (grid0.coords t) = ![0, 4 * (t.val % 16), 0, 0] :=
  (by decide +kernel : ∀ t : Fin grid0.N, k0_off1 (grid0.coords t) = ![0, 4 * (t.val % 16), 0, 0])

/-- The zero fill holds the extended real 0 everywhere. -/
theorem payZ0_apply (y : S2x68x128x128.Idx) : k0_pay1 (F := Ideal) y = 0 := by
  unfold k0_pay1
  simp only [shapeCast_self]
  exact Ideal.ofBits_zero_f32

/-- After the zero fill, stored whole, every entry reads 0, whatever was there before. -/
theorem read_zero0 (v : View sig .tc .vmem S2x68x128x128 .f32) (f : v.ty.Contents (Elt Ideal))
    (inb : ∀ a, (![0, 0, 0, 0] : Fin 4 → ℕ) a + S2x68x128x128.size a ≤ S2x68x128x128.size a) (y : S2x68x128x128.Idx) :
    v.read (Elt Ideal) (v.writes (Elt Ideal) f [(⟨Rect.unit ![0, 0, 0, 0] S2x68x128x128.size inb, k0_pay1 (F := Ideal)⟩ : View.Piece (Elt Ideal) S2x68x128x128 .f32)]) y = 0 :=
  (View.read_writes_cons_unit_of_mem v f inb _ [] y y hz0 (fun b => (Nat.zero_add _).symm)).trans (payZ0_apply y)

/-! ## The three control cases, read at an index

Each case leaves in the accumulator, at an index y: inside the window's slab — position (y 1) = o + k of axis 1, o the slab's
offset and k the position inside the window — what was there before plus the window's entry at k; outside it what was there
before. At a first window "what was there before" is the zero fill. -/

section Cases
variable (c : Dev nD) (i : grid0.Coords) (arg2 : Memref sig .tc .vmem S2x8x128x128 .f32) (harg2 : arg2.IsWhole) (arg3 : Memref sig .tc .vmem S2x68x128x128 .f32) (harg3 : arg3.IsWhole) (arg4 : Memref sig .tc .vmem S2x68x128x128 .f32) (harg4 : arg4.IsWhole)

/-- A first window, inside its slab: the zero fill plus the window's entry. -/
theorem soutA0_in (hc0 : condZ0 i) (hc1 : ¬condL0 i) (x0 : Vec Ideal S2x8x128x128 .f32)
    (o : ℕ) (hoff : k0_off1 i = ![0, o, 0, 0]) (y : S2x68x128x128.Idx) (k : Fin (S2x8x128x128.size 1)) (ha : (y 1).val = o + k.val) :
    soutA0 c i arg2 harg2 arg3 harg3 arg4 harg4 hc0 hc1 x0 y = 0 + x0 (ix4 (y 0) k (y 2) (y 3)) := by
  unfold soutA0 runA0
  dsimp only
  sl_unfold_words
  refine (View.read_writes_cons_unit_of_mem VA0 _ _ _ _ y (ix4 (y 0) k (y 2) (y 3)) hoff ?_).trans ?_
  · intro b; fin_cases b
    · show (y 0).val = 0 + (y 0).val; omega
    · exact ha
    · show (y 2).val = 0 + (y 2).val; omega
    · show (y 3).val = 0 + (y 3).val; omega
  · unfold k0_pay2
    simp only [View.readAt_eq_ld, harg2.read_unread, shapeCast_self]
    show View.read (Elt Ideal) arg4.view _ _ + x0 _ = _
    refine congrArg₂ (· + ·) (read_zero0 arg4.view _ _ _) (congrArg x0 ?_)
    funext b; apply Fin.ext
    show (![0, 0, 0, 0] : Fin 4 → ℕ) b + 1 * (ix4 (y 0) k (y 2) (y 3) b).val = (ix4 (y 0) k (y 2) (y 3) b).val
    rw [hz0]; show 0 + 1 * (ix4 (y 0) k (y 2) (y 3) b).val = (ix4 (y 0) k (y 2) (y 3) b).val; omega

/-- A first window, outside its slab: the zero fill. -/
theorem soutA0_out (hc0 : condZ0 i) (hc1 : ¬condL0 i) (x0 : Vec Ideal S2x8x128x128 .f32)
    (o : ℕ) (hoff : k0_off1 i = ![0, o, 0, 0]) (y : S2x68x128x128.Idx)
    (ha : (y 1).val < o ∨ o + S2x8x128x128.size 1 ≤ (y 1).val) :
    soutA0 c i arg2 harg2 arg3 harg3 arg4 harg4 hc0 hc1 x0 y = 0 := by
  unfold soutA0 runA0
  dsimp only
  sl_unfold_words
  refine (View.read_writes_cons_unit_of_not_mem VA0 _ _ _ _ y hoff 1 ha).trans ?_
  exact read_zero0 VA0 _ _ y

/-- A middle window, inside its slab: the old entry plus the window's. -/
theorem soutB0_in (hc0 : ¬condZ0 i) (hc1 : ¬condL0 i) (x0 : Vec Ideal S2x8x128x128 .f32) (xs0 : Vec Ideal S2x68x128x128 .f32)
    (o : ℕ) (hoff : k0_off1 i = ![0, o, 0, 0]) (y : S2x68x128x128.Idx) (k : Fin (S2x8x128x128.size 1)) (ha : (y 1).val = o + k.val) :
    soutB0 c i arg2 harg2 arg3 harg3 arg4 harg4 hc0 hc1 x0 xs0 y = xs0 y + x0 (ix4 (y 0) k (y 2) (y 3)) := by
  unfold soutB0 runB0
  dsimp only
  refine (View.read_writes_cons_unit_of_mem arg4.view _ _ _ [] y (ix4 (y 0) k (y 2) (y 3)) hoff ?_).trans ?_
  · intro b; fin_cases b
    · show (y 0).val = 0 + (y 0).val; omega
    · exact ha
    · show (y 2).val = 0 + (y 2).val; omega
    · show (y 3).val = 0 + (y 3).val; omega
  · unfold k0_pay2
    simp only [View.readAt_eq_ld, harg4.read_unread, harg2.read_unread, shapeCast_self]
    show xs0 _ + x0 _ = _
    refine congrArg₂ (· + ·) (congrArg xs0 ?_) (congrArg x0 ?_)
    · funext b; apply Fin.ext
      show k0_off1 i b + 1 * (ix4 (y 0) k (y 2) (y 3) b).val = (y b).val
      rw [hoff]
      fin_cases b
      · show 0 + 1 * (y 0).val = (y 0).val; omega
      · show o + 1 * k.val = (y 1).val; omega
      · show 0 + 1 * (y 2).val = (y 2).val; omega
      · show 0 + 1 * (y 3).val = (y 3).val; omega
    · funext b; apply Fin.ext
      show (![0, 0, 0, 0] : Fin 4 → ℕ) b + 1 * (ix4 (y 0) k (y 2) (y 3) b).val = (ix4 (y 0) k (y 2) (y 3) b).val
      rw [hz0]; show 0 + 1 * (ix4 (y 0) k (y 2) (y 3) b).val = (ix4 (y 0) k (y 2) (y 3) b).val; omega

/-- A middle window, outside its slab: the old entry. -/
theorem soutB0_out (hc0 : ¬condZ0 i) (hc1 : ¬condL0 i) (x0 : Vec Ideal S2x8x128x128 .f32) (xs0 : Vec Ideal S2x68x128x128 .f32)
    (o : ℕ) (hoff : k0_off1 i = ![0, o, 0, 0]) (y : S2x68x128x128.Idx)
    (ha : (y 1).val < o ∨ o + S2x8x128x128.size 1 ≤ (y 1).val) :
    soutB0 c i arg2 harg2 arg3 harg3 arg4 harg4 hc0 hc1 x0 xs0 y = xs0 y := by
  unfold soutB0 runB0
  dsimp only
  refine (View.read_writes_cons_unit_of_not_mem arg4.view _ _ _ [] y hoff 1 ha).trans ?_
  rw [View.writes_nil, harg4.read_unread]

/-- A last window leaves in the accumulator what a middle window would: inside its slab … -/
theorem soutC0_in (hc0 : ¬condZ0 i) (hc1 : condL0 i) (x0 : Vec Ideal S2x8x128x128 .f32) (xs0 : Vec Ideal S2x68x128x128 .f32)
    (o : ℕ) (hoff : k0_off1 i = ![0, o, 0, 0]) (y : S2x68x128x128.Idx) (k : Fin (S2x8x128x128.size 1)) (ha : (y 1).val = o + k.val) :
    soutC0 c i arg2 harg2 arg3 harg3 arg4 harg4 hc0 hc1 x0 xs0 y = xs0 y + x0 (ix4 (y 0) k (y 2) (y 3)) := by
  unfold soutC0 runC0
  dsimp only
  refine (View.read_writes_cons_unit_of_mem arg4.view _ _ _ [] y (ix4 (y 0) k (y 2) (y 3)) hoff ?_).trans ?_
  · intro b; fin_cases b
    · show (y 0).val = 0 + (y 0).val; omega
    · exact ha
    · show (y 2).val = 0 + (y 2).val; omega
    · show (y 3).val = 0 + (y 3).val; omega
  · unfold k0_pay2
    simp only [View.readAt_eq_ld, harg4.read_unread, harg2.read_unread, shapeCast_self]
    show xs0 _ + x0 _ = _
    refine congrArg₂ (· + ·) (congrArg xs0 ?_) (congrArg x0 ?_)
    · funext b; apply Fin.ext
      show k0_off1 i b + 1 * (ix4 (y 0) k (y 2) (y 3) b).val = (y b).val
      rw [hoff]
      fin_cases b
      · show 0 + 1 * (y 0).val = (y 0).val; omega
      · show o + 1 * k.val = (y 1).val; omega
      · show 0 + 1 * (y 2).val = (y 2).val; omega
      · show 0 + 1 * (y 3).val = (y 3).val; omega
    · funext b; apply Fin.ext
      show (![0, 0, 0, 0] : Fin 4 → ℕ) b + 1 * (ix4 (y 0) k (y 2) (y 3) b).val = (ix4 (y 0) k (y 2) (y 3) b).val
      rw [hz0]; show 0 + 1 * (ix4 (y 0) k (y 2) (y 3) b).val = (ix4 (y 0) k (y 2) (y 3) b).val; omega

/-- … and outside it. -/
theorem soutC0_out (hc0 : ¬condZ0 i) (hc1 : condL0 i) (x0 : Vec Ideal S2x8x128x128 .f32) (xs0 : Vec Ideal S2x68x128x128 .f32)
    (o : ℕ) (hoff : k0_off1 i = ![0, o, 0, 0]) (y : S2x68x128x128.Idx)
    (ha : (y 1).val < o ∨ o + S2x8x128x128.size 1 ≤ (y 1).val) :
    soutC0 c i arg2 harg2 arg3 harg3 arg4 harg4 hc0 hc1 x0 xs0 y = xs0 y := by
  unfold soutC0 runC0
  dsimp only
  refine (View.read_writes_cons_unit_of_not_mem arg4.view _ _ _ [] y hoff 1 ha).trans ?_
  rw [View.writes_nil, harg4.read_unread]

/-- At a last window the output block takes the accumulator whole, as the slab store left it. -/
theorem outC0_eq (hc0 : ¬condZ0 i) (hc1 : condL0 i) (x0 : Vec Ideal S2x8x128x128 .f32) (xs0 : Vec Ideal S2x68x128x128 .f32) :
    outC0 c i arg2 harg2 arg3 harg3 arg4 harg4 hc0 hc1 x0 xs0 = soutC0 c i arg2 harg2 arg3 harg3 arg4 harg4 hc0 hc1 x0 xs0 := by
  unfold outC0
  rw [View.read_writes_eq_canon _ _ _ (coverC0 c i arg2 harg2 arg3 harg3 arg4 harg4 hc0 hc1 x0 xs0)]
  unfold soutC0 runC0
  dsimp only
  sl_unfold_words
  rw [View.canon_unit_zero hz0]
  simp only [View.readAt_eq_ld, View.ld_unit_zero (S := S2x68x128x128) hz0]

end Cases

/-! ## The blocks' places in their arrays -/

/-- The input window's block index at point t: channel block t / 16, window t mod 16. -/
theorem idxIn0 : ∀ t : Fin cfg0.N, win0_0.index t 0 = t.val / 16 ∧ win0_0.index t 1 = t.val % 16 ∧ win0_0.index t 2 = 0 ∧ win0_0.index t 3 = 0 :=
  (by decide +kernel : ∀ t : Fin grid0.N, win0_0.index t 0 = t.val / 16 ∧ win0_0.index t 1 = t.val % 16 ∧ win0_0.index t 2 = 0 ∧ win0_0.index t 3 = 0)

/-- The output window's block index at point t: channel block t / 16. -/
theorem idxOut0 : ∀ t : Fin cfg0.N, win0_1.index t 0 = t.val / 16 ∧ win0_1.index t 1 = 0 ∧ win0_1.index t 2 = 0 ∧ win0_1.index t 3 = 0 :=
  (by decide +kernel : ∀ t : Fin grid0.N, win0_1.index t 0 = t.val / 16 ∧ win0_1.index t 1 = 0 ∧ win0_1.index t 2 = 0 ∧ win0_1.index t 3 = 0)

section Blocks
variable (V : (c : Dev nD) → (b : Ref sig .tc) → Buf (Elt Ideal) ((c : Thread nD τ).loc b)) (c : Dev nD)

/-- The input array, at its literal type. -/
abbrev xarr0 : Vec Ideal S16x128x128x128 .f32 := V c main_v3
/-- The input window's block at point t, at its literal type. -/
abbrev xblk0 (t : Fin cfg0.N) : Vec Ideal S2x8x128x128 .f32 := iblk0 V c 0 t

/-- The input block at point t holds channels [CB0 (t / 16), CB0 (t / 16) + CB0) and entries [8 (t mod 16), 8 (t mod 16) + 8) of axis 1. -/
theorem xblk0_apply (t : Fin cfg0.N)
    (j0 : Fin (S2x8x128x128.size 0)) (k : Fin (S2x8x128x128.size 1)) (j2 : Fin (S2x8x128x128.size 2)) (j3 : Fin (S2x8x128x128.size 3))
    (r : Fin (S16x128x128x128.size 0)) (p : Fin (S16x128x128x128.size 1)) (hr : r.val = CB0 * (t.val / 16) + j0.val) (hp : p.val = 8 * (t.val % 16) + k.val) :
    xblk0 V c t (ix4 j0 k j2 j3) = xarr0 V c (ix4 r p j2 j3) := by
  obtain ⟨h0, h1, h2, h3⟩ := idxIn0 t
  unfold xblk0 iblk0
  rw [View.read_apply]
  show V c main_v3 _ = V c main_v3 _
  congr 1
  funext b
  apply Fin.ext
  fin_cases b
  · show win0_0.index t 0 * CB0 + 1 * j0.val = r.val; rw [h0, hr]; omega
  · show win0_0.index t 1 * 8 + 1 * k.val = p.val; rw [h1, hp]; omega
  · show win0_0.index t 2 * (S2x8x128x128.size 2) + 1 * j2.val = j2.val; rw [h2]; omega
  · show win0_0.index t 3 * (S2x8x128x128.size 3) + 1 * j3.val = j3.val; rw [h3]; omega

end Blocks

/-! ## The accumulator after each point -/

/-- Channel r of the input along axis 1, at trailing coordinates (j2, j3), as a function of the position p on axis 1
    (zero outside the array). -/
def row0 (x : Vec Ideal S16x128x128x128 .f32) (r : ℕ) (j2 : Fin (S16x128x128x128.size 2)) (j3 : Fin (S16x128x128x128.size 3)) (p : ℕ) : EReal :=
  if h : r < S16x128x128x128.size 0 ∧ p < S16x128x128x128.size 1 then x (ix4 ⟨r, h.1⟩ ⟨p, h.2⟩ j2 j3) else 0

theorem acc_succ0 (f : ℕ → EReal) (w a : ℕ) :
    Cert.FoldSpec.acc f (w + 1) a = if 4 * w ≤ a ∧ a < 4 * w + 8 then Cert.FoldSpec.acc f w a + f (8 * w + (a - 4 * w)) else Cert.FoldSpec.acc f w a := rfl

section Inv
variable (V : (c : Dev nD) → (b : Ref sig .tc) → Buf (Elt Ideal) ((c : Thread nD τ).loc b)) (c : Dev nD)

/-- One window's step: contents S that add the window's block into slab [4w, 4w + 8) of contents holding the accumulated
    sum of the windows before w hold the accumulated sum of the windows up to w. -/
theorem step0 (t : Fin cfg0.N) (S prev : Vec Ideal S2x68x128x128 .f32)
    (hin : ∀ (y : S2x68x128x128.Idx) (k : Fin (S2x8x128x128.size 1)), (y 1).val = 4 * (t.val % 16) + k.val →
      S y = prev y + xblk0 V c t (ix4 (y 0) k (y 2) (y 3)))
    (hout : ∀ y : S2x68x128x128.Idx, (y 1).val < 4 * (t.val % 16) ∨ 4 * (t.val % 16) + 8 ≤ (y 1).val → S y = prev y)
    (hprev : ∀ y : S2x68x128x128.Idx, prev y = Cert.FoldSpec.acc (row0 (xarr0 V c) (CB0 * (t.val / 16) + (y 0).val) (y 2) (y 3)) (t.val % 16) (y 1).val)
    (y : S2x68x128x128.Idx) :
    S y = Cert.FoldSpec.acc (row0 (xarr0 V c) (CB0 * (t.val / 16) + (y 0).val) (y 2) (y 3)) (t.val % 16 + 1) (y 1).val := by
  have ht : t.val < NP0 := t.isLt
  have h0 : (y 0).val < CB0 := (y 0).isLt
  have h1 : (y 1).val < 68 := (y 1).isLt
  rw [acc_succ0]
  by_cases h : 4 * (t.val % 16) ≤ (y 1).val ∧ (y 1).val < 4 * (t.val % 16) + 8
  · rw [if_pos h, ← hprev y]
    have hR : CB0 * (t.val / 16) + (y 0).val < S16x128x128x128.size 0 := by show _ < 16; omega
    have hP : 8 * (t.val % 16) + ((y 1).val - 4 * (t.val % 16)) < S16x128x128x128.size 1 := by show _ < 128; omega
    rw [hin y ⟨(y 1).val - 4 * (t.val % 16), by show _ < 8; omega⟩ (by show _ = _ + ((y 1).val - _); omega),
      xblk0_apply V c t (y 0) ⟨(y 1).val - 4 * (t.val % 16), by show _ < 8; omega⟩ (y 2) (y 3) ⟨_, hR⟩ ⟨_, hP⟩ rfl rfl]
    unfold row0
    rw [dif_pos ⟨hR, hP⟩]
    rfl
  · rw [if_neg h, ← hprev y]
    exact hout y (by omega)

/-- After a first window. -/
theorem accA0 (t : Fin cfg0.N) (h0 : t.val % 16 = 0) (y : S2x68x128x128.Idx) :
    (outsAt0 V c t.val t.isLt).2 y
      = Cert.FoldSpec.acc (row0 (xarr0 V c) (CB0 * (t.val / 16) + (y 0).val) (y 2) (y 3)) (t.val % 16 + 1) (y 1).val := by
  have h1 : ¬t.val % 16 = 15 := by omega
  rw [outsAt0_A V c t h0 h1]
  exact step0 V c t
    (soutA0 c (grid0.coords t) (msI0 t) (hsI0 t) (msO0 t) (hsO0 t) accM0 haccM0 ((hcondZ0 t).mpr h0) (fun h => h1 ((hcondL0 t).mp h)) (xblk0 V c t))
    (fun _ => 0)
    (fun y k hk => soutA0_in c (grid0.coords t) (msI0 t) (hsI0 t) (msO0 t) (hsO0 t) accM0 haccM0 ((hcondZ0 t).mpr h0) (fun h => h1 ((hcondL0 t).mp h)) (xblk0 V c t) (4 * (t.val % 16)) (off0_eq t) y k hk)
    (fun y hy => soutA0_out c (grid0.coords t) (msI0 t) (hsI0 t) (msO0 t) (hsO0 t) accM0 haccM0 ((hcondZ0 t).mpr h0) (fun h => h1 ((hcondL0 t).mp h)) (xblk0 V c t) (4 * (t.val % 16)) (off0_eq t) y hy)
    (fun y => by rw [h0]; rfl) y

/-- After a middle window, given the point before. -/
theorem accB0 (t : Fin cfg0.N) (h0 : ¬t.val % 16 = 0) (h1 : ¬t.val % 16 = 15) (k : ℕ) (hk : k + 1 = t.val)
    (ih : ∀ y : S2x68x128x128.Idx, (outsAt0 V c k (by omega)).2 y
      = Cert.FoldSpec.acc (row0 (xarr0 V c) (CB0 * (k / 16) + (y 0).val) (y 2) (y 3)) (k % 16 + 1) (y 1).val)
    (y : S2x68x128x128.Idx) :
    (outsAt0 V c t.val t.isLt).2 y
      = Cert.FoldSpec.acc (row0 (xarr0 V c) (CB0 * (t.val / 16) + (y 0).val) (y 2) (y 3)) (t.val % 16 + 1) (y 1).val := by
  have e1 : k / 16 = t.val / 16 := by omega
  have e2 : k % 16 + 1 = t.val % 16 := by omega
  rw [outsAt0_B V c t h0 h1 k hk]
  exact step0 V c t
    (soutB0 c (grid0.coords t) (msI0 t) (hsI0 t) (msO0 t) (hsO0 t) accM0 haccM0 (fun h => h0 ((hcondZ0 t).mp h)) (fun h => h1 ((hcondL0 t).mp h)) (xblk0 V c t) (outsAt0 V c k (by omega)).2)
    (outsAt0 V c k (by omega)).2
    (fun y kk hkk => soutB0_in c (grid0.coords t) (msI0 t) (hsI0 t) (msO0 t) (hsO0 t) accM0 haccM0 (fun h => h0 ((hcondZ0 t).mp h)) (fun h => h1 ((hcondL0 t).mp h)) (xblk0 V c t) (outsAt0 V c k (by omega)).2 (4 * (t.val % 16)) (off0_eq t) y kk hkk)
    (fun y hy => soutB0_out c (grid0.coords t) (msI0 t) (hsI0 t) (msO0 t) (hsO0 t) accM0 haccM0 (fun h => h0 ((hcondZ0 t).mp h)) (fun h => h1 ((hcondL0 t).mp h)) (xblk0 V c t) (outsAt0 V c k (by omega)).2 (4 * (t.val % 16)) (off0_eq t) y hy)
    (fun y => by rw [ih y, e1, e2]) y

/-- After a last window, given the point before. -/
theorem accC0 (t : Fin cfg0.N) (h0 : ¬t.val % 16 = 0) (h1 : t.val % 16 = 15) (k : ℕ) (hk : k + 1 = t.val)
    (ih : ∀ y : S2x68x128x128.Idx, (outsAt0 V c k (by omega)).2 y
      = Cert.FoldSpec.acc (row0 (xarr0 V c) (CB0 * (k / 16) + (y 0).val) (y 2) (y 3)) (k % 16 + 1) (y 1).val)
    (y : S2x68x128x128.Idx) :
    (outsAt0 V c t.val t.isLt).2 y
      = Cert.FoldSpec.acc (row0 (xarr0 V c) (CB0 * (t.val / 16) + (y 0).val) (y 2) (y 3)) (t.val % 16 + 1) (y 1).val := by
  have e1 : k / 16 = t.val / 16 := by omega
  have e2 : k % 16 + 1 = t.val % 16 := by omega
  rw [outsAt0_C V c t h0 h1 k hk]
  dsimp only
  exact step0 V c t
    (soutC0 c (grid0.coords t) (msI0 t) (hsI0 t) (msO0 t) (hsO0 t) accM0 haccM0 (fun h => h0 ((hcondZ0 t).mp h)) ((hcondL0 t).mpr h1) (xblk0 V c t) (outsAt0 V c k (by omega)).2)
    (outsAt0 V c k (by omega)).2
    (fun y kk hkk => soutC0_in c (grid0.coords t) (msI0 t) (hsI0 t) (msO0 t) (hsO0 t) accM0 haccM0 (fun h => h0 ((hcondZ0 t).mp h)) ((hcondL0 t).mpr h1) (xblk0 V c t) (outsAt0 V c k (by omega)).2 (4 * (t.val % 16)) (off0_eq t) y kk hkk)
    (fun y hy => soutC0_out c (grid0.coords t) (msI0 t) (hsI0 t) (msO0 t) (hsO0 t) accM0 haccM0 (fun h => h0 ((hcondZ0 t).mp h)) ((hcondL0 t).mpr h1) (xblk0 V c t) (outsAt0 V c k (by omega)).2 (4 * (t.val % 16)) (off0_eq t) y hy)
    (fun y => by rw [ih y, e1, e2]) y

/-- After point n the accumulator holds, for channel block n / 16, the accumulated sum of windows 0 … n mod 16: by induction
    on the point. -/
theorem accAt0 : ∀ (n : ℕ) (hn : n < cfg0.N) (y : S2x68x128x128.Idx),
    (outsAt0 V c n hn).2 y
      = Cert.FoldSpec.acc (row0 (xarr0 V c) (CB0 * (n / 16) + (y 0).val) (y 2) (y 3)) (n % 16 + 1) (y 1).val
  | 0, hn, y => accA0 V c ⟨0, hn⟩ rfl y
  | n + 1, hn, y => by
    by_cases h0 : (n + 1) % 16 = 0
    · exact accA0 V c ⟨n + 1, hn⟩ h0 y
    · by_cases h1 : (n + 1) % 16 = 15
      · exact accC0 V c ⟨n + 1, hn⟩ h0 h1 n rfl (accAt0 n (Nat.lt_of_succ_lt hn)) y
      · exact accB0 V c ⟨n + 1, hn⟩ h0 h1 n rfl (accAt0 n (Nat.lt_of_succ_lt hn)) y

/-- At a last window the output block is the accumulator. -/
theorem outAt0 (t : Fin cfg0.N) (h1 : t.val % 16 = 15) : (outsAt0 V c t.val t.isLt).1 = (outsAt0 V c t.val t.isLt).2 := by
  have h0 : ¬t.val % 16 = 0 := by omega
  obtain ⟨k, hk⟩ : ∃ k, k + 1 = t.val := ⟨t.val - 1, by omega⟩
  rw [outsAt0_C V c t h0 h1 k hk]
  dsimp only
  exact outC0_eq c (grid0.coords t) (msI0 t) (hsI0 t) (msO0 t) (hsO0 t) accM0 haccM0 (fun h => h0 ((hcondZ0 t).mp h)) ((hcondL0 t).mpr h1) (xblk0 V c t) (outsAt0 V c k (by omega)).2

end Inv

/-! ## The output array -/

/-- The first call's output array as a function of its input array: the one-axis fold along axis 1. -/
def G0 (x : S16x128x128x128.Idx → EReal) : S16x68x128x128.Idx → EReal := fun y =>
  Cert.FoldSpec.fold1 (fun p => if h : p < 128 then x (ix4 (y 0) ⟨p, h⟩ (y 2) (y 3)) else 0) (y 1).val

section Out
variable (V : (c : Dev nD) → (b : Ref sig .tc) → Buf (Elt Ideal) ((c : Thread nD τ).loc b)) (c : Dev nD)

/-- What a last window writes back is its channel block of the fold of the input. -/
theorem flushed0_eq (t : Fin cfg0.N) (hf : (cfg0.win 1).flush t = true) :
    (dat0 (F := Ideal) V c).flushed 1 t = ((cfg0.win 1).blk t).view.read (Elt Ideal) (G0 (xarr0 V c) : Buf (Elt Ideal) ((c : Thread nD τ).loc main_v4)) := by
  have h1 : t.val % 16 = 15 := (flush0_1 t).mp hf
  have ht : t.val < NP0 := t.isLt
  obtain ⟨i0, i1, i2, i3⟩ := idxOut0 t
  funext j
  rw [View.read_apply]
  show (dat0 (F := Ideal) V c).after 1 t (win0_1.xinj (grid0.coords t) j) = G0 (xarr0 V c) _
  rw [afterOut0, outAt0 V c t h1]
  have e16 : t.val % 16 + 1 = 16 := by omega
  refine (accAt0 V c t.val t.isLt (win0_1.xinj (grid0.coords t) j)).trans ?_
  rw [e16, Cert.FoldSpec.acc_sixteen]
  unfold G0
  have hj0 : (j 0).val < CB0 := (j 0).isLt
  have e1 : ((((cfg0.win 1).blk t).view.emb j) 1).val = (j 1).val := by
    show win0_1.index t 1 * 68 + 1 * (j 1).val = (j 1).val; rw [i1]; omega
  show Cert.FoldSpec.fold1 _ (j 1).val = Cert.FoldSpec.fold1 _ ((((cfg0.win 1).blk t).view.emb j) 1).val
  rw [e1]
  refine Cert.FoldSpec.fold1_congr (fun p hp => ?_) _
  have hR : CB0 * (t.val / 16) + (j 0).val < S16x128x128x128.size 0 := by show _ < 16; omega
  unfold row0
  rw [dif_pos ⟨hR, hp⟩, dif_pos hp]
  refine congrArg (xarr0 V c) ?_
  funext b
  apply Fin.ext
  fin_cases b
  · show CB0 * (t.val / 16) + (j 0).val = win0_1.index t 0 * CB0 + 1 * (j 0).val; rw [i0]; omega
  · rfl
  · show (j 2).val = win0_1.index t 2 * (S2x68x128x128.size 2) + 1 * (j 2).val; rw [i2]; omega
  · show (j 3).val = win0_1.index t 3 * (S2x68x128x128.size 3) + 1 * (j 3).val; rw [i3]; omega

/-- The output window's blocks are whole: nothing is cut at the array's end. -/
theorem xsizeOut0 : ∀ (t : Fin cfg0.N) (a : Fin 4), win0_1.xsize (grid0.coords t) a = S2x68x128x128.size a :=
  (by decide +kernel : ∀ (t : Fin grid0.N) (a : Fin 4), win0_1.xsize (grid0.coords t) a = S2x68x128x128.size a)

/-- So the first call's output array ends holding the fold of its input array: the last windows' write-backs, one per
    channel block, cover it; row r is written at point 16 (r / CB0) + 15. -/
theorem arrOut0 (c : Dev nD) :
    (dat0 (F := Ideal) V c).arrAt 1 cfg0.N = (G0 (V c main_v3) : Buf (Elt Ideal) ((c : Thread nD τ).loc main_v4)) :=
  (dat0 (F := Ideal) V c).arrAt_eq_of_cover 1 (G0 (xarr0 V c)) (flushed0_eq V c) fun i => by
    have hi0 : (i 0).val < 16 := (i 0).isLt
    have hi1 : (i 1).val < 68 := (i 1).isLt
    have hT : 16 * ((i 0).val / CB0) + 15 < cfg0.N := by show _ < NP0; omega
    obtain ⟨i0, i1, i2, i3⟩ := idxOut0 ⟨16 * ((i 0).val / CB0) + 15, hT⟩
    refine ⟨⟨16 * ((i 0).val / CB0) + 15, hT⟩, (flush0_1 _).mpr (by show (16 * ((i 0).val / CB0) + 15) % 16 = 15; omega), ?_⟩
    show i ∈ ((View.whole main_v4).slice (win0_1.rect ⟨16 * ((i 0).val / CB0) + 15, hT⟩)).set
    rw [View.set_slice_whole, Rect.mem_set_unit]
    intro a
    rw [xsizeOut0]
    fin_cases a
    · show win0_1.index ⟨16 * ((i 0).val / CB0) + 15, hT⟩ 0 * CB0 ≤ (i 0).val ∧ (i 0).val < win0_1.index ⟨16 * ((i 0).val / CB0) + 15, hT⟩ 0 * CB0 + CB0
      rw [i0]; show (16 * ((i 0).val / CB0) + 15) / 16 * CB0 ≤ (i 0).val ∧ (i 0).val < (16 * ((i 0).val / CB0) + 15) / 16 * CB0 + CB0; omega
    · show win0_1.index ⟨16 * ((i 0).val / CB0) + 15, hT⟩ 1 * 68 ≤ (i 1).val ∧ (i 1).val < win0_1.index ⟨16 * ((i 0).val / CB0) + 15, hT⟩ 1 * 68 + 68
      rw [i1]; omega
    · show win0_1.index ⟨16 * ((i 0).val / CB0) + 15, hT⟩ 2 * (S2x68x128x128.size 2) ≤ (i 2).val ∧ (i 2).val < win0_1.index ⟨16 * ((i 0).val / CB0) + 15, hT⟩ 2 * (S2x68x128x128.size 2) + S2x68x128x128.size 2
      have h2 : (i 2).val < S2x68x128x128.size 2 := (i 2).isLt
      rw [i2]; omega
    · show win0_1.index ⟨16 * ((i 0).val / CB0) + 15, hT⟩ 3 * (S2x68x128x128.size 3) ≤ (i 3).val ∧ (i 3).val < win0_1.index ⟨16 * ((i 0).val / CB0) + 15, hT⟩ 3 * (S2x68x128x128.size 3) + S2x68x128x128.size 3
      have h3 : (i 3).val < S2x68x128x128.size 3 := (i 3).isLt
      rw [i3]; omega

end Out

end Cert.KernelIdeal.Fold

end
-- ==== Proof.KI.R1Val.lean ====
/-
  Overlap-add along axis 1, one call: the VALUE of the call. Its output array, after the region, holds the one-axis
  fold of its input array: output (r, a, j2, j3) is the sum of the input entries (r, p, j2, j3) over the positions p of
  axis 1 that land on a, entry p = 8w + k of window w landing on 4w + k.

  The road. (1) Each control case of the body, read at an index of the accumulator: inside the window's slab
  [4w, 4w + 8) of axis 1 the entry becomes what it was plus the window's entry, outside it stays; at a first window
  "what it was" is the zero fill. (2) The input block at point t = 16 cb + w holds channels [CB1 cb, CB1 cb + CB1) and positions
  [8w, 8w + 8) of the input array. (3) So, by induction on the point, after point t the accumulator entry (j0, a, j2, j3)
  is the sequential accumulator's value after windows 0 … w for channel CB1 cb + j0. (4) At a last window (w = 15) the output
  block takes the accumulator whole: sixteen windows, which is the fold, since over the extended reals the order of the
  additions does not matter. (5) The write-backs of the last windows, one per channel block, cover the output array.
-/
import proofs.«112882_j45174466019398_1_alg».proof.Proof.KI.R1Body
import proofs.«112882_j45174466019398_1_alg».proof.Proof.FoldSpec
import proofs.«112882_j45174466019398_1_alg».proof.Proof.FoldLaws
import Idealize.ShloMosaic.Lib.WritesUnit
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

local notation "CB1" => (4 : ℕ)
local notation "NP1" => (64 : ℕ)

/-! ## The slab's offsets, and the zero fill -/

theorem hz1 : (![0, 0, 0, 0] : Fin 4 → ℕ) = fun _ => 0 := funext fun a => by fin_cases a <;> rfl

/-- The slab of window w = t mod 16 starts at position 4w of axis 1. -/
theorem off1_eq : ∀ t : Fin cfg1.N, k1_off1 (grid1.coords t) = ![0, 4 * (t.val % 16), 0, 0] :=
  (by decide +kernel : ∀ t : Fin grid1.N, k1_off1 (grid1.coords t) = ![0, 4 * (t.val % 16), 0, 0])

/-- The zero fill holds the extended real 0 everywhere. -/
theorem payZ1_apply (y : S4x68x68x128.Idx) : k1_pay1 (F := Ideal) y = 0 := by
  unfold k1_pay1
  simp only [shapeCast_self]
  exact Ideal.ofBits_zero_f32

/-- After the zero fill, stored whole, every entry reads 0, whatever was there before. -/
theorem read_zero1 (v : View sig .tc .vmem S4x68x68x128 .f32) (f : v.ty.Contents (Elt Ideal))
    (inb : ∀ a, (![0, 0, 0, 0] : Fin 4 → ℕ) a + S4x68x68x128.size a ≤ S4x68x68x128.size a) (y : S4x68x68x128.Idx) :
    v.read (Elt Ideal) (v.writes (Elt Ideal) f [(⟨Rect.unit ![0, 0, 0, 0] S4x68x68x128.size inb, k1_pay1 (F := Ideal)⟩ : View.Piece (Elt Ideal) S4x68x68x128 .f32)]) y = 0 :=
  (View.read_writes_cons_unit_of_mem v f inb _ [] y y hz1 (fun b => (Nat.zero_add _).symm)).trans (payZ1_apply y)

/-! ## The three control cases, read at an index

Each case leaves in the accumulator, at an index y: inside the window's slab — position (y 1) = o + k of axis 1, o the slab's
offset and k the position inside the window — what was there before plus the window's entry at k; outside it what was there
before. At a first window "what was there before" is the zero fill. -/

section Cases
variable (c : Dev nD) (i : grid1.Coords) (arg2 : Memref sig .tc .vmem S4x8x68x128 .f32) (harg2 : arg2.IsWhole) (arg3 : Memref sig .tc .vmem S4x68x68x128 .f32) (harg3 : arg3.IsWhole) (arg4 : Memref sig .tc .vmem S4x68x68x128 .f32) (harg4 : arg4.IsWhole)

/-- A first window, inside its slab: the zero fill plus the window's entry. -/
theorem soutA1_in (hc0 : condZ1 i) (hc1 : ¬condL1 i) (x0 : Vec Ideal S4x8x68x128 .f32)
    (o : ℕ) (hoff : k1_off1 i = ![0, o, 0, 0]) (y : S4x68x68x128.Idx) (k : Fin (S4x8x68x128.size 1)) (ha : (y 1).val = o + k.val) :
    soutA1 c i arg2 harg2 arg3 harg3 arg4 harg4 hc0 hc1 x0 y = 0 + x0 (ix4 (y 0) k (y 2) (y 3)) := by
  unfold soutA1 runA1
  dsimp only
  sl_unfold_words
  refine (View.read_writes_cons_unit_of_mem VA1 _ _ _ _ y (ix4 (y 0) k (y 2) (y 3)) hoff ?_).trans ?_
  · intro b; fin_cases b
    · show (y 0).val = 0 + (y 0).val; omega
    · exact ha
    · show (y 2).val = 0 + (y 2).val; omega
    · show (y 3).val = 0 + (y 3).val; omega
  · unfold k1_pay2
    simp only [View.readAt_eq_ld, harg2.read_unread, shapeCast_self]
    show View.read (Elt Ideal) arg4.view _ _ + x0 _ = _
    refine congrArg₂ (· + ·) (read_zero1 arg4.view _ _ _) (congrArg x0 ?_)
    funext b; apply Fin.ext
    show (![0, 0, 0, 0] : Fin 4 → ℕ) b + 1 * (ix4 (y 0) k (y 2) (y 3) b).val = (ix4 (y 0) k (y 2) (y 3) b).val
    rw [hz1]; show 0 + 1 * (ix4 (y 0) k (y 2) (y 3) b).val = (ix4 (y 0) k (y 2) (y 3) b).val; omega

/-- A first window, outside its slab: the zero fill. -/
theorem soutA1_out (hc0 : condZ1 i) (hc1 : ¬condL1 i) (x0 : Vec Ideal S4x8x68x128 .f32)
    (o : ℕ) (hoff : k1_off1 i = ![0, o, 0, 0]) (y : S4x68x68x128.Idx)
    (ha : (y 1).val < o ∨ o + S4x8x68x128.size 1 ≤ (y 1).val) :
    soutA1 c i arg2 harg2 arg3 harg3 arg4 harg4 hc0 hc1 x0 y = 0 := by
  unfold soutA1 runA1
  dsimp only
  sl_unfold_words
  refine (View.read_writes_cons_unit_of_not_mem VA1 _ _ _ _ y hoff 1 ha).trans ?_
  exact read_zero1 VA1 _ _ y

/-- A middle window, inside its slab: the old entry plus the window's. -/
theorem soutB1_in (hc0 : ¬condZ1 i) (hc1 : ¬condL1 i) (x0 : Vec Ideal S4x8x68x128 .f32) (xs0 : Vec Ideal S4x68x68x128 .f32)
    (o : ℕ) (hoff : k1_off1 i = ![0, o, 0, 0]) (y : S4x68x68x128.Idx) (k : Fin (S4x8x68x128.size 1)) (ha : (y 1).val = o + k.val) :
    soutB1 c i arg2 harg2 arg3 harg3 arg4 harg4 hc0 hc1 x0 xs0 y = xs0 y + x0 (ix4 (y 0) k (y 2) (y 3)) := by
  unfold soutB1 runB1
  dsimp only
  refine (View.read_writes_cons_unit_of_mem arg4.view _ _ _ [] y (ix4 (y 0) k (y 2) (y 3)) hoff ?_).trans ?_
  · intro b; fin_cases b
    · show (y 0).val = 0 + (y 0).val; omega
    · exact ha
    · show (y 2).val = 0 + (y 2).val; omega
    · show (y 3).val = 0 + (y 3).val; omega
  · unfold k1_pay2
    simp only [View.readAt_eq_ld, harg4.read_unread, harg2.read_unread, shapeCast_self]
    show xs0 _ + x0 _ = _
    refine congrArg₂ (· + ·) (congrArg xs0 ?_) (congrArg x0 ?_)
    · funext b; apply Fin.ext
      show k1_off1 i b + 1 * (ix4 (y 0) k (y 2) (y 3) b).val = (y b).val
      rw [hoff]
      fin_cases b
      · show 0 + 1 * (y 0).val = (y 0).val; omega
      · show o + 1 * k.val = (y 1).val; omega
      · show 0 + 1 * (y 2).val = (y 2).val; omega
      · show 0 + 1 * (y 3).val = (y 3).val; omega
    · funext b; apply Fin.ext
      show (![0, 0, 0, 0] : Fin 4 → ℕ) b + 1 * (ix4 (y 0) k (y 2) (y 3) b).val = (ix4 (y 0) k (y 2) (y 3) b).val
      rw [hz1]; show 0 + 1 * (ix4 (y 0) k (y 2) (y 3) b).val = (ix4 (y 0) k (y 2) (y 3) b).val; omega

/-- A middle window, outside its slab: the old entry. -/
theorem soutB1_out (hc0 : ¬condZ1 i) (hc1 : ¬condL1 i) (x0 : Vec Ideal S4x8x68x128 .f32) (xs0 : Vec Ideal S4x68x68x128 .f32)
    (o : ℕ) (hoff : k1_off1 i = ![0, o, 0, 0]) (y : S4x68x68x128.Idx)
    (ha : (y 1).val < o ∨ o + S4x8x68x128.size 1 ≤ (y 1).val) :
    soutB1 c i arg2 harg2 arg3 harg3 arg4 harg4 hc0 hc1 x0 xs0 y = xs0 y := by
  unfold soutB1 runB1
  dsimp only
  refine (View.read_writes_cons_unit_of_not_mem arg4.view _ _ _ [] y hoff 1 ha).trans ?_
  rw [View.writes_nil, harg4.read_unread]

/-- A last window leaves in the accumulator what a middle window would: inside its slab … -/
theorem soutC1_in (hc0 : ¬condZ1 i) (hc1 : condL1 i) (x0 : Vec Ideal S4x8x68x128 .f32) (xs0 : Vec Ideal S4x68x68x128 .f32)
    (o : ℕ) (hoff : k1_off1 i = ![0, o, 0, 0]) (y : S4x68x68x128.Idx) (k : Fin (S4x8x68x128.size 1)) (ha : (y 1).val = o + k.val) :
    soutC1 c i arg2 harg2 arg3 harg3 arg4 harg4 hc0 hc1 x0 xs0 y = xs0 y + x0 (ix4 (y 0) k (y 2) (y 3)) := by
  unfold soutC1 runC1
  dsimp only
  refine (View.read_writes_cons_unit_of_mem arg4.view _ _ _ [] y (ix4 (y 0) k (y 2) (y 3)) hoff ?_).trans ?_
  · intro b; fin_cases b
    · show (y 0).val = 0 + (y 0).val; omega
    · exact ha
    · show (y 2).val = 0 + (y 2).val; omega
    · show (y 3).val = 0 + (y 3).val; omega
  · unfold k1_pay2
    simp only [View.readAt_eq_ld, harg4.read_unread, harg2.read_unread, shapeCast_self]
    show xs0 _ + x0 _ = _
    refine congrArg₂ (· + ·) (congrArg xs0 ?_) (congrArg x0 ?_)
    · funext b; apply Fin.ext
      show k1_off1 i b + 1 * (ix4 (y 0) k (y 2) (y 3) b).val = (y b).val
      rw [hoff]
      fin_cases b
      · show 0 + 1 * (y 0).val = (y 0).val; omega
      · show o + 1 * k.val = (y 1).val; omega
      · show 0 + 1 * (y 2).val = (y 2).val; omega
      · show 0 + 1 * (y 3).val = (y 3).val; omega
    · funext b; apply Fin.ext
      show (![0, 0, 0, 0] : Fin 4 → ℕ) b + 1 * (ix4 (y 0) k (y 2) (y 3) b).val = (ix4 (y 0) k (y 2) (y 3) b).val
      rw [hz1]; show 0 + 1 * (ix4 (y 0) k (y 2) (y 3) b).val = (ix4 (y 0) k (y 2) (y 3) b).val; omega

/-- … and outside it. -/
theorem soutC1_out (hc0 : ¬condZ1 i) (hc1 : condL1 i) (x0 : Vec Ideal S4x8x68x128 .f32) (xs0 : Vec Ideal S4x68x68x128 .f32)
    (o : ℕ) (hoff : k1_off1 i = ![0, o, 0, 0]) (y : S4x68x68x128.Idx)
    (ha : (y 1).val < o ∨ o + S4x8x68x128.size 1 ≤ (y 1).val) :
    soutC1 c i arg2 harg2 arg3 harg3 arg4 harg4 hc0 hc1 x0 xs0 y = xs0 y := by
  unfold soutC1 runC1
  dsimp only
  refine (View.read_writes_cons_unit_of_not_mem arg4.view _ _ _ [] y hoff 1 ha).trans ?_
  rw [View.writes_nil, harg4.read_unread]

/-- At a last window the output block takes the accumulator whole, as the slab store left it. -/
theorem outC1_eq (hc0 : ¬condZ1 i) (hc1 : condL1 i) (x0 : Vec Ideal S4x8x68x128 .f32) (xs0 : Vec Ideal S4x68x68x128 .f32) :
    outC1 c i arg2 harg2 arg3 harg3 arg4 harg4 hc0 hc1 x0 xs0 = soutC1 c i arg2 harg2 arg3 harg3 arg4 harg4 hc0 hc1 x0 xs0 := by
  unfold outC1
  rw [View.read_writes_eq_canon _ _ _ (coverC1 c i arg2 harg2 arg3 harg3 arg4 harg4 hc0 hc1 x0 xs0)]
  unfold soutC1 runC1
  dsimp only
  sl_unfold_words
  rw [View.canon_unit_zero hz1]
  simp only [View.readAt_eq_ld, View.ld_unit_zero (S := S4x68x68x128) hz1]

end Cases

/-! ## The blocks' places in their arrays -/

/-- The input window's block index at point t: channel block t / 16, window t mod 16. -/
theorem idxIn1 : ∀ t : Fin cfg1.N, win1_0.index t 0 = t.val / 16 ∧ win1_0.index t 1 = t.val % 16 ∧ win1_0.index t 2 = 0 ∧ win1_0.index t 3 = 0 :=
  (by decide +kernel : ∀ t : Fin grid1.N, win1_0.index t 0 = t.val / 16 ∧ win1_0.index t 1 = t.val % 16 ∧ win1_0.index t 2 = 0 ∧ win1_0.index t 3 = 0)

/-- The output window's block index at point t: channel block t / 16. -/
theorem idxOut1 : ∀ t : Fin cfg1.N, win1_1.index t 0 = t.val / 16 ∧ win1_1.index t 1 = 0 ∧ win1_1.index t 2 = 0 ∧ win1_1.index t 3 = 0 :=
  (by decide +kernel : ∀ t : Fin grid1.N, win1_1.index t 0 = t.val / 16 ∧ win1_1.index t 1 = 0 ∧ win1_1.index t 2 = 0 ∧ win1_1.index t 3 = 0)

section Blocks
variable (V : (c : Dev nD) → (b : Ref sig .tc) → Buf (Elt Ideal) ((c : Thread nD τ).loc b)) (c : Dev nD)

/-- The input array, at its literal type. -/
abbrev xarr1 : Vec Ideal S16x128x68x128 .f32 := V c main_v5
/-- The input window's block at point t, at its literal type. -/
abbrev xblk1 (t : Fin cfg1.N) : Vec Ideal S4x8x68x128 .f32 := iblk1 V c 0 t

/-- The input block at point t holds channels [CB1 (t / 16), CB1 (t / 16) + CB1) and entries [8 (t mod 16), 8 (t mod 16) + 8) of axis 1. -/
theorem xblk1_apply (t : Fin cfg1.N)
    (j0 : Fin (S4x8x68x128.size 0)) (k : Fin (S4x8x68x128.size 1)) (j2 : Fin (S4x8x68x128.size 2)) (j3 : Fin (S4x8x68x128.size 3))
    (r : Fin (S16x128x68x128.size 0)) (p : Fin (S16x128x68x128.size 1)) (hr : r.val = CB1 * (t.val / 16) + j0.val) (hp : p.val = 8 * (t.val % 16) + k.val) :
    xblk1 V c t (ix4 j0 k j2 j3) = xarr1 V c (ix4 r p j2 j3) := by
  obtain ⟨h0, h1, h2, h3⟩ := idxIn1 t
  unfold xblk1 iblk1
  rw [View.read_apply]
  show V c main_v5 _ = V c main_v5 _
  congr 1
  funext b
  apply Fin.ext
  fin_cases b
  · show win1_0.index t 0 * CB1 + 1 * j0.val = r.val; rw [h0, hr]; omega
  · show win1_0.index t 1 * 8 + 1 * k.val = p.val; rw [h1, hp]; omega
  · show win1_0.index t 2 * (S4x8x68x128.size 2) + 1 * j2.val = j2.val; rw [h2]; omega
  · show win1_0.index t 3 * (S4x8x68x128.size 3) + 1 * j3.val = j3.val; rw [h3]; omega

end Blocks

/-! ## The accumulator after each point -/

/-- Channel r of the input along axis 1, at trailing coordinates (j2, j3), as a function of the position p on axis 1
    (zero outside the array). -/
def row1 (x : Vec Ideal S16x128x68x128 .f32) (r : ℕ) (j2 : Fin (S16x128x68x128.size 2)) (j3 : Fin (S16x128x68x128.size 3)) (p : ℕ) : EReal :=
  if h : r < S16x128x68x128.size 0 ∧ p < S16x128x68x128.size 1 then x (ix4 ⟨r, h.1⟩ ⟨p, h.2⟩ j2 j3) else 0

theorem acc_succ1 (f : ℕ → EReal) (w a : ℕ) :
    Cert.FoldSpec.acc f (w + 1) a = if 4 * w ≤ a ∧ a < 4 * w + 8 then Cert.FoldSpec.acc f w a + f (8 * w + (a - 4 * w)) else Cert.FoldSpec.acc f w a := rfl

section Inv
variable (V : (c : Dev nD) → (b : Ref sig .tc) → Buf (Elt Ideal) ((c : Thread nD τ).loc b)) (c : Dev nD)

/-- One window's step: contents S that add the window's block into slab [4w, 4w + 8) of contents holding the accumulated
    sum of the windows before w hold the accumulated sum of the windows up to w. -/
theorem step1 (t : Fin cfg1.N) (S prev : Vec Ideal S4x68x68x128 .f32)
    (hin : ∀ (y : S4x68x68x128.Idx) (k : Fin (S4x8x68x128.size 1)), (y 1).val = 4 * (t.val % 16) + k.val →
      S y = prev y + xblk1 V c t (ix4 (y 0) k (y 2) (y 3)))
    (hout : ∀ y : S4x68x68x128.Idx, (y 1).val < 4 * (t.val % 16) ∨ 4 * (t.val % 16) + 8 ≤ (y 1).val → S y = prev y)
    (hprev : ∀ y : S4x68x68x128.Idx, prev y = Cert.FoldSpec.acc (row1 (xarr1 V c) (CB1 * (t.val / 16) + (y 0).val) (y 2) (y 3)) (t.val % 16) (y 1).val)
    (y : S4x68x68x128.Idx) :
    S y = Cert.FoldSpec.acc (row1 (xarr1 V c) (CB1 * (t.val / 16) + (y 0).val) (y 2) (y 3)) (t.val % 16 + 1) (y 1).val := by
  have ht : t.val < NP1 := t.isLt
  have h0 : (y 0).val < CB1 := (y 0).isLt
  have h1 : (y 1).val < 68 := (y 1).isLt
  rw [acc_succ1]
  by_cases h : 4 * (t.val % 16) ≤ (y 1).val ∧ (y 1).val < 4 * (t.val % 16) + 8
  · rw [if_pos h, ← hprev y]
    have hR : CB1 * (t.val / 16) + (y 0).val < S16x128x68x128.size 0 := by show _ < 16; omega
    have hP : 8 * (t.val % 16) + ((y 1).val - 4 * (t.val % 16)) < S16x128x68x128.size 1 := by show _ < 128; omega
    rw [hin y ⟨(y 1).val - 4 * (t.val % 16), by show _ < 8; omega⟩ (by show _ = _ + ((y 1).val - _); omega),
      xblk1_apply V c t (y 0) ⟨(y 1).val - 4 * (t.val % 16), by show _ < 8; omega⟩ (y 2) (y 3) ⟨_, hR⟩ ⟨_, hP⟩ rfl rfl]
    unfold row1
    rw [dif_pos ⟨hR, hP⟩]
    rfl
  · rw [if_neg h, ← hprev y]
    exact hout y (by omega)

/-- After a first window. -/
theorem accA1 (t : Fin cfg1.N) (h0 : t.val % 16 = 0) (y : S4x68x68x128.Idx) :
    (outsAt1 V c t.val t.isLt).2 y
      = Cert.FoldSpec.acc (row1 (xarr1 V c) (CB1 * (t.val / 16) + (y 0).val) (y 2) (y 3)) (t.val % 16 + 1) (y 1).val := by
  have h1 : ¬t.val % 16 = 15 := by omega
  rw [outsAt1_A V c t h0 h1]
  exact step1 V c t
    (soutA1 c (grid1.coords t) (msI1 t) (hsI1 t) (msO1 t) (hsO1 t) accM1 haccM1 ((hcondZ1 t).mpr h0) (fun h => h1 ((hcondL1 t).mp h)) (xblk1 V c t))
    (fun _ => 0)
    (fun y k hk => soutA1_in c (grid1.coords t) (msI1 t) (hsI1 t) (msO1 t) (hsO1 t) accM1 haccM1 ((hcondZ1 t).mpr h0) (fun h => h1 ((hcondL1 t).mp h)) (xblk1 V c t) (4 * (t.val % 16)) (off1_eq t) y k hk)
    (fun y hy => soutA1_out c (grid1.coords t) (msI1 t) (hsI1 t) (msO1 t) (hsO1 t) accM1 haccM1 ((hcondZ1 t).mpr h0) (fun h => h1 ((hcondL1 t).mp h)) (xblk1 V c t) (4 * (t.val % 16)) (off1_eq t) y hy)
    (fun y => by rw [h0]; rfl) y

/-- After a middle window, given the point before. -/
theorem accB1 (t : Fin cfg1.N) (h0 : ¬t.val % 16 = 0) (h1 : ¬t.val % 16 = 15) (k : ℕ) (hk : k + 1 = t.val)
    (ih : ∀ y : S4x68x68x128.Idx, (outsAt1 V c k (by omega)).2 y
      = Cert.FoldSpec.acc (row1 (xarr1 V c) (CB1 * (k / 16) + (y 0).val) (y 2) (y 3)) (k % 16 + 1) (y 1).val)
    (y : S4x68x68x128.Idx) :
    (outsAt1 V c t.val t.isLt).2 y
      = Cert.FoldSpec.acc (row1 (xarr1 V c) (CB1 * (t.val / 16) + (y 0).val) (y 2) (y 3)) (t.val % 16 + 1) (y 1).val := by
  have e1 : k / 16 = t.val / 16 := by omega
  have e2 : k % 16 + 1 = t.val % 16 := by omega
  rw [outsAt1_B V c t h0 h1 k hk]
  exact step1 V c t
    (soutB1 c (grid1.coords t) (msI1 t) (hsI1 t) (msO1 t) (hsO1 t) accM1 haccM1 (fun h => h0 ((hcondZ1 t).mp h)) (fun h => h1 ((hcondL1 t).mp h)) (xblk1 V c t) (outsAt1 V c k (by omega)).2)
    (outsAt1 V c k (by omega)).2
    (fun y kk hkk => soutB1_in c (grid1.coords t) (msI1 t) (hsI1 t) (msO1 t) (hsO1 t) accM1 haccM1 (fun h => h0 ((hcondZ1 t).mp h)) (fun h => h1 ((hcondL1 t).mp h)) (xblk1 V c t) (outsAt1 V c k (by omega)).2 (4 * (t.val % 16)) (off1_eq t) y kk hkk)
    (fun y hy => soutB1_out c (grid1.coords t) (msI1 t) (hsI1 t) (msO1 t) (hsO1 t) accM1 haccM1 (fun h => h0 ((hcondZ1 t).mp h)) (fun h => h1 ((hcondL1 t).mp h)) (xblk1 V c t) (outsAt1 V c k (by omega)).2 (4 * (t.val % 16)) (off1_eq t) y hy)
    (fun y => by rw [ih y, e1, e2]) y

/-- After a last window, given the point before. -/
theorem accC1 (t : Fin cfg1.N) (h0 : ¬t.val % 16 = 0) (h1 : t.val % 16 = 15) (k : ℕ) (hk : k + 1 = t.val)
    (ih : ∀ y : S4x68x68x128.Idx, (outsAt1 V c k (by omega)).2 y
      = Cert.FoldSpec.acc (row1 (xarr1 V c) (CB1 * (k / 16) + (y 0).val) (y 2) (y 3)) (k % 16 + 1) (y 1).val)
    (y : S4x68x68x128.Idx) :
    (outsAt1 V c t.val t.isLt).2 y
      = Cert.FoldSpec.acc (row1 (xarr1 V c) (CB1 * (t.val / 16) + (y 0).val) (y 2) (y 3)) (t.val % 16 + 1) (y 1).val := by
  have e1 : k / 16 = t.val / 16 := by omega
  have e2 : k % 16 + 1 = t.val % 16 := by omega
  rw [outsAt1_C V c t h0 h1 k hk]
  dsimp only
  exact step1 V c t
    (soutC1 c (grid1.coords t) (msI1 t) (hsI1 t) (msO1 t) (hsO1 t) accM1 haccM1 (fun h => h0 ((hcondZ1 t).mp h)) ((hcondL1 t).mpr h1) (xblk1 V c t) (outsAt1 V c k (by omega)).2)
    (outsAt1 V c k (by omega)).2
    (fun y kk hkk => soutC1_in c (grid1.coords t) (msI1 t) (hsI1 t) (msO1 t) (hsO1 t) accM1 haccM1 (fun h => h0 ((hcondZ1 t).mp h)) ((hcondL1 t).mpr h1) (xblk1 V c t) (outsAt1 V c k (by omega)).2 (4 * (t.val % 16)) (off1_eq t) y kk hkk)
    (fun y hy => soutC1_out c (grid1.coords t) (msI1 t) (hsI1 t) (msO1 t) (hsO1 t) accM1 haccM1 (fun h => h0 ((hcondZ1 t).mp h)) ((hcondL1 t).mpr h1) (xblk1 V c t) (outsAt1 V c k (by omega)).2 (4 * (t.val % 16)) (off1_eq t) y hy)
    (fun y => by rw [ih y, e1, e2]) y

/-- After point n the accumulator holds, for channel block n / 16, the accumulated sum of windows 0 … n mod 16: by induction
    on the point. -/
theorem accAt1 : ∀ (n : ℕ) (hn : n < cfg1.N) (y : S4x68x68x128.Idx),
    (outsAt1 V c n hn).2 y
      = Cert.FoldSpec.acc (row1 (xarr1 V c) (CB1 * (n / 16) + (y 0).val) (y 2) (y 3)) (n % 16 + 1) (y 1).val
  | 0, hn, y => accA1 V c ⟨0, hn⟩ rfl y
  | n + 1, hn, y => by
    by_cases h0 : (n + 1) % 16 = 0
    · exact accA1 V c ⟨n + 1, hn⟩ h0 y
    · by_cases h1 : (n + 1) % 16 = 15
      · exact accC1 V c ⟨n + 1, hn⟩ h0 h1 n rfl (accAt1 n (Nat.lt_of_succ_lt hn)) y
      · exact accB1 V c ⟨n + 1, hn⟩ h0 h1 n rfl (accAt1 n (Nat.lt_of_succ_lt hn)) y

/-- At a last window the output block is the accumulator. -/
theorem outAt1 (t : Fin cfg1.N) (h1 : t.val % 16 = 15) : (outsAt1 V c t.val t.isLt).1 = (outsAt1 V c t.val t.isLt).2 := by
  have h0 : ¬t.val % 16 = 0 := by omega
  obtain ⟨k, hk⟩ : ∃ k, k + 1 = t.val := ⟨t.val - 1, by omega⟩
  rw [outsAt1_C V c t h0 h1 k hk]
  dsimp only
  exact outC1_eq c (grid1.coords t) (msI1 t) (hsI1 t) (msO1 t) (hsO1 t) accM1 haccM1 (fun h => h0 ((hcondZ1 t).mp h)) ((hcondL1 t).mpr h1) (xblk1 V c t) (outsAt1 V c k (by omega)).2

end Inv

/-! ## The output array -/

/-- The first call's output array as a function of its input array: the one-axis fold along axis 1. -/
def G1 (x : S16x128x68x128.Idx → EReal) : S16x68x68x128.Idx → EReal := fun y =>
  Cert.FoldSpec.fold1 (fun p => if h : p < 128 then x (ix4 (y 0) ⟨p, h⟩ (y 2) (y 3)) else 0) (y 1).val

section Out
variable (V : (c : Dev nD) → (b : Ref sig .tc) → Buf (Elt Ideal) ((c : Thread nD τ).loc b)) (c : Dev nD)

/-- What a last window writes back is its channel block of the fold of the input. -/
theorem flushed1_eq (t : Fin cfg1.N) (hf : (cfg1.win 1).flush t = true) :
    (dat1 (F := Ideal) V c).flushed 1 t = ((cfg1.win 1).blk t).view.read (Elt Ideal) (G1 (xarr1 V c) : Buf (Elt Ideal) ((c : Thread nD τ).loc main_v6)) := by
  have h1 : t.val % 16 = 15 := (flush1_1 t).mp hf
  have ht : t.val < NP1 := t.isLt
  obtain ⟨i0, i1, i2, i3⟩ := idxOut1 t
  funext j
  rw [View.read_apply]
  show (dat1 (F := Ideal) V c).after 1 t (win1_1.xinj (grid1.coords t) j) = G1 (xarr1 V c) _
  rw [afterOut1, outAt1 V c t h1]
  have e16 : t.val % 16 + 1 = 16 := by omega
  refine (accAt1 V c t.val t.isLt (win1_1.xinj (grid1.coords t) j)).trans ?_
  rw [e16, Cert.FoldSpec.acc_sixteen]
  unfold G1
  have hj0 : (j 0).val < CB1 := (j 0).isLt
  have e1 : ((((cfg1.win 1).blk t).view.emb j) 1).val = (j 1).val := by
    show win1_1.index t 1 * 68 + 1 * (j 1).val = (j 1).val; rw [i1]; omega
  show Cert.FoldSpec.fold1 _ (j 1).val = Cert.FoldSpec.fold1 _ ((((cfg1.win 1).blk t).view.emb j) 1).val
  rw [e1]
  refine Cert.FoldSpec.fold1_congr (fun p hp => ?_) _
  have hR : CB1 * (t.val / 16) + (j 0).val < S16x128x68x128.size 0 := by show _ < 16; omega
  unfold row1
  rw [dif_pos ⟨hR, hp⟩, dif_pos hp]
  refine congrArg (xarr1 V c) ?_
  funext b
  apply Fin.ext
  fin_cases b
  · show CB1 * (t.val / 16) + (j 0).val = win1_1.index t 0 * CB1 + 1 * (j 0).val; rw [i0]; omega
  · rfl
  · show (j 2).val = win1_1.index t 2 * (S4x68x68x128.size 2) + 1 * (j 2).val; rw [i2]; omega
  · show (j 3).val = win1_1.index t 3 * (S4x68x68x128.size 3) + 1 * (j 3).val; rw [i3]; omega

/-- The output window's blocks are whole: nothing is cut at the array's end. -/
theorem xsizeOut1 : ∀ (t : Fin cfg1.N) (a : Fin 4), win1_1.xsize (grid1.coords t) a = S4x68x68x128.size a :=
  (by decide +kernel : ∀ (t : Fin grid1.N) (a : Fin 4), win1_1.xsize (grid1.coords t) a = S4x68x68x128.size a)

/-- So the first call's output array ends holding the fold of its input array: the last windows' write-backs, one per
    channel block, cover it; row r is written at point 16 (r / CB1) + 15. -/
theorem arrOut1 (c : Dev nD) :
    (dat1 (F := Ideal) V c).arrAt 1 cfg1.N = (G1 (V c main_v5) : Buf (Elt Ideal) ((c : Thread nD τ).loc main_v6)) :=
  (dat1 (F := Ideal) V c).arrAt_eq_of_cover 1 (G1 (xarr1 V c)) (flushed1_eq V c) fun i => by
    have hi0 : (i 0).val < 16 := (i 0).isLt
    have hi1 : (i 1).val < 68 := (i 1).isLt
    have hT : 16 * ((i 0).val / CB1) + 15 < cfg1.N := by show _ < NP1; omega
    obtain ⟨i0, i1, i2, i3⟩ := idxOut1 ⟨16 * ((i 0).val / CB1) + 15, hT⟩
    refine ⟨⟨16 * ((i 0).val / CB1) + 15, hT⟩, (flush1_1 _).mpr (by show (16 * ((i 0).val / CB1) + 15) % 16 = 15; omega), ?_⟩
    show i ∈ ((View.whole main_v6).slice (win1_1.rect ⟨16 * ((i 0).val / CB1) + 15, hT⟩)).set
    rw [View.set_slice_whole, Rect.mem_set_unit]
    intro a
    rw [xsizeOut1]
    fin_cases a
    · show win1_1.index ⟨16 * ((i 0).val / CB1) + 15, hT⟩ 0 * CB1 ≤ (i 0).val ∧ (i 0).val < win1_1.index ⟨16 * ((i 0).val / CB1) + 15, hT⟩ 0 * CB1 + CB1
      rw [i0]; show (16 * ((i 0).val / CB1) + 15) / 16 * CB1 ≤ (i 0).val ∧ (i 0).val < (16 * ((i 0).val / CB1) + 15) / 16 * CB1 + CB1; omega
    · show win1_1.index ⟨16 * ((i 0).val / CB1) + 15, hT⟩ 1 * 68 ≤ (i 1).val ∧ (i 1).val < win1_1.index ⟨16 * ((i 0).val / CB1) + 15, hT⟩ 1 * 68 + 68
      rw [i1]; omega
    · show win1_1.index ⟨16 * ((i 0).val / CB1) + 15, hT⟩ 2 * (S4x68x68x128.size 2) ≤ (i 2).val ∧ (i 2).val < win1_1.index ⟨16 * ((i 0).val / CB1) + 15, hT⟩ 2 * (S4x68x68x128.size 2) + S4x68x68x128.size 2
      have h2 : (i 2).val < S4x68x68x128.size 2 := (i 2).isLt
      rw [i2]; omega
    · show win1_1.index ⟨16 * ((i 0).val / CB1) + 15, hT⟩ 3 * (S4x68x68x128.size 3) ≤ (i 3).val ∧ (i 3).val < win1_1.index ⟨16 * ((i 0).val / CB1) + 15, hT⟩ 3 * (S4x68x68x128.size 3) + S4x68x68x128.size 3
      have h3 : (i 3).val < S4x68x68x128.size 3 := (i 3).isLt
      rw [i3]; omega

end Out

end Cert.KernelIdeal.Fold

end
-- ==== Proof.KI.R2Val.lean ====
/-
  Overlap-add along axis 1, one call: the VALUE of the call. Its output array, after the region, holds the one-axis
  fold of its input array: output (r, a, j2, j3) is the sum of the input entries (r, p, j2, j3) over the positions p of
  axis 1 that land on a, entry p = 8w + k of window w landing on 4w + k.

  The road. (1) Each control case of the body, read at an index of the accumulator: inside the window's slab
  [4w, 4w + 8) of axis 1 the entry becomes what it was plus the window's entry, outside it stays; at a first window
  "what it was" is the zero fill. (2) The input block at point t = 16 cb + w holds channels [CB2 cb, CB2 cb + CB2) and positions
  [8w, 8w + 8) of the input array. (3) So, by induction on the point, after point t the accumulator entry (j0, a, j2, j3)
  is the sequential accumulator's value after windows 0 … w for channel CB2 cb + j0. (4) At a last window (w = 15) the output
  block takes the accumulator whole: sixteen windows, which is the fold, since over the extended reals the order of the
  additions does not matter. (5) The write-backs of the last windows, one per channel block, cover the output array.
-/
import proofs.«112882_j45174466019398_1_alg».proof.Proof.KI.R2Body
import proofs.«112882_j45174466019398_1_alg».proof.Proof.FoldSpec
import proofs.«112882_j45174466019398_1_alg».proof.Proof.FoldLaws
import Idealize.ShloMosaic.Lib.WritesUnit
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

local notation "CB2" => (8 : ℕ)
local notation "NP2" => (32 : ℕ)

/-! ## The slab's offsets, and the zero fill -/

theorem hz2 : (![0, 0, 0, 0] : Fin 4 → ℕ) = fun _ => 0 := funext fun a => by fin_cases a <;> rfl

/-- The slab of window w = t mod 16 starts at position 4w of axis 1. -/
theorem off2_eq : ∀ t : Fin cfg2.N, k2_off1 (grid2.coords t) = ![0, 4 * (t.val % 16), 0, 0] :=
  (by decide +kernel : ∀ t : Fin grid2.N, k2_off1 (grid2.coords t) = ![0, 4 * (t.val % 16), 0, 0])

/-- The zero fill holds the extended real 0 everywhere. -/
theorem payZ2_apply (y : S8x68x68x68.Idx) : k2_pay1 (F := Ideal) y = 0 := by
  unfold k2_pay1
  simp only [shapeCast_self]
  exact Ideal.ofBits_zero_f32

/-- After the zero fill, stored whole, every entry reads 0, whatever was there before. -/
theorem read_zero2 (v : View sig .tc .vmem S8x68x68x68 .f32) (f : v.ty.Contents (Elt Ideal))
    (inb : ∀ a, (![0, 0, 0, 0] : Fin 4 → ℕ) a + S8x68x68x68.size a ≤ S8x68x68x68.size a) (y : S8x68x68x68.Idx) :
    v.read (Elt Ideal) (v.writes (Elt Ideal) f [(⟨Rect.unit ![0, 0, 0, 0] S8x68x68x68.size inb, k2_pay1 (F := Ideal)⟩ : View.Piece (Elt Ideal) S8x68x68x68 .f32)]) y = 0 :=
  (View.read_writes_cons_unit_of_mem v f inb _ [] y y hz2 (fun b => (Nat.zero_add _).symm)).trans (payZ2_apply y)

/-! ## The three control cases, read at an index

Each case leaves in the accumulator, at an index y: inside the window's slab — position (y 1) = o + k of axis 1, o the slab's
offset and k the position inside the window — what was there before plus the window's entry at k; outside it what was there
before. At a first window "what was there before" is the zero fill. -/

section Cases
variable (c : Dev nD) (i : grid2.Coords) (arg2 : Memref sig .tc .vmem S8x8x68x68 .f32) (harg2 : arg2.IsWhole) (arg3 : Memref sig .tc .vmem S8x68x68x68 .f32) (harg3 : arg3.IsWhole) (arg4 : Memref sig .tc .vmem S8x68x68x68 .f32) (harg4 : arg4.IsWhole)

/-- A first window, inside its slab: the zero fill plus the window's entry. -/
theorem soutA2_in (hc0 : condZ2 i) (hc1 : ¬condL2 i) (x0 : Vec Ideal S8x8x68x68 .f32)
    (o : ℕ) (hoff : k2_off1 i = ![0, o, 0, 0]) (y : S8x68x68x68.Idx) (k : Fin (S8x8x68x68.size 1)) (ha : (y 1).val = o + k.val) :
    soutA2 c i arg2 harg2 arg3 harg3 arg4 harg4 hc0 hc1 x0 y = 0 + x0 (ix4 (y 0) k (y 2) (y 3)) := by
  unfold soutA2 runA2
  dsimp only
  sl_unfold_words
  refine (View.read_writes_cons_unit_of_mem VA2 _ _ _ _ y (ix4 (y 0) k (y 2) (y 3)) hoff ?_).trans ?_
  · intro b; fin_cases b
    · show (y 0).val = 0 + (y 0).val; omega
    · exact ha
    · show (y 2).val = 0 + (y 2).val; omega
    · show (y 3).val = 0 + (y 3).val; omega
  · unfold k2_pay2
    simp only [View.readAt_eq_ld, harg2.read_unread, shapeCast_self]
    show View.read (Elt Ideal) arg4.view _ _ + x0 _ = _
    refine congrArg₂ (· + ·) (read_zero2 arg4.view _ _ _) (congrArg x0 ?_)
    funext b; apply Fin.ext
    show (![0, 0, 0, 0] : Fin 4 → ℕ) b + 1 * (ix4 (y 0) k (y 2) (y 3) b).val = (ix4 (y 0) k (y 2) (y 3) b).val
    rw [hz2]; show 0 + 1 * (ix4 (y 0) k (y 2) (y 3) b).val = (ix4 (y 0) k (y 2) (y 3) b).val; omega

/-- A first window, outside its slab: the zero fill. -/
theorem soutA2_out (hc0 : condZ2 i) (hc1 : ¬condL2 i) (x0 : Vec Ideal S8x8x68x68 .f32)
    (o : ℕ) (hoff : k2_off1 i = ![0, o, 0, 0]) (y : S8x68x68x68.Idx)
    (ha : (y 1).val < o ∨ o + S8x8x68x68.size 1 ≤ (y 1).val) :
    soutA2 c i arg2 harg2 arg3 harg3 arg4 harg4 hc0 hc1 x0 y = 0 := by
  unfold soutA2 runA2
  dsimp only
  sl_unfold_words
  refine (View.read_writes_cons_unit_of_not_mem VA2 _ _ _ _ y hoff 1 ha).trans ?_
  exact read_zero2 VA2 _ _ y

/-- A middle window, inside its slab: the old entry plus the window's. -/
theorem soutB2_in (hc0 : ¬condZ2 i) (hc1 : ¬condL2 i) (x0 : Vec Ideal S8x8x68x68 .f32) (xs0 : Vec Ideal S8x68x68x68 .f32)
    (o : ℕ) (hoff : k2_off1 i = ![0, o, 0, 0]) (y : S8x68x68x68.Idx) (k : Fin (S8x8x68x68.size 1)) (ha : (y 1).val = o + k.val) :
    soutB2 c i arg2 harg2 arg3 harg3 arg4 harg4 hc0 hc1 x0 xs0 y = xs0 y + x0 (ix4 (y 0) k (y 2) (y 3)) := by
  unfold soutB2 runB2
  dsimp only
  refine (View.read_writes_cons_unit_of_mem arg4.view _ _ _ [] y (ix4 (y 0) k (y 2) (y 3)) hoff ?_).trans ?_
  · intro b; fin_cases b
    · show (y 0).val = 0 + (y 0).val; omega
    · exact ha
    · show (y 2).val = 0 + (y 2).val; omega
    · show (y 3).val = 0 + (y 3).val; omega
  · unfold k2_pay2
    simp only [View.readAt_eq_ld, harg4.read_unread, harg2.read_unread, shapeCast_self]
    show xs0 _ + x0 _ = _
    refine congrArg₂ (· + ·) (congrArg xs0 ?_) (congrArg x0 ?_)
    · funext b; apply Fin.ext
      show k2_off1 i b + 1 * (ix4 (y 0) k (y 2) (y 3) b).val = (y b).val
      rw [hoff]
      fin_cases b
      · show 0 + 1 * (y 0).val = (y 0).val; omega
      · show o + 1 * k.val = (y 1).val; omega
      · show 0 + 1 * (y 2).val = (y 2).val; omega
      · show 0 + 1 * (y 3).val = (y 3).val; omega
    · funext b; apply Fin.ext
      show (![0, 0, 0, 0] : Fin 4 → ℕ) b + 1 * (ix4 (y 0) k (y 2) (y 3) b).val = (ix4 (y 0) k (y 2) (y 3) b).val
      rw [hz2]; show 0 + 1 * (ix4 (y 0) k (y 2) (y 3) b).val = (ix4 (y 0) k (y 2) (y 3) b).val; omega

/-- A middle window, outside its slab: the old entry. -/
theorem soutB2_out (hc0 : ¬condZ2 i) (hc1 : ¬condL2 i) (x0 : Vec Ideal S8x8x68x68 .f32) (xs0 : Vec Ideal S8x68x68x68 .f32)
    (o : ℕ) (hoff : k2_off1 i = ![0, o, 0, 0]) (y : S8x68x68x68.Idx)
    (ha : (y 1).val < o ∨ o + S8x8x68x68.size 1 ≤ (y 1).val) :
    soutB2 c i arg2 harg2 arg3 harg3 arg4 harg4 hc0 hc1 x0 xs0 y = xs0 y := by
  unfold soutB2 runB2
  dsimp only
  refine (View.read_writes_cons_unit_of_not_mem arg4.view _ _ _ [] y hoff 1 ha).trans ?_
  rw [View.writes_nil, harg4.read_unread]

/-- A last window leaves in the accumulator what a middle window would: inside its slab … -/
theorem soutC2_in (hc0 : ¬condZ2 i) (hc1 : condL2 i) (x0 : Vec Ideal S8x8x68x68 .f32) (xs0 : Vec Ideal S8x68x68x68 .f32)
    (o : ℕ) (hoff : k2_off1 i = ![0, o, 0, 0]) (y : S8x68x68x68.Idx) (k : Fin (S8x8x68x68.size 1)) (ha : (y 1).val = o + k.val) :
    soutC2 c i arg2 harg2 arg3 harg3 arg4 harg4 hc0 hc1 x0 xs0 y = xs0 y + x0 (ix4 (y 0) k (y 2) (y 3)) := by
  unfold soutC2 runC2
  dsimp only
  refine (View.read_writes_cons_unit_of_mem arg4.view _ _ _ [] y (ix4 (y 0) k (y 2) (y 3)) hoff ?_).trans ?_
  · intro b; fin_cases b
    · show (y 0).val = 0 + (y 0).val; omega
    · exact ha
    · show (y 2).val = 0 + (y 2).val; omega
    · show (y 3).val = 0 + (y 3).val; omega
  · unfold k2_pay2
    simp only [View.readAt_eq_ld, harg4.read_unread, harg2.read_unread, shapeCast_self]
    show xs0 _ + x0 _ = _
    refine congrArg₂ (· + ·) (congrArg xs0 ?_) (congrArg x0 ?_)
    · funext b; apply Fin.ext
      show k2_off1 i b + 1 * (ix4 (y 0) k (y 2) (y 3) b).val = (y b).val
      rw [hoff]
      fin_cases b
      · show 0 + 1 * (y 0).val = (y 0).val; omega
      · show o + 1 * k.val = (y 1).val; omega
      · show 0 + 1 * (y 2).val = (y 2).val; omega
      · show 0 + 1 * (y 3).val = (y 3).val; omega
    · funext b; apply Fin.ext
      show (![0, 0, 0, 0] : Fin 4 → ℕ) b + 1 * (ix4 (y 0) k (y 2) (y 3) b).val = (ix4 (y 0) k (y 2) (y 3) b).val
      rw [hz2]; show 0 + 1 * (ix4 (y 0) k (y 2) (y 3) b).val = (ix4 (y 0) k (y 2) (y 3) b).val; omega

/-- … and outside it. -/
theorem soutC2_out (hc0 : ¬condZ2 i) (hc1 : condL2 i) (x0 : Vec Ideal S8x8x68x68 .f32) (xs0 : Vec Ideal S8x68x68x68 .f32)
    (o : ℕ) (hoff : k2_off1 i = ![0, o, 0, 0]) (y : S8x68x68x68.Idx)
    (ha : (y 1).val < o ∨ o + S8x8x68x68.size 1 ≤ (y 1).val) :
    soutC2 c i arg2 harg2 arg3 harg3 arg4 harg4 hc0 hc1 x0 xs0 y = xs0 y := by
  unfold soutC2 runC2
  dsimp only
  refine (View.read_writes_cons_unit_of_not_mem arg4.view _ _ _ [] y hoff 1 ha).trans ?_
  rw [View.writes_nil, harg4.read_unread]

/-- At a last window the output block takes the accumulator whole, as the slab store left it. -/
theorem outC2_eq (hc0 : ¬condZ2 i) (hc1 : condL2 i) (x0 : Vec Ideal S8x8x68x68 .f32) (xs0 : Vec Ideal S8x68x68x68 .f32) :
    outC2 c i arg2 harg2 arg3 harg3 arg4 harg4 hc0 hc1 x0 xs0 = soutC2 c i arg2 harg2 arg3 harg3 arg4 harg4 hc0 hc1 x0 xs0 := by
  unfold outC2
  rw [View.read_writes_eq_canon _ _ _ (coverC2 c i arg2 harg2 arg3 harg3 arg4 harg4 hc0 hc1 x0 xs0)]
  unfold soutC2 runC2
  dsimp only
  sl_unfold_words
  rw [View.canon_unit_zero hz2]
  simp only [View.readAt_eq_ld, View.ld_unit_zero (S := S8x68x68x68) hz2]

end Cases

/-! ## The blocks' places in their arrays -/

/-- The input window's block index at point t: channel block t / 16, window t mod 16. -/
theorem idxIn2 : ∀ t : Fin cfg2.N, win2_0.index t 0 = t.val / 16 ∧ win2_0.index t 1 = t.val % 16 ∧ win2_0.index t 2 = 0 ∧ win2_0.index t 3 = 0 :=
  (by decide +kernel : ∀ t : Fin grid2.N, win2_0.index t 0 = t.val / 16 ∧ win2_0.index t 1 = t.val % 16 ∧ win2_0.index t 2 = 0 ∧ win2_0.index t 3 = 0)

/-- The output window's block index at point t: channel block t / 16. -/
theorem idxOut2 : ∀ t : Fin cfg2.N, win2_1.index t 0 = t.val / 16 ∧ win2_1.index t 1 = 0 ∧ win2_1.index t 2 = 0 ∧ win2_1.index t 3 = 0 :=
  (by decide +kernel : ∀ t : Fin grid2.N, win2_1.index t 0 = t.val / 16 ∧ win2_1.index t 1 = 0 ∧ win2_1.index t 2 = 0 ∧ win2_1.index t 3 = 0)

section Blocks
variable (V : (c : Dev nD) → (b : Ref sig .tc) → Buf (Elt Ideal) ((c : Thread nD τ).loc b)) (c : Dev nD)

/-- The input array, at its literal type. -/
abbrev xarr2 : Vec Ideal S16x128x68x68 .f32 := V c main_v7
/-- The input window's block at point t, at its literal type. -/
abbrev xblk2 (t : Fin cfg2.N) : Vec Ideal S8x8x68x68 .f32 := iblk2 V c 0 t

/-- The input block at point t holds channels [CB2 (t / 16), CB2 (t / 16) + CB2) and entries [8 (t mod 16), 8 (t mod 16) + 8) of axis 1. -/
theorem xblk2_apply (t : Fin cfg2.N)
    (j0 : Fin (S8x8x68x68.size 0)) (k : Fin (S8x8x68x68.size 1)) (j2 : Fin (S8x8x68x68.size 2)) (j3 : Fin (S8x8x68x68.size 3))
    (r : Fin (S16x128x68x68.size 0)) (p : Fin (S16x128x68x68.size 1)) (hr : r.val = CB2 * (t.val / 16) + j0.val) (hp : p.val = 8 * (t.val % 16) + k.val) :
    xblk2 V c t (ix4 j0 k j2 j3) = xarr2 V c (ix4 r p j2 j3) := by
  obtain ⟨h0, h1, h2, h3⟩ := idxIn2 t
  unfold xblk2 iblk2
  rw [View.read_apply]
  show V c main_v7 _ = V c main_v7 _
  congr 1
  funext b
  apply Fin.ext
  fin_cases b
  · show win2_0.index t 0 * CB2 + 1 * j0.val = r.val; rw [h0, hr]; omega
  · show win2_0.index t 1 * 8 + 1 * k.val = p.val; rw [h1, hp]; omega
  · show win2_0.index t 2 * (S8x8x68x68.size 2) + 1 * j2.val = j2.val; rw [h2]; omega
  · show win2_0.index t 3 * (S8x8x68x68.size 3) + 1 * j3.val = j3.val; rw [h3]; omega

end Blocks

/-! ## The accumulator after each point -/

/-- Channel r of the input along axis 1, at trailing coordinates (j2, j3), as a function of the position p on axis 1
    (zero outside the array). -/
def row2 (x : Vec Ideal S16x128x68x68 .f32) (r : ℕ) (j2 : Fin (S16x128x68x68.size 2)) (j3 : Fin (S16x128x68x68.size 3)) (p : ℕ) : EReal :=
  if h : r < S16x128x68x68.size 0 ∧ p < S16x128x68x68.size 1 then x (ix4 ⟨r, h.1⟩ ⟨p, h.2⟩ j2 j3) else 0

theorem acc_succ2 (f : ℕ → EReal) (w a : ℕ) :
    Cert.FoldSpec.acc f (w + 1) a = if 4 * w ≤ a ∧ a < 4 * w + 8 then Cert.FoldSpec.acc f w a + f (8 * w + (a - 4 * w)) else Cert.FoldSpec.acc f w a := rfl

section Inv
variable (V : (c : Dev nD) → (b : Ref sig .tc) → Buf (Elt Ideal) ((c : Thread nD τ).loc b)) (c : Dev nD)

/-- One window's step: contents S that add the window's block into slab [4w, 4w + 8) of contents holding the accumulated
    sum of the windows before w hold the accumulated sum of the windows up to w. -/
theorem step2 (t : Fin cfg2.N) (S prev : Vec Ideal S8x68x68x68 .f32)
    (hin : ∀ (y : S8x68x68x68.Idx) (k : Fin (S8x8x68x68.size 1)), (y 1).val = 4 * (t.val % 16) + k.val →
      S y = prev y + xblk2 V c t (ix4 (y 0) k (y 2) (y 3)))
    (hout : ∀ y : S8x68x68x68.Idx, (y 1).val < 4 * (t.val % 16) ∨ 4 * (t.val % 16) + 8 ≤ (y 1).val → S y = prev y)
    (hprev : ∀ y : S8x68x68x68.Idx, prev y = Cert.FoldSpec.acc (row2 (xarr2 V c) (CB2 * (t.val / 16) + (y 0).val) (y 2) (y 3)) (t.val % 16) (y 1).val)
    (y : S8x68x68x68.Idx) :
    S y = Cert.FoldSpec.acc (row2 (xarr2 V c) (CB2 * (t.val / 16) + (y 0).val) (y 2) (y 3)) (t.val % 16 + 1) (y 1).val := by
  have ht : t.val < NP2 := t.isLt
  have h0 : (y 0).val < CB2 := (y 0).isLt
  have h1 : (y 1).val < 68 := (y 1).isLt
  rw [acc_succ2]
  by_cases h : 4 * (t.val % 16) ≤ (y 1).val ∧ (y 1).val < 4 * (t.val % 16) + 8
  · rw [if_pos h, ← hprev y]
    have hR : CB2 * (t.val / 16) + (y 0).val < S16x128x68x68.size 0 := by show _ < 16; omega
    have hP : 8 * (t.val % 16) + ((y 1).val - 4 * (t.val % 16)) < S16x128x68x68.size 1 := by show _ < 128; omega
    rw [hin y ⟨(y 1).val - 4 * (t.val % 16), by show _ < 8; omega⟩ (by show _ = _ + ((y 1).val - _); omega),
      xblk2_apply V c t (y 0) ⟨(y 1).val - 4 * (t.val % 16), by show _ < 8; omega⟩ (y 2) (y 3) ⟨_, hR⟩ ⟨_, hP⟩ rfl rfl]
    unfold row2
    rw [dif_pos ⟨hR, hP⟩]
    rfl
  · rw [if_neg h, ← hprev y]
    exact hout y (by omega)

/-- After a first window. -/
theorem accA2 (t : Fin cfg2.N) (h0 : t.val % 16 = 0) (y : S8x68x68x68.Idx) :
    (outsAt2 V c t.val t.isLt).2 y
      = Cert.FoldSpec.acc (row2 (xarr2 V c) (CB2 * (t.val / 16) + (y 0).val) (y 2) (y 3)) (t.val % 16 + 1) (y 1).val := by
  have h1 : ¬t.val % 16 = 15 := by omega
  rw [outsAt2_A V c t h0 h1]
  exact step2 V c t
    (soutA2 c (grid2.coords t) (msI2 t) (hsI2 t) (msO2 t) (hsO2 t) accM2 haccM2 ((hcondZ2 t).mpr h0) (fun h => h1 ((hcondL2 t).mp h)) (xblk2 V c t))
    (fun _ => 0)
    (fun y k hk => soutA2_in c (grid2.coords t) (msI2 t) (hsI2 t) (msO2 t) (hsO2 t) accM2 haccM2 ((hcondZ2 t).mpr h0) (fun h => h1 ((hcondL2 t).mp h)) (xblk2 V c t) (4 * (t.val % 16)) (off2_eq t) y k hk)
    (fun y hy => soutA2_out c (grid2.coords t) (msI2 t) (hsI2 t) (msO2 t) (hsO2 t) accM2 haccM2 ((hcondZ2 t).mpr h0) (fun h => h1 ((hcondL2 t).mp h)) (xblk2 V c t) (4 * (t.val % 16)) (off2_eq t) y hy)
    (fun y => by rw [h0]; rfl) y

/-- After a middle window, given the point before. -/
theorem accB2 (t : Fin cfg2.N) (h0 : ¬t.val % 16 = 0) (h1 : ¬t.val % 16 = 15) (k : ℕ) (hk : k + 1 = t.val)
    (ih : ∀ y : S8x68x68x68.Idx, (outsAt2 V c k (by omega)).2 y
      = Cert.FoldSpec.acc (row2 (xarr2 V c) (CB2 * (k / 16) + (y 0).val) (y 2) (y 3)) (k % 16 + 1) (y 1).val)
    (y : S8x68x68x68.Idx) :
    (outsAt2 V c t.val t.isLt).2 y
      = Cert.FoldSpec.acc (row2 (xarr2 V c) (CB2 * (t.val / 16) + (y 0).val) (y 2) (y 3)) (t.val % 16 + 1) (y 1).val := by
  have e1 : k / 16 = t.val / 16 := by omega
  have e2 : k % 16 + 1 = t.val % 16 := by omega
  rw [outsAt2_B V c t h0 h1 k hk]
  exact step2 V c t
    (soutB2 c (grid2.coords t) (msI2 t) (hsI2 t) (msO2 t) (hsO2 t) accM2 haccM2 (fun h => h0 ((hcondZ2 t).mp h)) (fun h => h1 ((hcondL2 t).mp h)) (xblk2 V c t) (outsAt2 V c k (by omega)).2)
    (outsAt2 V c k (by omega)).2
    (fun y kk hkk => soutB2_in c (grid2.coords t) (msI2 t) (hsI2 t) (msO2 t) (hsO2 t) accM2 haccM2 (fun h => h0 ((hcondZ2 t).mp h)) (fun h => h1 ((hcondL2 t).mp h)) (xblk2 V c t) (outsAt2 V c k (by omega)).2 (4 * (t.val % 16)) (off2_eq t) y kk hkk)
    (fun y hy => soutB2_out c (grid2.coords t) (msI2 t) (hsI2 t) (msO2 t) (hsO2 t) accM2 haccM2 (fun h => h0 ((hcondZ2 t).mp h)) (fun h => h1 ((hcondL2 t).mp h)) (xblk2 V c t) (outsAt2 V c k (by omega)).2 (4 * (t.val % 16)) (off2_eq t) y hy)
    (fun y => by rw [ih y, e1, e2]) y

/-- After a last window, given the point before. -/
theorem accC2 (t : Fin cfg2.N) (h0 : ¬t.val % 16 = 0) (h1 : t.val % 16 = 15) (k : ℕ) (hk : k + 1 = t.val)
    (ih : ∀ y : S8x68x68x68.Idx, (outsAt2 V c k (by omega)).2 y
      = Cert.FoldSpec.acc (row2 (xarr2 V c) (CB2 * (k / 16) + (y 0).val) (y 2) (y 3)) (k % 16 + 1) (y 1).val)
    (y : S8x68x68x68.Idx) :
    (outsAt2 V c t.val t.isLt).2 y
      = Cert.FoldSpec.acc (row2 (xarr2 V c) (CB2 * (t.val / 16) + (y 0).val) (y 2) (y 3)) (t.val % 16 + 1) (y 1).val := by
  have e1 : k / 16 = t.val / 16 := by omega
  have e2 : k % 16 + 1 = t.val % 16 := by omega
  rw [outsAt2_C V c t h0 h1 k hk]
  dsimp only
  exact step2 V c t
    (soutC2 c (grid2.coords t) (msI2 t) (hsI2 t) (msO2 t) (hsO2 t) accM2 haccM2 (fun h => h0 ((hcondZ2 t).mp h)) ((hcondL2 t).mpr h1) (xblk2 V c t) (outsAt2 V c k (by omega)).2)
    (outsAt2 V c k (by omega)).2
    (fun y kk hkk => soutC2_in c (grid2.coords t) (msI2 t) (hsI2 t) (msO2 t) (hsO2 t) accM2 haccM2 (fun h => h0 ((hcondZ2 t).mp h)) ((hcondL2 t).mpr h1) (xblk2 V c t) (outsAt2 V c k (by omega)).2 (4 * (t.val % 16)) (off2_eq t) y kk hkk)
    (fun y hy => soutC2_out c (grid2.coords t) (msI2 t) (hsI2 t) (msO2 t) (hsO2 t) accM2 haccM2 (fun h => h0 ((hcondZ2 t).mp h)) ((hcondL2 t).mpr h1) (xblk2 V c t) (outsAt2 V c k (by omega)).2 (4 * (t.val % 16)) (off2_eq t) y hy)
    (fun y => by rw [ih y, e1, e2]) y

/-- After point n the accumulator holds, for channel block n / 16, the accumulated sum of windows 0 … n mod 16: by induction
    on the point. -/
theorem accAt2 : ∀ (n : ℕ) (hn : n < cfg2.N) (y : S8x68x68x68.Idx),
    (outsAt2 V c n hn).2 y
      = Cert.FoldSpec.acc (row2 (xarr2 V c) (CB2 * (n / 16) + (y 0).val) (y 2) (y 3)) (n % 16 + 1) (y 1).val
  | 0, hn, y => accA2 V c ⟨0, hn⟩ rfl y
  | n + 1, hn, y => by
    by_cases h0 : (n + 1) % 16 = 0
    · exact accA2 V c ⟨n + 1, hn⟩ h0 y
    · by_cases h1 : (n + 1) % 16 = 15
      · exact accC2 V c ⟨n + 1, hn⟩ h0 h1 n rfl (accAt2 n (Nat.lt_of_succ_lt hn)) y
      · exact accB2 V c ⟨n + 1, hn⟩ h0 h1 n rfl (accAt2 n (Nat.lt_of_succ_lt hn)) y

/-- At a last window the output block is the accumulator. -/
theorem outAt2 (t : Fin cfg2.N) (h1 : t.val % 16 = 15) : (outsAt2 V c t.val t.isLt).1 = (outsAt2 V c t.val t.isLt).2 := by
  have h0 : ¬t.val % 16 = 0 := by omega
  obtain ⟨k, hk⟩ : ∃ k, k + 1 = t.val := ⟨t.val - 1, by omega⟩
  rw [outsAt2_C V c t h0 h1 k hk]
  dsimp only
  exact outC2_eq c (grid2.coords t) (msI2 t) (hsI2 t) (msO2 t) (hsO2 t) accM2 haccM2 (fun h => h0 ((hcondZ2 t).mp h)) ((hcondL2 t).mpr h1) (xblk2 V c t) (outsAt2 V c k (by omega)).2

end Inv

/-! ## The output array -/

/-- The first call's output array as a function of its input array: the one-axis fold along axis 1. -/
def G2 (x : S16x128x68x68.Idx → EReal) : S16x68x68x68.Idx → EReal := fun y =>
  Cert.FoldSpec.fold1 (fun p => if h : p < 128 then x (ix4 (y 0) ⟨p, h⟩ (y 2) (y 3)) else 0) (y 1).val

section Out
variable (V : (c : Dev nD) → (b : Ref sig .tc) → Buf (Elt Ideal) ((c : Thread nD τ).loc b)) (c : Dev nD)

/-- What a last window writes back is its channel block of the fold of the input. -/
theorem flushed2_eq (t : Fin cfg2.N) (hf : (cfg2.win 1).flush t = true) :
    (dat2 (F := Ideal) V c).flushed 1 t = ((cfg2.win 1).blk t).view.read (Elt Ideal) (G2 (xarr2 V c) : Buf (Elt Ideal) ((c : Thread nD τ).loc main_v8)) := by
  have h1 : t.val % 16 = 15 := (flush2_1 t).mp hf
  have ht : t.val < NP2 := t.isLt
  obtain ⟨i0, i1, i2, i3⟩ := idxOut2 t
  funext j
  rw [View.read_apply]
  show (dat2 (F := Ideal) V c).after 1 t (win2_1.xinj (grid2.coords t) j) = G2 (xarr2 V c) _
  rw [afterOut2, outAt2 V c t h1]
  have e16 : t.val % 16 + 1 = 16 := by omega
  refine (accAt2 V c t.val t.isLt (win2_1.xinj (grid2.coords t) j)).trans ?_
  rw [e16, Cert.FoldSpec.acc_sixteen]
  unfold G2
  have hj0 : (j 0).val < CB2 := (j 0).isLt
  have e1 : ((((cfg2.win 1).blk t).view.emb j) 1).val = (j 1).val := by
    show win2_1.index t 1 * 68 + 1 * (j 1).val = (j 1).val; rw [i1]; omega
  show Cert.FoldSpec.fold1 _ (j 1).val = Cert.FoldSpec.fold1 _ ((((cfg2.win 1).blk t).view.emb j) 1).val
  rw [e1]
  refine Cert.FoldSpec.fold1_congr (fun p hp => ?_) _
  have hR : CB2 * (t.val / 16) + (j 0).val < S16x128x68x68.size 0 := by show _ < 16; omega
  unfold row2
  rw [dif_pos ⟨hR, hp⟩, dif_pos hp]
  refine congrArg (xarr2 V c) ?_
  funext b
  apply Fin.ext
  fin_cases b
  · show CB2 * (t.val / 16) + (j 0).val = win2_1.index t 0 * CB2 + 1 * (j 0).val; rw [i0]; omega
  · rfl
  · show (j 2).val = win2_1.index t 2 * (S8x68x68x68.size 2) + 1 * (j 2).val; rw [i2]; omega
  · show (j 3).val = win2_1.index t 3 * (S8x68x68x68.size 3) + 1 * (j 3).val; rw [i3]; omega

/-- The output window's blocks are whole: nothing is cut at the array's end. -/
theorem xsizeOut2 : ∀ (t : Fin cfg2.N) (a : Fin 4), win2_1.xsize (grid2.coords t) a = S8x68x68x68.size a :=
  (by decide +kernel : ∀ (t : Fin grid2.N) (a : Fin 4), win2_1.xsize (grid2.coords t) a = S8x68x68x68.size a)

/-- So the first call's output array ends holding the fold of its input array: the last windows' write-backs, one per
    channel block, cover it; row r is written at point 16 (r / CB2) + 15. -/
theorem arrOut2 (c : Dev nD) :
    (dat2 (F := Ideal) V c).arrAt 1 cfg2.N = (G2 (V c main_v7) : Buf (Elt Ideal) ((c : Thread nD τ).loc main_v8)) :=
  (dat2 (F := Ideal) V c).arrAt_eq_of_cover 1 (G2 (xarr2 V c)) (flushed2_eq V c) fun i => by
    have hi0 : (i 0).val < 16 := (i 0).isLt
    have hi1 : (i 1).val < 68 := (i 1).isLt
    have hT : 16 * ((i 0).val / CB2) + 15 < cfg2.N := by show _ < NP2; omega
    obtain ⟨i0, i1, i2, i3⟩ := idxOut2 ⟨16 * ((i 0).val / CB2) + 15, hT⟩
    refine ⟨⟨16 * ((i 0).val / CB2) + 15, hT⟩, (flush2_1 _).mpr (by show (16 * ((i 0).val / CB2) + 15) % 16 = 15; omega), ?_⟩
    show i ∈ ((View.whole main_v8).slice (win2_1.rect ⟨16 * ((i 0).val / CB2) + 15, hT⟩)).set
    rw [View.set_slice_whole, Rect.mem_set_unit]
    intro a
    rw [xsizeOut2]
    fin_cases a
    · show win2_1.index ⟨16 * ((i 0).val / CB2) + 15, hT⟩ 0 * CB2 ≤ (i 0).val ∧ (i 0).val < win2_1.index ⟨16 * ((i 0).val / CB2) + 15, hT⟩ 0 * CB2 + CB2
      rw [i0]; show (16 * ((i 0).val / CB2) + 15) / 16 * CB2 ≤ (i 0).val ∧ (i 0).val < (16 * ((i 0).val / CB2) + 15) / 16 * CB2 + CB2; omega
    · show win2_1.index ⟨16 * ((i 0).val / CB2) + 15, hT⟩ 1 * 68 ≤ (i 1).val ∧ (i 1).val < win2_1.index ⟨16 * ((i 0).val / CB2) + 15, hT⟩ 1 * 68 + 68
      rw [i1]; omega
    · show win2_1.index ⟨16 * ((i 0).val / CB2) + 15, hT⟩ 2 * (S8x68x68x68.size 2) ≤ (i 2).val ∧ (i 2).val < win2_1.index ⟨16 * ((i 0).val / CB2) + 15, hT⟩ 2 * (S8x68x68x68.size 2) + S8x68x68x68.size 2
      have h2 : (i 2).val < S8x68x68x68.size 2 := (i 2).isLt
      rw [i2]; omega
    · show win2_1.index ⟨16 * ((i 0).val / CB2) + 15, hT⟩ 3 * (S8x68x68x68.size 3) ≤ (i 3).val ∧ (i 3).val < win2_1.index ⟨16 * ((i 0).val / CB2) + 15, hT⟩ 3 * (S8x68x68x68.size 3) + S8x68x68x68.size 3
      have h3 : (i 3).val < S8x68x68x68.size 3 := (i 3).isLt
      rw [i3]; omega

end Out

end Cert.KernelIdeal.Fold

end
-- ==== Proof.KI.KVal.lean ====
/-
  The idealized kernel's result array read at an index.

  @main brings its argument to the merged layout (1, 16, 128, 128, 128) by a reshape, a transposition and a reshape — the
  same three operations the reference applies, kept here as one opaque array —, drops the unit batch axis, and then
  three times folds axis 1 of a rank-4 array by a pallas_call, a transposition before each of the last two calls bringing
  the next spatial axis to position 1; a last transposition rotates the three folded axes back into order and a reshape
  puts the batch axis back.

  Index by index, with v2 the merged-layout array:
    result[0, c, a, b, d] = t[c, a, b, d]              (the batch axis put back)
    t[c, a, b, d]         = v8[c, d, a, b]             (axes rotated, [0, 2, 3, 1])
    v8[c, d, a, b]        = fold over r of v7[c, r, a, b], at d   (third call)
    v7[c, r, a, b]        = v6[c, b, a, r]             (axes 1 and 3 swapped)
    v6[c, b, a, r]        = fold over q of v5[c, q, a, r], at b   (second call)
    v5[c, q, a, r]        = v4[c, a, q, r]             (axes 1 and 2 swapped)
    v4[c, a, q, r]        = fold over p of v3[c, p, q, r], at a   (first call)
    v3[c, p, q, r]        = v2[0, c, p, q, r]          (the batch axis dropped)
  so result[0, c, a, b, d] is the three-axis fold of (p, q, r) ↦ v2[0, c, p, q, r] at (a, b, d): the first axis folded
  innermost, the third outermost. Every layout operation is read at an index over variables; the valuations between
  @main's items are rewritten to these operations symbolically, one reference at a time.
-/
import proofs.«112882_j45174466019398_1_alg».proof.Proof.KI.Regs
import proofs.«112882_j45174466019398_1_alg».proof.Proof.KI.R0Val
import proofs.«112882_j45174466019398_1_alg».proof.Proof.KI.R1Val
import proofs.«112882_j45174466019398_1_alg».proof.Proof.KI.R2Val
import proofs.«112882_j45174466019398_1_alg».proof.Proof.FoldSpec
import proofs.«112882_j45174466019398_1_alg».proof.Proof.FoldLaws
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Fold

open Cert.KernelIdeal Cert.KernelIdeal.Gen Idealize.ShloMosaic.ValueIdx Idealize.ShloMosaic
open Idealize.ShloMosaic.TcCoe Idealize.SL.Sem

/-! ## The host layout operations read at an index -/

section Layout
variable {α : Type}

/-- Dropping the unit batch axis: the entry at (c, p, q, r) is the operand's at (0, c, p, q, r). -/
theorem dropBatch_apply (x : S1x16x128x128x128.Idx → α) (c : Fin 16) (p q r : Fin 128) :
    shapeCast S16x128x128x128 x shapeCasts_S1x16x128x128x128_S16x128x128x128 (ix4 c p q r) = x (ix5 (0 : Fin 1) c p q r) :=
  shapeCast_apply x _ _ _ (by
    rw [Shape.rowMajor_val_five, Shape.rowMajor_val_four]
    show (((0 * 16 + c.val) * 128 + p.val) * 128 + q.val) * 128 + r.val = ((c.val * 128 + p.val) * 128 + q.val) * 128 + r.val
    rw [Nat.zero_mul, Nat.zero_add])

/-- Adding the unit batch axis back: the entry at (u, c, a, b, d) is the operand's at (c, a, b, d). -/
theorem addBatch_apply (x : S16x68x68x68.Idx → α) (u : Fin 1) (c : Fin 16) (a b d : Fin 68) :
    shapeCast S1x16x68x68x68 x shapeCasts_S16x68x68x68_S1x16x68x68x68 (ix5 u c a b d) = x (ix4 c a b d) :=
  shapeCast_apply x _ _ _ (by
    have hu : u.val = 0 := by omega
    rw [Shape.rowMajor_val_five, Shape.rowMajor_val_four]
    show ((c.val * 68 + a.val) * 68 + b.val) * 68 + d.val = (((u.val * 16 + c.val) * 68 + a.val) * 68 + b.val) * 68 + d.val
    rw [hu, Nat.zero_mul, Nat.zero_add])

/-- The swap of axes 1 and 2 before the second call: the entry at (c, q, a, r) is the operand's at (c, a, q, r). -/
theorem swap12_apply (x : S16x68x128x128.Idx → α) (c : Fin 16) (q : Fin 128) (a : Fin 68) (r : Fin 128) :
    transpose S16x128x68x128 [0, 2, 1, 3] x transposes_S16x68x128x128_S16x128x68x128_0_2_1_3 (ix4 c q a r) = x (ix4 c a q r) :=
  transpose_apply _ x _ _ _ fun e => match e with | ⟨0, _⟩ => rfl | ⟨1, _⟩ => rfl | ⟨2, _⟩ => rfl | ⟨3, _⟩ => rfl

/-- The swap of axes 1 and 3 before the third call: the entry at (c, r, a, b) is the operand's at (c, b, a, r). -/
theorem swap13_apply (x : S16x68x68x128.Idx → α) (c : Fin 16) (r : Fin 128) (a b : Fin 68) :
    transpose S16x128x68x68 [0, 3, 2, 1] x transposes_S16x68x68x128_S16x128x68x68_0_3_2_1 (ix4 c r a b) = x (ix4 c b a r) :=
  transpose_apply _ x _ _ _ fun e => match e with | ⟨0, _⟩ => rfl | ⟨1, _⟩ => rfl | ⟨2, _⟩ => rfl | ⟨3, _⟩ => rfl

/-- The last rotation of the three spatial axes: the entry at (c, a, b, d) is the operand's at (c, d, a, b). -/
theorem rot_apply (x : S16x68x68x68.Idx → α) (c : Fin 16) (a b d : Fin 68) :
    transpose S16x68x68x68 [0, 2, 3, 1] x transposes_S16x68x68x68_S16x68x68x68_0_2_3_1 (ix4 c a b d) = x (ix4 c d a b) :=
  transpose_apply _ x _ _ _ fun e => match e with | ⟨0, _⟩ => rfl | ⟨1, _⟩ => rfl | ⟨2, _⟩ => rfl | ⟨3, _⟩ => rfl

end Layout

/-! ## The calls' output functions at coordinates -/

theorem G0_apply (x : S16x128x128x128.Idx → EReal) (c : Fin 16) (a : Fin 68) (q r : Fin 128) :
    G0 x (ix4 c a q r) = Cert.FoldSpec.fold1 (fun p => if h : p < 128 then x (ix4 c ⟨p, h⟩ q r) else 0) a.val := rfl
theorem G1_apply (x : S16x128x68x128.Idx → EReal) (c : Fin 16) (b a : Fin 68) (r : Fin 128) :
    G1 x (ix4 c b a r) = Cert.FoldSpec.fold1 (fun q => if h : q < 128 then x (ix4 c ⟨q, h⟩ a r) else 0) b.val := rfl
theorem G2_apply (x : S16x128x68x68.Idx → EReal) (c : Fin 16) (d a b : Fin 68) :
    G2 x (ix4 c d a b) = Cert.FoldSpec.fold1 (fun r => if h : r < 128 then x (ix4 c ⟨r, h⟩ a b) else 0) d.val := rfl

/-! ## The whole chain from the merged-layout input to the result, as one function of arrays -/

/-- Everything @main does after the input has been brought to the merged layout: drop the batch axis, fold the first
    spatial axis, bring the second to the front and fold it, bring the third to the front and fold it, rotate the
    three folded axes back into order, put the batch axis back. -/
def chain (x : S1x16x128x128x128.Idx → EReal) : S1x16x68x68x68.Idx → EReal :=
  shapeCast S1x16x68x68x68
    (transpose S16x68x68x68 [0, 2, 3, 1]
      (G2 (transpose S16x128x68x68 [0, 3, 2, 1]
        (G1 (transpose S16x128x68x128 [0, 2, 1, 3]
          (G0 (shapeCast S16x128x128x128 x shapeCasts_S1x16x128x128x128_S16x128x128x128))
          transposes_S16x68x128x128_S16x128x68x128_0_2_1_3))
        transposes_S16x68x68x128_S16x128x68x68_0_3_2_1))
      transposes_S16x68x68x68_S16x68x68x68_0_2_3_1)
    shapeCasts_S16x68x68x68_S1x16x68x68x68

/-- The chain at coordinates: the three-axis fold of the merged-layout input. Outermost the third axis is folded
    (the last call), inside it the second, innermost the first; each transposition only renames coordinates. -/
theorem chain_apply (x : S1x16x128x128x128.Idx → EReal) (u : Fin 1) (c : Fin 16) (a b d : Fin 68) :
    chain x (ix5 u c a b d)
      = Cert.FoldSpec.fold3 (fun p q r => if h : p < 128 ∧ q < 128 ∧ r < 128 then
            x (ix5 u c ⟨p, h.1⟩ ⟨q, h.2.1⟩ ⟨r, h.2.2⟩) else 0) a.val b.val d.val := by
  unfold chain Cert.FoldSpec.fold3
  rw [addBatch_apply, rot_apply, G2_apply]
  refine Cert.FoldSpec.fold1_congr (fun r hr => ?_) _
  beta_reduce
  rw [dif_pos hr, swap13_apply, G1_apply]
  refine Cert.FoldSpec.fold1_congr (fun q hq => ?_) _
  beta_reduce
  rw [dif_pos hq, swap12_apply, G0_apply]
  refine Cert.FoldSpec.fold1_congr (fun p hp => ?_) _
  beta_reduce
  rw [dif_pos hp, dif_pos ⟨hp, hq, hr⟩, dropBatch_apply]
  have hu : u = (0 : Fin 1) := Subsingleton.elim _ _
  rw [hu]

/-! ## The valuations between @main's items, read at the references the chain passes through -/

section Valuations
variable (m : (ℓ : Loc nD τ sig) → Buf (Elt Ideal) ℓ) (c : Dev nD)

/-- The first call's entry valuation at the merged-layout array: the three layout operations applied to the argument. -/
theorem W1_main_v2 :
    (W1 (F := Ideal) m c main_v2 : S1x16x128x128x128.Idx → EReal)
      = shapeCast S1x16x128x128x128 (transpose S1x16x16x8x16x8x16x8 [0, 1, 5, 2, 6, 3, 7, 4] (shapeCast S1x16x8x8x8x16x16x16 (m ((c : Thread nD τ).loc main_arg0)) shapeCasts_S1x16x8x8x8x4096_S1x16x8x8x8x16x16x16) transposes_S1x16x8x8x8x16x16x16_S1x16x16x8x16x8x16x8_0_1_5_2_6_3_7_4) shapeCasts_S1x16x16x8x16x8x16x8_S1x16x128x128x128 := by
  show StableHlo.after hostOps0 (fun b => m (c, b)) (Proc.devRef .tc main_v2) = _
  after_results
  rfl

/-- … and at the first call's input array: the merged-layout array with the batch axis dropped. -/
theorem W1_main_v3 :
    (W1 (F := Ideal) m c main_v3 : S16x128x128x128.Idx → EReal)
      = shapeCast S16x128x128x128 (W1 (F := Ideal) m c main_v2 : S1x16x128x128x128.Idx → EReal) shapeCasts_S1x16x128x128x128_S16x128x128x128 := by
  rw [W1_main_v2]
  show StableHlo.after hostOps0 (fun b => m (c, b)) (Proc.devRef .tc main_v3) = _
  after_results
  rfl

/-- After the first call its output array holds the fold of its input array along axis 1. -/
theorem W2_main_v4 :
    (W2 (F := Ideal) m c main_v4 : S16x68x128x128.Idx → EReal) = G0 (W1 (F := Ideal) m c main_v3 : S16x128x128x128.Idx → EReal) := by
  show Function.update (W1 (F := Ideal) m c) (Proc.devRef .tc main_v4) (o2 m c) (Proc.devRef .tc main_v4) = _
  rw [Function.update_self]
  unfold o2
  exact arrOut0 (atTc (W1 (F := Ideal) m)) c

/-- The second call's input array: the first call's output with axes 1 and 2 swapped. -/
theorem W3_main_v5 :
    (W3 (F := Ideal) m c main_v5 : S16x128x68x128.Idx → EReal)
      = transpose S16x128x68x128 [0, 2, 1, 3] (W2 (F := Ideal) m c main_v4 : S16x68x128x128.Idx → EReal) transposes_S16x68x128x128_S16x128x68x128_0_2_1_3 := by
  show StableHlo.after hostOps1 (W2 (F := Ideal) m c) (Proc.devRef .tc main_v5) = _
  after_results

/-- After the second call its output array holds the fold of its input array along axis 1. -/
theorem W4_main_v6 :
    (W4 (F := Ideal) m c main_v6 : S16x68x68x128.Idx → EReal) = G1 (W3 (F := Ideal) m c main_v5 : S16x128x68x128.Idx → EReal) := by
  show Function.update (W3 (F := Ideal) m c) (Proc.devRef .tc main_v6) (o4 m c) (Proc.devRef .tc main_v6) = _
  rw [Function.update_self]
  unfold o4
  exact arrOut1 (atTc (W3 (F := Ideal) m)) c

/-- The third call's input array: the second call's output with axes 1 and 3 swapped. -/
theorem W5_main_v7 :
    (W5 (F := Ideal) m c main_v7 : S16x128x68x68.Idx → EReal)
      = transpose S16x128x68x68 [0, 3, 2, 1] (W4 (F := Ideal) m c main_v6 : S16x68x68x128.Idx → EReal) transposes_S16x68x68x128_S16x128x68x68_0_3_2_1 := by
  show StableHlo.after hostOps2 (W4 (F := Ideal) m c) (Proc.devRef .tc main_v7) = _
  after_results

/-- After the third call its output array holds the fold of its input array along axis 1. -/
theorem W6_main_v8 :
    (W6 (F := Ideal) m c main_v8 : S16x68x68x68.Idx → EReal) = G2 (W5 (F := Ideal) m c main_v7 : S16x128x68x68.Idx → EReal) := by
  show Function.update (W5 (F := Ideal) m c) (Proc.devRef .tc main_v8) (o6 m c) (Proc.devRef .tc main_v8) = _
  rw [Function.update_self]
  unfold o6
  exact arrOut2 (atTc (W5 (F := Ideal) m)) c

/-- The result: the third call's output with its axes rotated back into order and the batch axis put back. -/
theorem W7_main_v10 :
    (W7 (F := Ideal) m c main_v10 : S1x16x68x68x68.Idx → EReal)
      = shapeCast S1x16x68x68x68 (transpose S16x68x68x68 [0, 2, 3, 1] (W6 (F := Ideal) m c main_v8 : S16x68x68x68.Idx → EReal) transposes_S16x68x68x68_S16x68x68x68_0_2_3_1) shapeCasts_S16x68x68x68_S1x16x68x68x68 := by
  show StableHlo.after hostOps3 (W6 (F := Ideal) m c) (Proc.devRef .tc main_v10) = _
  after_results
  rfl

/-- The result array is the chain applied to the merged-layout array. -/
theorem W7_eq_chain :
    (W7 (F := Ideal) m c main_v10 : S1x16x68x68x68.Idx → EReal) = chain (W1 (F := Ideal) m c main_v2 : S1x16x128x128x128.Idx → EReal) := by
  rw [W7_main_v10, W6_main_v8, W5_main_v7, W4_main_v6, W3_main_v5, W2_main_v4, W1_main_v3]
  rfl

/-- THE KERNEL'S RESULT AT AN INDEX: the three-axis fold of the merged-layout input. -/
theorem kernel_apply (i : S1x16x68x68x68.Idx) :
    (W7 (F := Ideal) m c main_v10 : S1x16x68x68x68.Idx → EReal) i
      = Cert.FoldSpec.fold3 (fun p q r => if h : p < 128 ∧ q < 128 ∧ r < 128 then
            (W1 (F := Ideal) m c main_v2 : S1x16x128x128x128.Idx → EReal) (ix5 (i 0) (i 1) ⟨p, h.1⟩ ⟨q, h.2.1⟩ ⟨r, h.2.2⟩) else 0)
          (i 2).val (i 3).val (i 4).val := by
  rw [W7_eq_chain]
  exact (congrArg (chain _) (eq_ix5 i)).trans (chain_apply _ (i 0) (i 1) (i 2) (i 3) (i 4))

end Valuations

end Cert.KernelIdeal.Fold

end
-- ==== Proof.RefSide.lean ====
/-
  The reference side: jnp's scatter-add of the re-laid input into a zero array, read at an index.

  The index table at (p, q, r, k) is, for k = 0, 1, 2, the word 4 * (p / 8) + p % 8 of p, q, r respectively: an iota of
  sixteen windows times four plus an iota of eight offsets, merged 16 × 8 → 128; the select that would wrap a negative
  index never fires, the word being non-negative; then broadcasts and the join on the last axis. So update element
  (j0, j1, p, q, r) lands at (j0, j1, pos p, pos q, pos r), always inside the operand, and the sum of the updates landing
  on an output index i is the sum over the triples (p, q, r) with pos p = i 2, pos q = i 3, pos r = i 4 of the re-laid
  input at (i 0, i 1, p, q, r): the three-axis fold. The operand is zero.
-/
import proofs.«112882_j45174466019398_1_alg».proof.Defs
import proofs.«112882_j45174466019398_1_alg».proof.Proof.Gen.ReferenceIdeal.Run
import proofs.«112882_j45174466019398_1_alg».proof.Proof.Gen.ReferenceIdeal.Read
import proofs.«112882_j45174466019398_1_alg».proof.Proof.FoldSpec
import proofs.«112882_j45174466019398_1_alg».proof.Proof.FoldLaws
import Idealize.ShloMosaic.Lib.Pipeline.Value
import Idealize.ShloMosaic.Lib.ValueIdx
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.StableHlo.Predicate
open Cert.FoldSpec (pos pos_lt fold3 fold3_eq_sum)

/-! ## Words -/

/-- The word of an index vector: window times four plus offset; nothing wraps. -/
theorem word_pos (p : ℕ) :
    IntOp.addi (IntOp.muli (BitVec.ofNat 32 (p / 8)) 4#32) (BitVec.ofNat 32 (p % 8)) = BitVec.ofNat 32 (pos p) := by
  unfold IntOp.addi IntOp.muli pos
  rw [show (4#32 : BitVec 32) = BitVec.ofNat 32 4 from rfl, ← BitVec.ofNat_mul, ← BitVec.ofNat_add, Nat.mul_comm]

/-- The "negative index" select keeps a small non-negative word. -/
theorem select_nonneg (n : ℕ) (hn : n < 2 ^ 31) (c : BitVec 32) :
    Scalar.select (IntOp.cmpi .slt (BitVec.ofNat 32 n) 0#32) (IntOp.addi (BitVec.ofNat 32 n) c) (BitVec.ofNat 32 n)
      = BitVec.ofNat 32 n := by
  unfold Scalar.select
  rw [if_neg]
  intro h
  have := (slt_ofNat_iff n 0 hn (by norm_num)).1 h
  omega

theorem pos_small {p : ℕ} (h : p < 128) : pos p < 2 ^ 31 := by
  have := pos_lt h; omega

/-! ## The three index vectors, the selects, and the index table -/

section Table
variable {F : FTy → Type} [FloatOps F]

/-- The first index vector at p: the word of where p lands. -/
theorem v12_at (i : S128.Idx) : val_main_v12 (F := F) i = BitVec.ofNat 32 (pos (i 0).val) := by
  rw [val_main_v12_apply, val_main_v11_apply, val_main_v9_apply, val_main_v10_apply, val_main_v6_apply,
    val_main_v8_apply, val_main_v4_apply, val_main_v5_apply, val_main_v3_apply, val_main_v7_apply, val_main_c_apply]
  exact word_pos (i 0).val

/-- The second index vector at q. -/
theorem v22_at (i : S128.Idx) : val_main_v22 (F := F) i = BitVec.ofNat 32 (pos (i 0).val) := by
  rw [val_main_v22_apply, val_main_v21_apply, val_main_v19_apply, val_main_v20_apply, val_main_v16_apply,
    val_main_v18_apply, val_main_v14_apply, val_main_v15_apply, val_main_v13_apply, val_main_v17_apply, val_main_c_0_apply]
  exact word_pos (i 0).val

/-- The third index vector at r. -/
theorem v32_at (i : S128.Idx) : val_main_v32 (F := F) i = BitVec.ofNat 32 (pos (i 0).val) := by
  rw [val_main_v32_apply, val_main_v31_apply, val_main_v29_apply, val_main_v30_apply, val_main_v26_apply,
    val_main_v28_apply, val_main_v24_apply, val_main_v25_apply, val_main_v23_apply, val_main_v27_apply, val_main_c_1_apply]
  exact word_pos (i 0).val

/-- After the select on a negative word, the first vector is unchanged. -/
theorem v41_at (i : S128x1x1.Idx) : val_main_v41 (F := F) i = BitVec.ofNat 32 (pos (i 0).val) := by
  rw [val_main_v41_apply, val_main_v38_apply, val_main_v40_apply, val_main_v34_apply, val_main_v37_apply,
    val_main_c_2_apply, v12_at]
  exact select_nonneg _ (pos_small (i 0).isLt) _

/-- After the select, the second vector is unchanged. -/
theorem v46_at (i : S1x128x1.Idx) : val_main_v46 (F := F) i = BitVec.ofNat 32 (pos (i 1).val) := by
  rw [val_main_v46_apply, val_main_v43_apply, val_main_v45_apply, val_main_v35_apply, val_main_v42_apply,
    val_main_c_4_apply, v22_at]
  exact select_nonneg _ (pos_small (i 1).isLt) _

/-- After the select, the third vector is unchanged. -/
theorem v51_at (i : S1x1x128.Idx) : val_main_v51 (F := F) i = BitVec.ofNat 32 (pos (i 2).val) := by
  rw [val_main_v51_apply, val_main_v48_apply, val_main_v50_apply, val_main_v36_apply, val_main_v47_apply,
    val_main_c_6_apply, v32_at]
  exact select_nonneg _ (pos_small (i 2).isLt) _

/-- The index table's component 0 at (p, q, r): where p lands. -/
theorem v58_at0 (p q r : Fin 128) :
    val_main_v58 (F := F) (ix4 p q r (0 : Fin 3)) = BitVec.ofNat 32 (pos p.val) := by
  unfold val_main_v58
  refine (concatenate_apply_piece (3 : Fin S128x128x128x3.rank) _ _ (ix4 p q r (0 : Fin 3)) 0 (by show (0 : ℕ) < 3; omega)
    S128x128x128x1 (val_main_v55 (F := F)) rfl rfl 0 rfl (ix4 p q r (0 : Fin 1)) (fun b hb => ?_) rfl).trans ?_
  · match b with
    | ⟨0, _⟩ => rfl
    | ⟨1, _⟩ => rfl
    | ⟨2, _⟩ => rfl
    | ⟨3, _⟩ => exact absurd rfl hb
  · rw [val_main_v55_apply, val_main_v52_apply, v41_at]

/-- The index table's component 1 at (p, q, r): where q lands. -/
theorem v58_at1 (p q r : Fin 128) :
    val_main_v58 (F := F) (ix4 p q r (1 : Fin 3)) = BitVec.ofNat 32 (pos q.val) := by
  unfold val_main_v58
  refine (concatenate_apply_piece (3 : Fin S128x128x128x3.rank) _ _ (ix4 p q r (1 : Fin 3)) 1 (by show (1 : ℕ) < 3; omega)
    S128x128x128x1 (val_main_v56 (F := F)) rfl rfl 1 rfl (ix4 p q r (0 : Fin 1)) (fun b hb => ?_) rfl).trans ?_
  · match b with
    | ⟨0, _⟩ => rfl
    | ⟨1, _⟩ => rfl
    | ⟨2, _⟩ => rfl
    | ⟨3, _⟩ => exact absurd rfl hb
  · rw [val_main_v56_apply, val_main_v53_apply, v46_at]

/-- The index table's component 2 at (p, q, r): where r lands. -/
theorem v58_at2 (p q r : Fin 128) :
    val_main_v58 (F := F) (ix4 p q r (2 : Fin 3)) = BitVec.ofNat 32 (pos r.val) := by
  unfold val_main_v58
  refine (concatenate_apply_piece (3 : Fin S128x128x128x3.rank) _ _ (ix4 p q r (2 : Fin 3)) 2 (by show (2 : ℕ) < 3; omega)
    S128x128x128x1 (val_main_v57 (F := F)) rfl rfl 2 rfl (ix4 p q r (0 : Fin 1)) (fun b hb => ?_) rfl).trans ?_
  · match b with
    | ⟨0, _⟩ => rfl
    | ⟨1, _⟩ => rfl
    | ⟨2, _⟩ => rfl
    | ⟨3, _⟩ => exact absurd rfl hb
  · rw [val_main_v57_apply, val_main_v54_apply, v51_at]

end Table

/-! ## Where an update element lands -/

/-- The scatter's dimension numbers. -/
abbrev dS := scatter_S1x16x68x68x68_S128x128x128x3_S1x16x128x128x128_01_234_234_3

theorem siIdx0 (j : S1x16x128x128x128.Idx) :
    dS.siIdx j ⟨0, by decide⟩
      = (ix4 (n0 := 128) (n1 := 128) (n2 := 128) (j 2) (j 3) (j 4) (0 : Fin 3) : S128x128x128x3.Idx) := by
  funext b
  match b with
  | ⟨0, _⟩ => rfl
  | ⟨1, _⟩ => rfl
  | ⟨2, _⟩ => rfl
  | ⟨3, _⟩ => rfl

theorem siIdx1 (j : S1x16x128x128x128.Idx) :
    dS.siIdx j ⟨1, by decide⟩
      = (ix4 (n0 := 128) (n1 := 128) (n2 := 128) (j 2) (j 3) (j 4) (1 : Fin 3) : S128x128x128x3.Idx) := by
  funext b
  match b with
  | ⟨0, _⟩ => rfl
  | ⟨1, _⟩ => rfl
  | ⟨2, _⟩ => rfl
  | ⟨3, _⟩ => rfl

theorem siIdx2 (j : S1x16x128x128x128.Idx) :
    dS.siIdx j ⟨2, by decide⟩
      = (ix4 (n0 := 128) (n1 := 128) (n2 := 128) (j 2) (j 3) (j 4) (2 : Fin 3) : S128x128x128x3.Idx) := by
  funext b
  match b with
  | ⟨0, _⟩ => rfl
  | ⟨1, _⟩ => rfl
  | ⟨2, _⟩ => rfl
  | ⟨3, _⟩ => rfl

section StartWindow
variable (j : S1x16x128x128x128.Idx) (idx : IVec S128x128x128x3 32)

theorem start0 : dS.start j idx 0 = 0 := rfl
theorem start1 : dS.start j idx 1 = 0 := rfl
theorem start2 :
    dS.start j idx 2 = (idx (ix4 (n0 := 128) (n1 := 128) (n2 := 128) (j 2) (j 3) (j 4) (0 : Fin 3))).toInt := by
  rw [← siIdx0]; rfl
theorem start3 :
    dS.start j idx 3 = (idx (ix4 (n0 := 128) (n1 := 128) (n2 := 128) (j 2) (j 3) (j 4) (1 : Fin 3))).toInt := by
  rw [← siIdx1]; rfl
theorem start4 :
    dS.start j idx 4 = (idx (ix4 (n0 := 128) (n1 := 128) (n2 := 128) (j 2) (j 3) (j 4) (2 : Fin 3))).toInt := by
  rw [← siIdx2]; rfl
theorem window0 : dS.window j 0 = (j 0).val := rfl
theorem window1 : dS.window j 1 = (j 1).val := rfl
theorem window2 : dS.window j 2 = 0 := rfl
theorem window3 : dS.window j 3 = 0 := rfl
theorem window4 : dS.window j 4 = 0 := rfl

end StartWindow

/-- An update whose start plus window coordinate is a known index of the operand lands exactly there. -/
theorem resultIdx?_eq_some_iff {s si u : Shape} (d : ScatterDims s si u) {w : Nat} (j : u.Idx) (idx : IVec si w)
    (tgt : s.Idx) (h : ∀ a, d.start j idx a + (d.window j a : Int) = ((tgt a).val : Int)) (i : s.Idx) :
    d.resultIdx? j idx = some i ↔ tgt = i := by
  have hh : ∀ a, 0 ≤ d.start j idx a + d.window j a ∧ d.start j idx a + d.window j a < s.size a := fun a => by
    rw [h a]; exact ⟨Int.natCast_nonneg _, by exact_mod_cast (tgt a).isLt⟩
  unfold ScatterDims.resultIdx?
  rw [dif_pos hh, Option.some.injEq]
  constructor
  · intro e; rw [← e]; funext a; apply Fin.ext
    show (tgt a).val = (d.start j idx a + (d.window j a : Int)).toNat
    rw [h a]; simp
  · intro e; rw [← e]; funext a; apply Fin.ext
    show (d.start j idx a + (d.window j a : Int)).toNat = (tgt a).val
    rw [h a]; simp

/-- Where update element j lands: its two leading coordinates kept, each merged coordinate sent to its position. -/
def tgt (j : S1x16x128x128x128.Idx) : S1x16x68x68x68.Idx :=
  ix5 (j 0 : Fin 1) (j 1 : Fin 16) (⟨pos (j 2).val, pos_lt (j 2).isLt⟩ : Fin 68) (⟨pos (j 3).val, pos_lt (j 3).isLt⟩ : Fin 68)
    (⟨pos (j 4).val, pos_lt (j 4).isLt⟩ : Fin 68)

/-- Over an index table whose components are the positions, start plus window coordinate is tgt on every axis. -/
theorem start_window (j : S1x16x128x128x128.Idx) (idx : IVec S128x128x128x3 32)
    (hv0 : ∀ p q r : Fin 128, idx (ix4 p q r (0 : Fin 3)) = BitVec.ofNat 32 (pos p.val))
    (hv1 : ∀ p q r : Fin 128, idx (ix4 p q r (1 : Fin 3)) = BitVec.ofNat 32 (pos q.val))
    (hv2 : ∀ p q r : Fin 128, idx (ix4 p q r (2 : Fin 3)) = BitVec.ofNat 32 (pos r.val)) :
    ∀ a, dS.start j idx a + (dS.window j a : Int) = ((tgt j a).val : Int) := by
  have small : ∀ p : Fin 128, pos p.val < 2 ^ 31 := fun p => pos_small p.isLt
  intro a
  match a with
  | ⟨0, _⟩ => rw [show (⟨0, _⟩ : Fin S1x16x68x68x68.rank) = 0 from rfl, start0, window0]; simp [tgt]
  | ⟨1, _⟩ => rw [show (⟨1, _⟩ : Fin S1x16x68x68x68.rank) = 1 from rfl, start1, window1]; simp [tgt]
  | ⟨2, _⟩ =>
    rw [show (⟨2, _⟩ : Fin S1x16x68x68x68.rank) = 2 from rfl, start2, window2, hv0 (j 2) (j 3) (j 4),
      toInt_ofNat_small _ (small (j 2))]; simp [tgt]
  | ⟨3, _⟩ =>
    rw [show (⟨3, _⟩ : Fin S1x16x68x68x68.rank) = 3 from rfl, start3, window3, hv1 (j 2) (j 3) (j 4),
      toInt_ofNat_small _ (small (j 3))]; simp [tgt]
  | ⟨4, _⟩ =>
    rw [show (⟨4, _⟩ : Fin S1x16x68x68x68.rank) = 4 from rfl, start4, window4, hv2 (j 2) (j 3) (j 4),
      toInt_ofNat_small _ (small (j 4))]; simp [tgt]

/-! ## The sum of the updates landing on one output index -/

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- An update element lands on a given output index exactly when its leading coordinates are the index's and its
    merged coordinates land on the index's. -/
theorem tgt_eq_iff (a : Fin 1) (b : Fin 16) (c d e : Fin 128) (i0 : Fin 1) (i1 : Fin 16) (i2 i3 i4 : Fin 68) :
    tgt (ix5 a b c d e) = ix5 i0 i1 i2 i3 i4
      ↔ a = i0 ∧ b = i1 ∧ pos c.val = i2.val ∧ pos d.val = i3.val ∧ pos e.val = i4.val := by
  constructor
  · intro h
    exact ⟨congrFun h 0, congrFun h 1, congrArg Fin.val (congrFun h 2), congrArg Fin.val (congrFun h 3),
      congrArg Fin.val (congrFun h 4)⟩
  · rintro ⟨h0, h1, h2, h3, h4⟩
    funext k
    match k with
    | ⟨0, _⟩ => exact h0
    | ⟨1, _⟩ => exact h1
    | ⟨2, _⟩ => exact Fin.ext h2
    | ⟨3, _⟩ => exact Fin.ext h3
    | ⟨4, _⟩ => exact Fin.ext h4

/-- The updates landing on an output index, summed: the triple sum over the merged axes of the entries that land there. -/
theorem scatter_sum (X : S1x16x128x128x128.Idx → EReal) (i0 : Fin 1) (i1 : Fin 16) (i2 i3 i4 : Fin 68) :
    ∑ j ∈ Finset.univ.filter (fun j => tgt j = ix5 i0 i1 i2 i3 i4), X j
      = ∑ p ∈ Finset.range 128, ∑ q ∈ Finset.range 128, ∑ r ∈ Finset.range 128,
          if pos p = i2.val ∧ pos q = i3.val ∧ pos r = i4.val then
            (if h : p < 128 ∧ q < 128 ∧ r < 128 then X (ix5 i0 i1 ⟨p, h.1⟩ ⟨q, h.2.1⟩ ⟨r, h.2.2⟩) else 0)
          else 0 := by
  rw [Finset.sum_filter, sum_idx5]
  rw [Finset.sum_eq_single i0 (fun a _ ha => ?_) (fun h => absurd (Finset.mem_univ _) h)]
  rw [Finset.sum_eq_single i1 (fun b _ hb => ?_) (fun h => absurd (Finset.mem_univ _) h)]
  · simp only [Finset.sum_range]
    refine Finset.sum_congr rfl fun c _ => Finset.sum_congr rfl fun d _ => Finset.sum_congr rfl fun e _ => ?_
    rw [dif_pos ⟨c.isLt, d.isLt, e.isLt⟩]
    refine if_congr ?_ rfl rfl
    rw [tgt_eq_iff]
    exact ⟨fun h => h.2.2, fun h => ⟨rfl, rfl, h⟩⟩
  · refine Finset.sum_eq_zero fun c _ => Finset.sum_eq_zero fun d _ => Finset.sum_eq_zero fun e _ => if_neg ?_
    rw [tgt_eq_iff]; exact fun h => hb h.2.1
  · refine Finset.sum_eq_zero fun b _ => Finset.sum_eq_zero fun c _ => Finset.sum_eq_zero fun d _ =>
      Finset.sum_eq_zero fun e _ => if_neg ?_
    rw [tgt_eq_iff]; exact fun h => ha h.1

/-! ## The reference's result at an index -/

/-- The zero operand. -/
theorem v33_at (i : S1x16x68x68x68.Idx) : val_main_v33 (F := Ideal) i = 0 := by
  rw [val_main_v33_apply, val_main_cst_apply]
  exact Ideal.ofBits_zero_f32

/-- The scatter-add at the ideal instance: the operand's element plus the sum of the updates landing on it. -/
theorem v59_eq (x0 : (⟨S1x16x8x8x8x4096, .f32⟩ : BufTy).Contents (Elt Ideal)) (i : S1x16x68x68x68.Idx) :
    val_main_v59 (F := Ideal) x0 i
      = val_main_v33 (F := Ideal) i
        + ∑ j ∈ Finset.univ.filter (fun j => dS.resultIdx? j (val_main_v58 (F := Ideal)) = some i),
            val_main_v2 (F := Ideal) x0 j := rfl

/-- The reference at an output index given by its coordinates. -/
theorem ref_apply_coords (x0 : (⟨S1x16x8x8x8x4096, .f32⟩ : BufTy).Contents (Elt Ideal))
    (i0 : Fin 1) (i1 : Fin 16) (i2 i3 i4 : Fin 68) :
    val_main_v59 (F := Ideal) x0 (ix5 i0 i1 i2 i3 i4)
      = fold3 (fun p q r => if h : p < 128 ∧ q < 128 ∧ r < 128 then
            (val_main_v2 (F := Ideal) x0) (ix5 i0 i1 ⟨p, h.1⟩ ⟨q, h.2.1⟩ ⟨r, h.2.2⟩) else 0)
          i2.val i3.val i4.val := by
  rw [fold3_eq_sum, v59_eq, v33_at, zero_add,
    Finset.filter_congr fun j _ => resultIdx?_eq_some_iff dS j (val_main_v58 (F := Ideal)) (tgt j)
      (start_window j _ v58_at0 v58_at1 v58_at2) (ix5 i0 i1 i2 i3 i4)]
  exact scatter_sum (val_main_v2 (F := Ideal) x0) i0 i1 i2 i3 i4

/-- The reference at an output index: the three-axis fold of the re-laid input's entries at that index's two leading
    coordinates. -/
theorem ref_apply (x0 : (⟨Cert.ReferenceIdeal.S1x16x8x8x8x4096, .f32⟩ : BufTy).Contents (Elt Ideal))
    (i : Cert.ReferenceIdeal.S1x16x68x68x68.Idx) :
    Cert.ReferenceIdeal.Read.val_main_v59 (F := Ideal) x0 i
      = Cert.FoldSpec.fold3 (fun p q r => if h : p < 128 ∧ q < 128 ∧ r < 128 then
            (Cert.ReferenceIdeal.Read.val_main_v2 (F := Ideal) x0) (ValueIdx.ix5 (i 0) (i 1) ⟨p, h.1⟩ ⟨q, h.2.1⟩ ⟨r, h.2.2⟩) else 0)
          (i 2).val (i 3).val (i 4).val := by
  exact (congrArg (val_main_v59 (F := Ideal) x0) (eq_ix5 i)).trans (ref_apply_coords x0 (i 0) (i 1) (i 2) (i 3) (i 4))

end Cert.ReferenceIdeal.RefValue

end
-- ==== Proof.lean ====
/-
  A three-axis "fold" (overlapping-window scatter-add): sixteen windows of width 8 at stride 4 on each of three axes are
  added into a 68 × 68 × 68 output. The kernel folds one axis at a time, in three pallas_calls, each accumulating the
  sixteen windows of a channel block into a length-68 accumulator; the reference scatters every entry of the re-laid
  input at once through a three-axis index table into a zero array. Over the extended reals both are the same finite sum:
  at output position (a, b, d) the entries (p, q, r) of the re-laid input with 4 (p / 8) + p % 8 = a, and likewise b, d
  (Cert.FoldSpec.fold3). Addition of extended reals is commutative and associative, so the grouping does not matter and
  the inputs' finiteness is not used.
  The three frames: the kernel's, at both instances, from the three calls' body obligations over the generated thread
  states; the reference's is its generated run with the result dropped. The ideal pass rewrote nothing.
-/
import proofs.«112882_j45174466019398_1_alg».proof.Defs
import proofs.«112882_j45174466019398_1_alg».proof.Proof.Gen.Kernel
import proofs.«112882_j45174466019398_1_alg».proof.Proof.Gen.KernelIdeal
import proofs.«112882_j45174466019398_1_alg».proof.Proof.Gen.ReferenceIdeal
import proofs.«112882_j45174466019398_1_alg».proof.Proof.Gen.Pre_finite_inputs
import proofs.«112882_j45174466019398_1_alg».proof.Proof.K.Regs
import proofs.«112882_j45174466019398_1_alg».proof.Proof.KI.RunVal
import proofs.«112882_j45174466019398_1_alg».proof.Proof.KI.KVal
import proofs.«112882_j45174466019398_1_alg».proof.Proof.RefSide

noncomputable section

namespace Cert.Proof

open Idealize.ShloMosaic Idealize.ShloMosaic.TcCoe Idealize.SL.Sem

theorem frame_k : Cert.frame_Kernel := fun m ρ _ => Cert.Kernel.Fold.frame m ρ
theorem frame_ki : Cert.frame_KernelIdeal := fun m ρ _ => Cert.KernelIdeal.Fold.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal instance the kernel's result array and the reference's are the three-axis fold of one re-laid input. -/
theorem algebraic : Cert.algebraic_KernelIdeal_ReferenceIdeal := by
  intro m ρ m' ρ' _ hagree
  refine ⟨fun c => Cert.KernelIdeal.Fold.W7 (F := Ideal) m c Cert.KernelIdeal.main_v10, Cert.KernelIdeal.Fold.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, hagree c]
  funext i
  rw [Cert.ReferenceIdeal.RefValue.ref_apply]
  refine Eq.trans ?_ (Cert.KernelIdeal.Fold.kernel_apply m c i).symm
  -- both programs re-lay the argument by the same three host operations: what they read of it is one array
  have hx : (Cert.KernelIdeal.Fold.W1 (F := Ideal) m c Cert.KernelIdeal.main_v2 : Cert.KernelIdeal.S1x16x128x128x128.Idx → EReal)
      = Cert.ReferenceIdeal.Read.val_main_v2 (F := Ideal) (m ((c.tc : Thread Cert.KernelIdeal.nD Cert.KernelIdeal.τ).loc Cert.KernelIdeal.main_arg0)) :=
    (Cert.KernelIdeal.Fold.W1_main_v2 m c).trans rfl
  rw [hx]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
